-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S59392x116 : Shape := ⟨2, ![59392, 116]⟩
abbrev S2x950272 : Shape := ⟨2, ![2, 950272]⟩
abbrev S950272x5 : Shape := ⟨2, ![950272, 5]⟩
abbrev S59392 : Shape := ⟨1, ![59392]⟩
abbrev S8x16 : Shape := ⟨2, ![8, 16]⟩
abbrev S132x256 : Shape := ⟨2, ![132, 256]⟩
abbrev S256 : Shape := ⟨1, ![256]⟩
abbrev S5x256 : Shape := ⟨2, ![5, 256]⟩
abbrev S256x256 : Shape := ⟨2, ![256, 256]⟩
abbrev S_ : Shape := ⟨0, ![]⟩
abbrev S1x950272 : Shape := ⟨2, ![1, 950272]⟩
abbrev S950272 : Shape := ⟨1, ![950272]⟩

class Facts : Prop where
  bcast_S_S59392x116 : S_.BroadcastsInDim S59392x116 (![] : Fin 0 → Fin S59392x116.rank)
  reducesTo_S59392x116_S_d0_1 : S59392x116.ReducesTo [0, 1] S_
  h_S_ : 0 < S_.numel
  bcast_S_S950272x5 : S_.BroadcastsInDim S950272x5 (![] : Fin 0 → Fin S950272x5.rank)
  reducesTo_S950272x5_S_d0_1 : S950272x5.ReducesTo [0, 1] S_
  bcast_S_S8x16 : S_.BroadcastsInDim S8x16 (![] : Fin 0 → Fin S8x16.rank)
  reducesTo_S8x16_S_d0_1 : S8x16.ReducesTo [0, 1] S_
  bcast_S_S132x256 : S_.BroadcastsInDim S132x256 (![] : Fin 0 → Fin S132x256.rank)
  reducesTo_S132x256_S_d0_1 : S132x256.ReducesTo [0, 1] S_
  bcast_S_S256 : S_.BroadcastsInDim S256 (![] : Fin 0 → Fin S256.rank)
  reducesTo_S256_S_d0 : S256.ReducesTo [0] S_
  bcast_S_S5x256 : S_.BroadcastsInDim S5x256 (![] : Fin 0 → Fin S5x256.rank)
  reducesTo_S5x256_S_d0_1 : S5x256.ReducesTo [0, 1] S_
  bcast_S_S256x256 : S_.BroadcastsInDim S256x256 (![] : Fin 0 → Fin S256x256.rank)
  reducesTo_S256x256_S_d0_1 : S256x256.ReducesTo [0, 1] S_
  bcast_S_S59392 : S_.BroadcastsInDim S59392 (![] : Fin 0 → Fin S59392.rank)
  reducesTo_S59392_S_d0 : S59392.ReducesTo [0] S_
  slices_S2x950272_S1x950272_0_0 : S2x950272.Slices ![0, 0] S1x950272
  shapeCasts_S1x950272_S950272 : S1x950272.ShapeCasts S950272
  bcast_S_S950272 : S_.BroadcastsInDim S950272 (![] : Fin 0 → Fin S950272.rank)
  reducesTo_S950272_S_d0 : S950272.ReducesTo [0] S_

variable [Facts]

def fn_part4 {F : FTy → Type} [FloatOps F] (main_arg1 : IVec S2x950272 32) (main_v63 : IVec S_ 1) (main_v65 : IVec S59392 1) (main_v67 : IVec S59392 1) : IVec S_ 1 :=
  let main_v68 : IVec S59392 1 := andi main_v65 main_v67
  let main_c_26 : IVec S_ 1 := constantI S_ 1 1#1
  let main_v69 : IVec S_ 1 := (fun x v => Host.reduce IntOp.andi x v reducesTo_S59392_S_d0 h_S_) main_v68 main_c_26
  let main_v70 : IVec S_ 1 := andi main_v63 main_v69
  let main_v71 : IVec S1x950272 32 := (extractStridedSlice S1x950272 ![0, 0] · slices_S2x950272_S1x950272_0_0) main_arg1
  let main_v72 : IVec S950272 32 := shapeCast S950272 main_v71 shapeCasts_S1x950272_S950272
  let main_c_27 : IVec S_ 32 := constantI S_ 32 4294907904#32
  let main_v73 : IVec S950272 32 := broadcastInDim S950272 ![] bcast_S_S950272 main_c_27
  let main_v74 : IVec S950272 1 := cmpi .sge main_v72 main_v73
  let main_v75 : IVec S1x950272 32 := (extractStridedSlice S1x950272 ![0, 0] · slices_S2x950272_S1x950272_0_0) main_arg1
  let main_v76 : IVec S950272 32 := shapeCast S950272 main_v75 shapeCasts_S1x950272_S950272
  let main_c_28 : IVec S_ 32 := constantI S_ 32 59392#32
  let main_v77 : IVec S950272 32 := broadcastInDim S950272 ![] bcast_S_S950272 main_c_28
  let main_v78 : IVec S950272 1 := cmpi .slt main_v76 main_v77
  let main_v79 : IVec S950272 1 := andi main_v74 main_v78
  let main_c_29 : IVec S_ 1 := constantI S_ 1 1#1
  let main_v80 : IVec S_ 1 := (fun x v => Host.reduce IntOp.andi x v reducesTo_S950272_S_d0 h_S_) main_v79 main_c_29
  let main_v81 : IVec S_ 1 := andi main_v70 main_v80
  main_v81

def fn_part3 {F : FTy → Type} [FloatOps F] (main_arg1 : IVec S2x950272 32) (main_arg3 : IVec S59392 32) (main_arg13 : FVec F S256x256 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_c_24 : IVec S_ 32 := constantI S_ 32 4294967288#32
  let main_v64 : IVec S59392 32 := broadcastInDim S59392 ![] bcast_S_S59392 main_c_24
  let main_v65 : IVec S59392 1 := cmpi .sge main_arg3 main_v64
  let main_c_25 : IVec S_ 32 := constantI S_ 32 8#32
  let main_v66 : IVec S59392 32 := broadcastInDim S59392 ![] bcast_S_S59392 main_c_25
  let main_v67 : IVec S59392 1 := cmpi .slt main_arg3 main_v66
  fn_part4 (F := F) main_arg1 main_v63 main_v65 main_v67

def fn_part2 {F : FTy → Type} [FloatOps F] (main_arg1 : IVec S2x950272 32) (main_arg3 : IVec S59392 32) (main_arg9 : FVec F S5x256 .f32) (main_arg10 : FVec F S256 .f32) (main_arg11 : FVec F S256x256 .f32) (main_arg12 : FVec F S256 .f32) (main_arg13 : FVec F S256x256 .f32) (main_arg14 : FVec F S256 .f32) (main_v33 : IVec S_ 1) : IVec S_ 1 :=
  let main_v34 : FVec F S5x256 .f32 := Host.absf main_arg9
  let main_cst_12 : FVec F S_ .f32 := constant S_ .f32 0x7F800000#32
  let main_v35 : FVec F S5x256 .f32 := broadcastInDim S5x256 ![] bcast_S_S5x256 main_cst_12
  let main_v36 : IVec S5x256 1 := cmpf .olt main_v34 main_v35
  let main_c_13 : IVec S_ 1 := constantI S_ 1 1#1
  let main_v37 : IVec S_ 1 := (fun x v => Host.reduce IntOp.andi x v reducesTo_S5x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg1 main_arg3 main_arg13 main_arg14 main_v48 main_v49 main_v50

def fn_part1 {F : FTy → Type} [FloatOps F] (main_arg1 : IVec S2x950272 32) (main_arg3 : IVec S59392 32) (main_arg6 : FVec F S256 .f32) (main_arg7 : FVec F S256 .f32) (main_arg8 : FVec F S256 .f32) (main_arg9 : FVec F S5x256 .f32) (main_arg10 : FVec F S256 .f32) (main_arg11 : FVec F S256x256 .f32) (main_arg12 : FVec F S256 .f32) (main_arg13 : FVec F S256x256 .f32) (main_arg14 : FVec F S256 .f32) (main_v13 : IVec S_ 1) (main_v16 : IVec S132x256 1) : IVec S_ 1 :=
  let main_c_5 : IVec S_ 1 := constantI S_ 1 1#1
  let main_v17 : IVec S_ 1 := (fun x v => Host.reduce IntOp.andi x v reducesTo_S132x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg3 main_arg9 main_arg10 main_arg11 main_arg12 main_arg13 main_arg14 main_v33

def fn {F : FTy → Type} [FloatOps F] (main_arg0 : FVec F S59392x116 .f32) (main_arg1 : IVec S2x950272 32) (main_arg2 : FVec F S950272x5 .f32) (main_arg3 : IVec S59392 32) (main_arg4 : FVec F S8x16 .f32) (main_arg5 : FVec F S132x256 .f32) (main_arg6 : FVec F S256 .f32) (main_arg7 : FVec F S256 .f32) (main_arg8 : FVec F S256 .f32) (main_arg9 : FVec F S5x256 .f32) (main_arg10 : FVec F S256 .f32) (main_arg11 : FVec F S256x256 .f32) (main_arg12 : FVec F S256 .f32) (main_arg13 : FVec F S256x256 .f32) (main_arg14 : FVec F S256 .f32) : IVec S_ 1 :=
  let main_v0 : FVec F S59392x116 .f32 := Host.absf main_arg0
  let main_cst : FVec F S_ .f32 := constant S_ .f32 0x7F800000#32
  let main_v1 : FVec F S59392x116 .f32 := broadcastInDim S59392x116 ![] bcast_S_S59392x116 main_cst
  let main_v2 : IVec S59392x116 1 := cmpf .olt main_v0 main_v1
  let main_c : IVec S_ 1 := constantI S_ 1 1#1
  let main_v3 : IVec S_ 1 := (fun x v => Host.reduce IntOp.andi x v reducesTo_S59392x116_S_d0_1 h_S_) main_v2 main_c
  let main_v4 : FVec F S950272x5 .f32 := Host.absf main_arg2
  let main_cst_0 : FVec F S_ .f32 := constant S_ .f32 0x7F800000#32
  let main_v5 : FVec F S950272x5 .f32 := broadcastInDim S950272x5 ![] bcast_S_S950272x5 main_cst_0
  let main_v6 : IVec S950272x5 1 := cmpf .olt main_v4 main_v5
  let main_c_1 : IVec S_ 1 := constantI S_ 1 1#1
  let main_v7 : IVec S_ 1 := (fun x v => Host.reduce IntOp.andi x v reducesTo_S950272x5_S_d0_1 h_S_) main_v6 main_c_1
  let main_v8 : IVec S_ 1 := andi main_v3 main_v7
  let main_v9 : FVec F S8x16 .f32 := Host.absf main_arg4
  let main_cst_2 : FVec F S_ .f32 := constant S_ .f32 0x7F800000#32
  let main_v10 : FVec F S8x16 .f32 := broadcastInDim S8x16 ![] bcast_S_S8x16 main_cst_2
  let main_v11 : IVec S8x16 1 := cmpf .olt main_v9 main_v10
  let main_c_3 : IVec S_ 1 := constantI S_ 1 1#1
  let main_v12 : IVec S_ 1 := (fun x v => Host.reduce IntOp.andi x v reducesTo_S8x16_S_d0_1 h_S_) main_v11 main_c_3
  let main_v13 : IVec S_ 1 := andi main_v8 main_v12
  let main_v14 : FVec F S132x256 .f32 := Host.absf main_arg5
  let main_cst_4 : FVec F S_ .f32 := constant S_ .f32 0x7F800000#32
  let main_v15 : FVec F S132x256 .f32 := broadcastInDim S132x256 ![] bcast_S_S132x256 main_cst_4
  let main_v16 : IVec S132x256 1 := cmpf .olt main_v14 main_v15
  fn_part1 (F := F) main_arg1 main_arg3 main_arg6 main_arg7 main_arg8 main_arg9 main_arg10 main_arg11 main_arg12 main_arg13 main_arg14 main_v13 main_v16
-- ==== Kernel.lean ====
abbrev S59392x116 : Shape := ⟨2, ![59392, 116]⟩
abbrev S2x950272 : Shape := ⟨2, ![2, 950272]⟩
abbrev S950272x5 : Shape := ⟨2, ![950272, 5]⟩
abbrev S59392 : Shape := ⟨1, ![59392]⟩
abbrev S8x16 : Shape := ⟨2, ![8, 16]⟩
abbrev S132x256 : Shape := ⟨2, ![132, 256]⟩
abbrev S256 : Shape := ⟨1, ![256]⟩
abbrev S5x256 : Shape := ⟨2, ![5, 256]⟩
abbrev S256x256 : Shape := ⟨2, ![256, 256]⟩
abbrev S1x256 : Shape := ⟨2, ![1, 256]⟩
abbrev S_ : Shape := ⟨0, ![]⟩
abbrev S59392x1 : Shape := ⟨2, ![59392, 1]⟩
abbrev S1 : Shape := ⟨1, ![1]⟩
abbrev S1x1 : Shape := ⟨2, ![1, 1]⟩
abbrev S59392x16 : Shape := ⟨2, ![59392, 16]⟩
abbrev S59392x256 : Shape := ⟨2, ![59392, 256]⟩
abbrev S1024x116 : Shape := ⟨2, ![1024, 116]⟩
abbrev S1024x16 : Shape := ⟨2, ![1024, 16]⟩
abbrev S1024x256 : Shape := ⟨2, ![1024, 256]⟩
abbrev S1024x132 : Shape := ⟨2, ![1024, 132]⟩
abbrev S1x950272 : Shape := ⟨2, ![1, 950272]⟩
abbrev S950272 : Shape := ⟨1, ![950272]⟩
abbrev S950272x1 : Shape := ⟨2, ![950272, 1]⟩
abbrev S950272x256 : Shape := ⟨2, ![950272, 256]⟩
abbrev S4096x256 : Shape := ⟨2, ![4096, 256]⟩
abbrev S4096x5 : Shape := ⟨2, ![4096, 5]⟩

abbrev nBuf : Space → Nat
  | .hbm => 96
  | .vmem => 34
  | .smem => 0
  | _ => 0

abbrev bufTy : (tb : Table) → Fin (tcTables nBuf tb) → BufTy
  | .hbm, ⟨0, _⟩ => ⟨S59392x116, .f32⟩
  | .hbm, ⟨1, _⟩ => ⟨S2x950272, .i32⟩
  | .hbm, ⟨2, _⟩ => ⟨S950272x5, .f32⟩
  | .hbm, ⟨3, _⟩ => ⟨S59392, .i32⟩
  | .hbm, ⟨4, _⟩ => ⟨S8x16, .f32⟩
  | .hbm, ⟨5, _⟩ => ⟨S132x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S5x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .i32⟩
  | .hbm, ⟨20, _⟩ => ⟨S59392, .i32⟩
  | .hbm, ⟨21, _⟩ => ⟨S59392, .i1⟩
  | .hbm, ⟨22, _⟩ => ⟨S_, .i32⟩
  | .hbm, ⟨23, _⟩ => ⟨S59392, .i32⟩
  | .hbm, ⟨24, _⟩ => ⟨S59392, .i32⟩
  | .hbm, ⟨25, _⟩ => ⟨S59392, .i32⟩
  | .hbm, ⟨26, _⟩ => ⟨S59392x1, .i32⟩
  | .hbm, ⟨27, _⟩ => ⟨S1, .i32⟩
  | .hbm, ⟨28, _⟩ => ⟨S_, .i32⟩
  | .hbm, ⟨29, _⟩ => ⟨S59392x1, .i32⟩
  | .hbm, ⟨30, _⟩ => ⟨S59392x1, .i1⟩
  | .hbm, ⟨31, _⟩ => ⟨S1x1, .i32⟩
  | .hbm, ⟨32, _⟩ => ⟨S59392x1, .i32⟩
  | .hbm, ⟨33, _⟩ => ⟨S59392x1, .i1⟩
  | .hbm, ⟨34, _⟩ => ⟨S59392x1, .i1⟩
  | .hbm, ⟨35, _⟩ => ⟨S_, .i1⟩
  | .hbm, ⟨36, _⟩ => ⟨S59392, .i1⟩
  | .hbm, ⟨37, _⟩ => ⟨S59392x16, .f32⟩
  | .hbm, ⟨38, _⟩ => ⟨S59392x16, .i1⟩
  | .hbm, ⟨39, _⟩ => ⟨S_, .f32⟩
  | .hbm, ⟨40, _⟩ => ⟨S59392x16, .f32⟩
  | .hbm, ⟨41, _⟩ => ⟨S59392x16, .f32⟩
  | .hbm, ⟨42, _⟩ => ⟨S59392x256, .f32⟩
  | .hbm, ⟨43, _⟩ => ⟨S1x256, .f32⟩
  | .hbm, ⟨44, _⟩ => ⟨S1x256, .f32⟩
  | .hbm, ⟨45, _⟩ => ⟨S_, .f32⟩
  | .hbm, ⟨46, _⟩ => ⟨S1x256, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S_, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S59392x256, .f32⟩
  | .hbm, ⟨63, _⟩ => ⟨S1x950272, .i32⟩
  | .hbm, ⟨64, _⟩ => ⟨S950272, .i32⟩
  | .hbm, ⟨65, _⟩ => ⟨S1x950272, .i32⟩
  | .hbm, ⟨66, _⟩ => ⟨S950272, .i32⟩
  | .hbm, ⟨67, _⟩ => ⟨S_, .i32⟩
  | .hbm, ⟨68, _⟩ => ⟨S950272, .i32⟩
  | .hbm, ⟨69, _⟩ => ⟨S950272, .i1⟩
  | .hbm, ⟨70, _⟩ => ⟨S_, .i32⟩
  | .hbm, ⟨71, _⟩ => ⟨S950272, .i32⟩
  | .hbm, ⟨72, _⟩ => ⟨S950272, .i32⟩
  | .hbm, ⟨73, _⟩ => ⟨S950272, .i32⟩
  | .hbm, ⟨74, _⟩ => ⟨S950272x1, .i32⟩
  | .hbm, ⟨75, _⟩ => ⟨S1, .i32⟩
  | .hbm, ⟨76, _⟩ => ⟨S_, .i32⟩
  | .hbm, ⟨77, _⟩ => ⟨S950272x1, .i32⟩
  | .hbm, ⟨78, _⟩ => ⟨S950272x1, .i1⟩
  | .hbm, ⟨79, _⟩ => ⟨S1x1, .i32⟩
  | .hbm, ⟨80, _⟩ => ⟨S950272x1, .i32⟩
  | .hbm, ⟨81, _⟩ => ⟨S950272x1, .i1⟩
  | .hbm, ⟨82, _⟩ => ⟨S950272x1, .i1⟩
  | .hbm, ⟨83, _⟩ => ⟨S_, .i1⟩
  | .hbm, ⟨84, _⟩ => ⟨S950272, .i1⟩
  | .hbm, ⟨85, _⟩ => ⟨S950272x256, .f32⟩
  | .hbm, ⟨86, _⟩ => ⟨S950272x256, .i1⟩
  | .hbm, ⟨87, _⟩ => ⟨S_, .f32⟩
  | .hbm, ⟨88, _⟩ => ⟨S950272x256, .f32⟩
  | .hbm, ⟨89, _⟩ => ⟨S950272x256, .f32⟩
  | .hbm, ⟨90, _⟩ => ⟨S950272x256, .f32⟩
  | .hbm, ⟨91, _⟩ => ⟨S_, .f32⟩
  | .hbm, ⟨92, _⟩ => ⟨S59392x256, .f32⟩
  | .hbm, ⟨93, _⟩ => ⟨S950272x1, .i32⟩
  | .hbm, ⟨94, _⟩ => ⟨S59392x256, .f32⟩
  | .hbm, ⟨95, _⟩ => ⟨S59392x256, .f32⟩
  | .local _ .vmem, ⟨0, _⟩ => ⟨S1024x116, .f32⟩
  | .local _ .vmem, ⟨1, _⟩ => ⟨S1024x116, .f32⟩
  | .local _ .vmem, ⟨2, _⟩ => ⟨S1024x16, .f32⟩
  | .local _ .vmem, ⟨3, _⟩ => ⟨S1024x16, .f32⟩
  | .local _ .vmem, ⟨4, _⟩ => ⟨S132x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | .local _ .vmem, ⟨8, _⟩ => ⟨S1x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S1x256, .f32⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | .local _ .vmem, ⟨16, _⟩ => ⟨S4096x256, .f32⟩
  | .local _ .vmem, ⟨17, _⟩ => ⟨S4096x256, .f32⟩
  | .local _ .vmem, ⟨18, _⟩ => ⟨S4096x5, .f32⟩
  | .local _ .vmem, ⟨19, _⟩ => ⟨S4096x5, .f32⟩
  | .local _ .vmem, ⟨20, _⟩ => ⟨S5x256, .f32⟩
  | .local _ .vmem, ⟨21, _⟩ => ⟨S1x256, .f32⟩
  | .local _ .vmem, ⟨22, _⟩ => ⟨S4096x256, .f32⟩
  | .local _ .vmem, ⟨23, _⟩ => ⟨S4096x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S256x256, .f32⟩
  | .local _ .vmem, ⟨29, _⟩ => ⟨S1x256, .f32⟩
  | .local _ .vmem, ⟨30, _⟩ => ⟨S256x256, .f32⟩
  | .local _ .vmem, ⟨31, _⟩ => ⟨S1x256, .f32⟩
  | .local _ .vmem, ⟨32, _⟩ => ⟨S1024x256, .f32⟩
  | .local _ .vmem, ⟨33, _⟩ => ⟨S1024x256, .f32⟩
  | _, _ => ⟨S59392x116, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_v5_0 : Ref sig .tc := ⟨.hbm, 42, rfl⟩
abbrev main_v5_1 : Ref sig .tc := ⟨.hbm, 43, rfl⟩
abbrev main_v5_2 : Ref sig .tc := ⟨.hbm, 44, rfl⟩
abbrev main_cst : Ref sig .tc := ⟨.hbm, 45, rfl⟩
abbrev main_v6 : Ref sig .tc := ⟨.hbm, 46, rfl⟩
abbrev main_v7 : Ref sig .tc := ⟨.hbm, 47, rfl⟩
abbrev main_cst_0 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_cst_1 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_call1_cst : Ref sig .tc := ⟨.hbm, 87, rfl⟩
abbrev main_call1_v15 : Ref sig .tc := ⟨.hbm, 88, rfl⟩
abbrev main_v25 : Ref sig .tc := ⟨.hbm, 89, rfl⟩
abbrev main_v26 : Ref sig .tc := ⟨.hbm, 90, rfl⟩
abbrev main_cst_2 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33

abbrev nD : Nat := 1
abbrev τ : Topo := Topo.v7x

variable {F : FTy → Type} [FloatOps F]

abbrev grid0 : Pipeline.Grid := ⟨1, ![58], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x116 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S132x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![58], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![232], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x5 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S5x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![58], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1024x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S256_S1x256 : S256.ShapeCasts S1x256
  bcast_S_S59392 : S_.BroadcastsInDim S59392 (![] : Fin 0 → Fin S59392.rank)
  bcast_S59392_S59392x1_0 : S59392.BroadcastsInDim S59392x1 (![0] : Fin 1 → Fin S59392x1.rank)
  bcast_S_S59392x1 : S_.BroadcastsInDim S59392x1 (![] : Fin 0 → Fin S59392x1.rank)
  bcast_S1_S1x1_1 : S1.BroadcastsInDim S1x1 (![1] : Fin 1 → Fin S1x1.rank)
  bcast_S1x1_S59392x1_0_1 : S1x1.BroadcastsInDim S59392x1 (![0, 1] : Fin 2 → Fin S59392x1.rank)
  reducesTo_S59392x1_S59392_d1 : S59392x1.ReducesTo [1] S59392
  h_S_ : 0 < S_.numel
  bcast_S59392_S59392x16_0 : S59392.BroadcastsInDim S59392x16 (![0] : Fin 1 → Fin S59392x16.rank)
  bcast_S_S59392x16 : S_.BroadcastsInDim S59392x16 (![] : Fin 0 → Fin S59392x16.rank)
  inb_S1024x116_S1024x116_0_0 : ∀ a, (![0, 0] : Fin 2 → Nat) a + S1024x116.size a ≤ S1024x116.size a
  h_S1024x116 : 0 < S1024x116.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  concatenates_S1024x116_S1024x16_S1024x132_d1 : Shape.Concatenates [S1024x116, S1024x16] S1024x132 1
  bitsLt_bf16_f32 : FTy.bits .bf16 < FTy.bits .f32
  inb_S132x256_S132x256_0_0 : ∀ a, (![0, 0] : Fin 2 → Nat) a + S132x256.size a ≤ S132x256.size a
  h_S132x256 : 0 < S132x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  reduces_S1024x256_S256 : S1024x256.Reduces [0] S256
  bcast_S_S1x256 : S_.BroadcastsInDim S1x256 (![] : Fin 0 → Fin S1x256.rank)
  shapeCasts_S1024x256_S1024x256 : S1024x256.ShapeCasts S1024x256
  slices_S2x950272_S1x950272_0_0 : S2x950272.Slices ![0, 0] S1x950272
  shapeCasts_S1x950272_S950272 : S1x950272.ShapeCasts S950272
  slices_S2x950272_S1x950272_1_0 : S2x950272.Slices ![1, 0] S1x950272
  bcast_S_S950272 : S_.BroadcastsInDim S950272 (![] : Fin 0 → Fin S950272.rank)
  bcast_S950272_S950272x1_0 : S950272.BroadcastsInDim S950272x1 (![0] : Fin 1 → Fin S950272x1.rank)
  bcast_S_S950272x1 : S_.BroadcastsInDim S950272x1 (![] : Fin 0 → Fin S950272x1.rank)
  bcast_S1x1_S950272x1_0_1 : S1x1.BroadcastsInDim S950272x1 (![0, 1] : Fin 2 → Fin S950272x1.rank)
  reducesTo_S950272x1_S950272_d1 : S950272x1.ReducesTo [1] S950272
  bcast_S950272_S950272x256_0 : S950272.BroadcastsInDim S950272x256 (![0] : Fin 1 → Fin S950272x256.rank)
  bcast_S_S950272x256 : S_.BroadcastsInDim S950272x256 (![] : Fin 0 → Fin S950272x256.rank)
  inb_S4096x5_S4096x5_0_0 : ∀ a, (![0, 0] : Fin 2 → Nat) a + S4096x5.size a ≤ S4096x5.size a
  h_S4096x5 : 0 < S4096x5.numel
  inb_S5x256_S5x256_0_0 : ∀ a, (![0, 0] : Fin 2 → Nat) a + S5x256.size a ≤ S5x256.size a
  h_S5x256 : 0 < S5x256.numel
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bcast_S_S59392x256 : S_.BroadcastsInDim S59392x256 (![] : Fin 0 → Fin S59392x256.rank)
  inb_S256x256_S256x256_0_0 : ∀ a, (![0, 0] : Fin 2 → Nat) a + S256x256.size a ≤ S256x256.size a
  h_S256x256 : 0 < S256x256.numel
  gather_S8x16_S59392x1_S59392x16_1_0_n_n_0_1_116_wf : GatherDims.WF S8x16 S59392x1 S59392x16 [1] [0] [] [0] [] 1 ![1, 16]
  dot_S1024x132_S132x256_S1024x256_1_0_0_1_n_n_wf : DotDims.WF S1024x132 S132x256 S1024x256 [1] [0] [0] [1] [] []
  gather_S59392x256_S950272x1_S950272x256_1_0_n_n_0_1_1256_wf : GatherDims.WF S59392x256 S950272x1 S950272x256 [1] [0] [] [0] [] 1 ![1, 256]
  dot_S4096x5_S5x256_S4096x256_1_0_0_1_n_n_wf : DotDims.WF S4096x5 S5x256 S4096x256 [1] [0] [0] [1] [] []
  scatter_S59392x256_S950272x1_S950272x256_1_0_0_1_wf : ScatterDims.WF S59392x256 S950272x1 S950272x256 [1] [0] [0] 1
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x116.size a ≤ S59392x116.size a
  hwx0_0 : ∀ i : grid0.Coords, EltTy.bits .f32 = 32 ∨ (Rect.block (s := S59392x116) S1024x116.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S59392x16.size a
  hwx0_1 : ∀ i : grid0.Coords, EltTy.bits .f32 = 32 ∨ (Rect.block (s := S59392x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S132x256.size a ≤ S132x256.size a
  hwx0_2 : ∀ i : grid0.Coords, EltTy.bits .f32 = 32 ∨ (Rect.block (s := S132x256) S132x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S59392x256.size a
  hwx0_4 : ∀ i : grid0.Coords, EltTy.bits .f32 = 32 ∨ (Rect.block (s := S59392x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S59392x256.size a
  hwx1_0 : ∀ i : grid1.Coords, EltTy.bits .f32 = 32 ∨ (Rect.block (s := S59392x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S59392x256.size a
  hwx1_3 : ∀ i : grid1.Coords, EltTy.bits .f32 = 32 ∨ (Rect.block (s := S59392x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S950272x256.size a
  hwx2_0 : ∀ i : grid2.Coords, EltTy.bits .f32 = 32 ∨ (Rect.block (s := S950272x256) S4096x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x5.size a ≤ S950272x5.size a
  hwx2_1 : ∀ i : grid2.Coords, EltTy.bits .f32 = 32 ∨ (Rect.block (s := S950272x5) S4096x5.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S5x256.size a ≤ S5x256.size a
  hwx2_2 : ∀ i : grid2.Coords, EltTy.bits .f32 = 32 ∨ (Rect.block (s := S5x256) S5x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x256.size a ≤ S950272x256.size a
  hwx2_4 : ∀ i : grid2.Coords, EltTy.bits .f32 = 32 ∨ (Rect.block (s := S950272x256) S4096x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S59392x256.size a
  hwx3_0 : ∀ i : grid3.Coords, EltTy.bits .f32 = 32 ∨ (Rect.block (s := S59392x256) S1024x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S59392x256.size a
  hwx3_1 : ∀ i : grid3.Coords, EltTy.bits .f32 = 32 ∨ (Rect.block (s := S59392x256) S1024x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x256.size a ≤ S59392x256.size a
  hwx3_6 : ∀ i : grid3.Coords, EltTy.bits .f32 = 32 ∨ (Rect.block (s := S59392x256) S1024x256.size (cc3_transform_6 i) (hinb3_6 i)).WholeWords (EltTy.packing .f32)

variable [Facts₀]

def gather_S8x16_S59392x1_S59392x16_1_0_n_n_0_1_116 : GatherDims S8x16 S59392x1 S59392x16 where
  offsetDims := [1]
  collapsedSliceDims := [0]
  operandBatchingDims := []
  startIndicesBatchingDims := []
  startIndexMap := [0]
  indexVectorDim := 1
  sliceSizes := ![1, 16]
  wf := gather_S8x16_S59392x1_S59392x16_1_0_n_n_0_1_116_wf
def dot_S1024x132_S132x256_S1024x256_1_0_0_1_n_n : DotDims S1024x132 S132x256 S1024x256 where
  lhsContracting := [1]
  rhsContracting := [0]
  lhsNonContracting := [0]
  rhsNonContracting := [1]
  lhsBatch := []
  rhsBatch := []
  wf := dot_S1024x132_S132x256_S1024x256_1_0_0_1_n_n_wf
def gather_S59392x256_S950272x1_S950272x256_1_0_n_n_0_1_1256 : GatherDims S59392x256 S950272x1 S950272x256 where
  offsetDims := [1]
  collapsedSliceDims := [0]
  operandBatchingDims := []
  startIndicesBatchingDims := []
  startIndexMap := [0]
  indexVectorDim := 1
  sliceSizes := ![1, 256]
  wf := gather_S59392x256_S950272x1_S950272x256_1_0_n_n_0_1_1256_wf
def dot_S4096x5_S5x256_S4096x256_1_0_0_1_n_n : DotDims S4096x5 S5x256 S4096x256 where
  lhsContracting := [1]
  rhsContracting := [0]
  lhsNonContracting := [0]
  rhsNonContracting := [1]
  lhsBatch := []
  rhsBatch := []
  wf := dot_S4096x5_S5x256_S4096x256_1_0_0_1_n_n_wf
def scatter_S59392x256_S950272x1_S950272x256_1_0_0_1 : ScatterDims S59392x256 S950272x1 S950272x256 where
  updateWindowDims := [1]
  insertedWindowDims := [0]
  scatterDimsToOperandDims := [0]
  indexVectorDim := 1
  wf := scatter_S59392x256_S950272x1_S950272x256_1_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x116.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S132x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x256.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S1x256.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S4096x5.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S5x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S4096x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v20) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v2) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v3) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v30) S1024x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S59392x116 : Shape := ⟨2, ![59392, 116]⟩
abbrev S2x950272 : Shape := ⟨2, ![2, 950272]⟩
abbrev S950272x5 : Shape := ⟨2, ![950272, 5]⟩
abbrev S59392 : Shape := ⟨1, ![59392]⟩
abbrev S8x16 : Shape := ⟨2, ![8, 16]⟩
abbrev S132x256 : Shape := ⟨2, ![132, 256]⟩
abbrev S256 : Shape := ⟨1, ![256]⟩
abbrev S5x256 : Shape := ⟨2, ![5, 256]⟩
abbrev S256x256 : Shape := ⟨2, ![256, 256]⟩
abbrev S_ : Shape := ⟨0, ![]⟩
abbrev S59392x1 : Shape := ⟨2, ![59392, 1]⟩
abbrev S59392x16 : Shape := ⟨2, ![59392, 16]⟩
abbrev S59392x132 : Shape := ⟨2, ![59392, 132]⟩
abbrev S59392x256 : Shape := ⟨2, ![59392, 256]⟩
abbrev S1x256 : Shape := ⟨2, ![1, 256]⟩
abbrev S1x950272 : Shape := ⟨2, ![1, 950272]⟩
abbrev S950272 : Shape := ⟨1, ![950272]⟩
abbrev S950272x1 : Shape := ⟨2, ![950272, 1]⟩
abbrev S950272x256 : Shape := ⟨2, ![950272, 256]⟩

abbrev nBuf : Space → Nat
  | .hbm => 102
  | .vmem => 0
  | .smem => 0
  | _ => 0

abbrev bufTy : (tb : Table) → Fin (tcTables nBuf tb) → BufTy
  | .hbm, ⟨0, _⟩ => ⟨S59392x116, .f32⟩
  | .hbm, ⟨1, _⟩ => ⟨S2x950272, .i32⟩
  | .hbm, ⟨2, _⟩ => ⟨S950272x5, .f32⟩
  | .hbm, ⟨3, _⟩ => ⟨S59392, .i32⟩
  | .hbm, ⟨4, _⟩ => ⟨S8x16, .f32⟩
  | .hbm, ⟨5, _⟩ => ⟨S132x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S5x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S_, .i32⟩
  | .hbm, ⟨16, _⟩ => ⟨S59392, .i32⟩
  | .hbm, ⟨17, _⟩ => ⟨S59392, .i1⟩
  | .hbm, ⟨18, _⟩ => ⟨S_, .i32⟩
  | .hbm, ⟨19, _⟩ => ⟨S59392, .i32⟩
  | .hbm, ⟨20, _⟩ => ⟨S59392, .i32⟩
  | .hbm, ⟨21, _⟩ => ⟨S59392, .i32⟩
  | .hbm, ⟨22, _⟩ => ⟨S59392x1, .i32⟩
  | .hbm, ⟨23, _⟩ => ⟨S59392x16, .f32⟩
  | .hbm, ⟨24, _⟩ => ⟨S59392x132, .f32⟩
  | .hbm, ⟨25, _⟩ => ⟨S59392x256, .f32⟩
  | .hbm, ⟨26, _⟩ => ⟨S1x256, .f32⟩
  | .hbm, ⟨27, _⟩ => ⟨S59392x256, .f32⟩
  | .hbm, ⟨28, _⟩ => ⟨S59392x256, .f32⟩
  | .hbm, ⟨29, _⟩ => ⟨S_, .f32⟩
  | .hbm, ⟨30, _⟩ => ⟨S59392x256, .f32⟩
  | .hbm, ⟨31, _⟩ => ⟨S59392x256, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S1x256, .f32⟩
  | .hbm, ⟨38, _⟩ => ⟨S59392x256, .f32⟩
  | .hbm, ⟨39, _⟩ => ⟨S59392x256, .f32⟩
  | .hbm, ⟨40, _⟩ => ⟨S59392x256, .f32⟩
  | .hbm, ⟨41, _⟩ => ⟨S_, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S1x256, .f32⟩
  | .hbm, ⟨47, _⟩ => ⟨S59392x256, .f32⟩
  | .hbm, ⟨48, _⟩ => ⟨S59392x256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S1x256, .f32⟩
  | .hbm, ⟨54, _⟩ => ⟨S59392x256, .f32⟩
  | .hbm, ⟨55, _⟩ => ⟨S59392x256, .f32⟩
  | .hbm, ⟨56, _⟩ => ⟨S1x256, .f32⟩
  | .hbm, ⟨57, _⟩ => ⟨S59392x256, .f32⟩
  | .hbm, ⟨58, _⟩ => ⟨S59392x256, .f32⟩
  | .hbm, ⟨59, _⟩ => ⟨S1x256, .f32⟩
  | .hbm, ⟨60, _⟩ => ⟨S59392x256, .f32⟩
  | .hbm, ⟨61, _⟩ => ⟨S59392x256, .f32⟩
  | .hbm, ⟨62, _⟩ => ⟨S1x950272, .i32⟩
  | .hbm, ⟨63, _⟩ => ⟨S950272, .i32⟩
  | .hbm, ⟨64, _⟩ => ⟨S1x950272, .i32⟩
  | .hbm, ⟨65, _⟩ => ⟨S950272, .i32⟩
  | .hbm, ⟨66, _⟩ => ⟨S_, .i32⟩
  | .hbm, ⟨67, _⟩ => ⟨S950272, .i32⟩
  | .hbm, ⟨68, _⟩ => ⟨S950272, .i1⟩
  | .hbm, ⟨69, _⟩ => ⟨S_, .i32⟩
  | .hbm, ⟨70, _⟩ => ⟨S950272, .i32⟩
  | .hbm, ⟨71, _⟩ => ⟨S950272, .i32⟩
  | .hbm, ⟨72, _⟩ => ⟨S950272, .i32⟩
  | .hbm, ⟨73, _⟩ => ⟨S950272x1, .i32⟩
  | .hbm, ⟨74, _⟩ => ⟨S950272x256, .f32⟩
  | .hbm, ⟨75, _⟩ => ⟨S950272x256, .f32⟩
  | .hbm, ⟨76, _⟩ => ⟨S950272x256, .f32⟩
  | .hbm, ⟨77, _⟩ => ⟨S1x256, .f32⟩
  | .hbm, ⟨78, _⟩ => ⟨S950272x256, .f32⟩
  | .hbm, ⟨79, _⟩ => ⟨S950272x256, .f32⟩
  | .hbm, ⟨80, _⟩ => ⟨S_, .f32⟩
  | .hbm, ⟨81, _⟩ => ⟨S950272x256, .f32⟩
  | .hbm, ⟨82, _⟩ => ⟨S950272x256, .f32⟩
  | .hbm, ⟨83, _⟩ => ⟨S_, .f32⟩
  | .hbm, ⟨84, _⟩ => ⟨S59392x256, .f32⟩
  | .hbm, ⟨85, _⟩ => ⟨S950272x1, .i32⟩
  | .hbm, ⟨86, _⟩ => ⟨S59392x256, .f32⟩
  | .hbm, ⟨87, _⟩ => ⟨S59392x256, .f32⟩
  | .hbm, ⟨88, _⟩ => ⟨S59392x256, .f32⟩
  | .hbm, ⟨89, _⟩ => ⟨S1x256, .f32⟩
  | .hbm, ⟨90, _⟩ => ⟨S59392x256, .f32⟩
  | .hbm, ⟨91, _⟩ => ⟨S59392x256, .f32⟩
  | .hbm, ⟨92, _⟩ => ⟨S_, .f32⟩
  | .hbm, ⟨93, _⟩ => ⟨S59392x256, .f32⟩
  | .hbm, ⟨94, _⟩ => ⟨S59392x256, .f32⟩
  | .hbm, ⟨95, _⟩ => ⟨S59392x256, .f32⟩
  | .hbm, ⟨96, _⟩ => ⟨S1x256, .f32⟩
  | .hbm, ⟨97, _⟩ => ⟨S59392x256, .f32⟩
  | .hbm, ⟨98, _⟩ => ⟨S59392x256, .f32⟩
  | .hbm, ⟨99, _⟩ => ⟨S_, .f32⟩
  | .hbm, ⟨100, _⟩ => ⟨S59392x256, .f32⟩
  | .hbm, ⟨101, _⟩ => ⟨S59392x256, .f32⟩
  | _, _ => ⟨S59392x116, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call0_cst : Ref sig .tc := ⟨.hbm, 29, rfl⟩
abbrev main_call0_v0 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_5 : Ref sig .tc := ⟨.hbm, 66, rfl⟩
abbrev main_v42 : Ref sig .tc := ⟨.hbm, 67, rfl⟩
abbrev main_v43 : Ref sig .tc := ⟨.hbm, 68, rfl⟩
abbrev main_c_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call1_cst : Ref sig .tc := ⟨.hbm, 80, rfl⟩
abbrev main_call1_v0 : Ref sig .tc := ⟨.hbm, 81, rfl⟩
abbrev main_v54 : Ref sig .tc := ⟨.hbm, 82, rfl⟩
abbrev main_cst_7 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call2_cst : Ref sig .tc := ⟨.hbm, 92, rfl⟩
abbrev main_call2_v0 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call3_cst : Ref sig .tc := ⟨.hbm, 99, rfl⟩
abbrev main_call3_v0 : Ref sig .tc := ⟨.hbm, 100, rfl⟩
abbrev main_v68 : Ref sig .tc := ⟨.hbm, 101, rfl⟩

abbrev nD : Nat := 1
abbrev τ : Topo := Topo.v7x

variable {F : FTy → Type} [FloatOps F]

class Facts₀ : Prop where
  bcast_S_S59392 : S_.BroadcastsInDim S59392 (![] : Fin 0 → Fin S59392.rank)
  bcast_S59392_S59392x1_0 : S59392.BroadcastsInDim S59392x1 (![0] : Fin 1 → Fin S59392x1.rank)
  concatenates_S59392x116_S59392x16_S59392x132_d1 : Shape.Concatenates [S59392x116, S59392x16] S59392x132 1
  bcast_S256_S1x256_1 : S256.BroadcastsInDim S1x256 (![1] : Fin 1 → Fin S1x256.rank)
  bcast_S1x256_S59392x256_0_1 : S1x256.BroadcastsInDim S59392x256 (![0, 1] : Fin 2 → Fin S59392x256.rank)
  bcast_S_S59392x256 : S_.BroadcastsInDim S59392x256 (![] : Fin 0 → Fin S59392x256.rank)
  reducesTo_S59392x256_S256_d0 : S59392x256.ReducesTo [0] S256
  h_S_ : 0 < S_.numel
  bcast_S_S256 : S_.BroadcastsInDim S256 (![] : Fin 0 → Fin S256.rank)
  slices_S2x950272_S1x950272_0_0 : S2x950272.Slices ![0, 0] S1x950272
  shapeCasts_S1x950272_S950272 : S1x950272.ShapeCasts S950272
  slices_S2x950272_S1x950272_1_0 : S2x950272.Slices ![1, 0] S1x950272
  bcast_S_S950272 : S_.BroadcastsInDim S950272 (![] : Fin 0 → Fin S950272.rank)
  bcast_S950272_S950272x1_0 : S950272.BroadcastsInDim S950272x1 (![0] : Fin 1 → Fin S950272x1.rank)
  bcast_S1x256_S950272x256_0_1 : S1x256.BroadcastsInDim S950272x256 (![0, 1] : Fin 2 → Fin S950272x256.rank)
  bcast_S_S950272x256 : S_.BroadcastsInDim S950272x256 (![] : Fin 0 → Fin S950272x256.rank)
  gather_S8x16_S59392x1_S59392x16_1_0_n_n_0_1_116_wf : GatherDims.WF S8x16 S59392x1 S59392x16 [1] [0] [] [0] [] 1 ![1, 16]
  dot_S59392x132_S132x256_S59392x256_1_0_0_1_n_n_wf : DotDims.WF S59392x132 S132x256 S59392x256 [1] [0] [0] [1] [] []
  gather_S59392x256_S950272x1_S950272x256_1_0_n_n_0_1_1256_wf : GatherDims.WF S59392x256 S950272x1 S950272x256 [1] [0] [] [0] [] 1 ![1, 256]
  dot_S950272x5_S5x256_S950272x256_1_0_0_1_n_n_wf : DotDims.WF S950272x5 S5x256 S950272x256 [1] [0] [0] [1] [] []
  scatter_S59392x256_S950272x1_S950272x256_1_0_0_1_wf : ScatterDims.WF S59392x256 S950272x1 S950272x256 [1] [0] [0] 1
  dot_S59392x256_S256x256_S59392x256_1_0_0_1_n_n_wf : DotDims.WF S59392x256 S256x256 S59392x256 [1] [0] [0] [1] [] []

variable [Facts₀]

def gather_S8x16_S59392x1_S59392x16_1_0_n_n_0_1_116 : GatherDims S8x16 S59392x1 S59392x16 where
  offsetDims := [1]
  collapsedSliceDims := [0]
  operandBatchingDims := []
  startIndicesBatchingDims := []
  startIndexMap := [0]
  indexVectorDim := 1
  sliceSizes := ![1, 16]
  wf := gather_S8x16_S59392x1_S59392x16_1_0_n_n_0_1_116_wf
def dot_S59392x132_S132x256_S59392x256_1_0_0_1_n_n : DotDims S59392x132 S132x256 S59392x256 where
  lhsContracting := [1]
  rhsContracting := [0]
  lhsNonContracting := [0]
  rhsNonContracting := [1]
  lhsBatch := []
  rhsBatch := []
  wf := dot_S59392x132_S132x256_S59392x256_1_0_0_1_n_n_wf
def gather_S59392x256_S950272x1_S950272x256_1_0_n_n_0_1_1256 : GatherDims S59392x256 S950272x1 S950272x256 where
  offsetDims := [1]
  collapsedSliceDims := [0]
  operandBatchingDims := []
  startIndicesBatchingDims := []
  startIndexMap := [0]
  indexVectorDim := 1
  sliceSizes := ![1, 256]
  wf := gather_S59392x256_S950272x1_S950272x256_1_0_n_n_0_1_1256_wf
def dot_S950272x5_S5x256_S950272x256_1_0_0_1_n_n : DotDims S950272x5 S5x256 S950272x256 where
  lhsContracting := [1]
  rhsContracting := [0]
  lhsNonContracting := [0]
  rhsNonContracting := [1]
  lhsBatch := []
  rhsBatch := []
  wf := dot_S950272x5_S5x256_S950272x256_1_0_0_1_n_n_wf
def scatter_S59392x256_S950272x1_S950272x256_1_0_0_1 : ScatterDims S59392x256 S950272x1 S950272x256 where
  updateWindowDims := [1]
  insertedWindowDims := [0]
  scatterDimsToOperandDims := [0]
  indexVectorDim := 1
  wf := scatter_S59392x256_S950272x1_S950272x256_1_0_0_1_wf
def dot_S59392x256_S256x256_S59392x256_1_0_0_1_n_n : DotDims S59392x256 S256x256 S59392x256 where
  lhsContracting := [1]
  rhsContracting := [0]
  lhsNonContracting := [0]
  rhsNonContracting := [1]
  lhsBatch := []
  rhsBatch := []
  wf := dot_S59392x256_S256x256_S59392x256_1_0_0_1_n_n_wf

class Facts : Prop extends Facts₀ where

variable [Facts]
-- ==== Proof.Spec.lean ====
/-
  The mathematics of the certificate, stated once, over the extended reals, with no program in sight.

  A graph layer on N = 59392 nodes with H = 256 features and E = 950272 edges:
    * the encoder: the node features (116 columns) and a gathered group embedding (16 columns) side by side,
      times a 132 × 256 matrix, plus a bias, clipped below at zero  (`enc`);
    * batch normalisation over the nodes, in two spellings. One computes, per feature, a scale and a shift from the
      column's sum `s` and sum of squares `q` (mean `s / N`, variance `q / N - mean²`) and applies `h · scale + shift`
      (`bnScaled`); the other subtracts the mean, takes the mean of the squared deviations as the variance, and applies
      `(h - mean) · rsqrt (var + ε) · γ + β` (`bnCentred`). They agree when every entry is a real number
      (Proof/BnLaw.lean);
    * the edge message: the gathered source row plus a 5 → 256 linear map of the edge attributes plus a bias, clipped
      at zero, the three summands bracketed either way (`msgRight`, `msgLeft`: addition of extended reals is
      associative, `msgRight_eq_msgLeft`);
    * the node update: two linear layers with a clip at zero after each, applied to the sum of the normalised features
      and the aggregated messages (`mlp`).
  The gathers and the scatter-add are not spelled here: both programs apply the same operations to these arrays.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A matrix of extended reals, indexed as the programs' rank-2 arrays are. -/
abbrev Mat (a b : Nat) := (⟨2, ![a, b]⟩ : Shape).Idx → EReal
/-- A vector of extended reals, indexed as the programs' rank-1 arrays are. -/
abbrev Row (a : Nat) := (⟨1, ![a]⟩ : Shape).Idx → EReal

/-- A one-row matrix read as a vector. -/
def row1 {n : Nat} (v : Mat 1 n) : Row n := fun j => v (ix2 0 (j 0))
/-- A vector laid out as a one-row matrix. -/
def asMat1 {n : Nat} (v : Row n) : Mat 1 n := fun i => v (ix1 (i 1))

theorem row1_asMat1 {n : Nat} (v : Row n) : row1 (asMat1 v) = v := by
  funext j
  show v (ix1 (j 0)) = v j
  congr 1
  funext a
  match a with
  | ⟨0, _⟩ => rfl

/-- Every entry of an array is a real number (neither infinity). -/
def IsReal {ι : Type} (v : ι → EReal) : Prop := ∀ i, ∃ r : ℝ, v i = (r : EReal)

/-- Clipping below at zero. -/
def relu (x : EReal) : EReal := max x 0

/-! ## The encoder -/

/-- Entry `(r, k)` of the node features and the group embedding side by side: columns 0 … 115 are the features',
    columns 116 … 131 the embedding's. -/
def cat (x : Mat 59392 116) (ge : Mat 59392 16) (r : Fin 59392) (k : Fin 132) : EReal :=
  if h : k.val < 116 then x (ix2 r ⟨k.val, h⟩) else ge (ix2 r ⟨k.val - 116, by omega⟩)

/-- Entry `(r, j)` of the encoder's output. -/
def encAt (x : Mat 59392 116) (ge : Mat 59392 16) (W : Mat 132 256) (b : Row 256) (r : Fin 59392) (j : Fin 256) : EReal :=
  relu ((∑ k : Fin 132, cat x ge r k * W (ix2 k j)) + b (ix1 j))

/-- The encoder's output. -/
def enc (x : Mat 59392 116) (ge : Mat 59392 16) (W : Mat 132 256) (b : Row 256) : Mat 59392 256 :=
  fun i => encAt x ge W b (i 0) (i 1)

/-! ## Batch normalisation over the nodes -/

/-- The number of nodes, as both programs spell it: the f32 pattern of 59392. -/
def cN : EReal := Ideal.ofBits .f32 0x47680000#32
/-- The variance's offset, as both programs spell it: the f32 pattern nearest 1e-5. -/
def cEps : EReal := Ideal.ofBits .f32 0x3727C5AC#32

/-- A feature's sum over the nodes. -/
def colSum (h : Mat 59392 256) (j : Fin 256) : EReal := ∑ r : Fin 59392, h (ix2 r j)
/-- A feature's sum of squares over the nodes. -/
def colSumSq (h : Mat 59392 256) (j : Fin 256) : EReal := ∑ r : Fin 59392, h (ix2 r j) * h (ix2 r j)
def sumRow (h : Mat 59392 256) : Row 256 := fun j => colSum h (j 0)
def sumSqRow (h : Mat 59392 256) : Row 256 := fun j => colSumSq h (j 0)

/-- The scale of one feature from its sum `s`, its sum of squares `q` and its weight `g`. -/
def scaleOf (s q g : EReal) : EReal :=
  Ideal.rsqrt ((Ideal.div q cN - Ideal.div s cN * Ideal.div s cN) + cEps) * g
/-- The shift of one feature from its sum, its sum of squares, its weight and its offset `b`. -/
def shiftOf (s q g b : EReal) : EReal := b - Ideal.div s cN * scaleOf s q g

def scaleRow (s q gamma : Row 256) : Row 256 := fun j => scaleOf (s j) (q j) (gamma j)
def shiftRow (s q gamma beta : Row 256) : Row 256 := fun j => shiftOf (s j) (q j) (gamma j) (beta j)

/-- A per-feature scale and shift applied to every node. -/
def affine (h : Mat 59392 256) (sc sh : Row 256) : Mat 59392 256 :=
  fun i => h i * sc (ix1 (i 1)) + sh (ix1 (i 1))

/-- Batch normalisation spelled with a precomputed scale and shift. -/
def bnScaled (h : Mat 59392 256) (gamma beta : Row 256) : Mat 59392 256 :=
  affine h (scaleRow (sumRow h) (sumSqRow h) gamma) (shiftRow (sumRow h) (sumSqRow h) gamma beta)

/-- A feature's mean over the nodes. -/
def meanOf (h : Mat 59392 256) (j : Fin 256) : EReal := Ideal.div (colSum h j) cN
/-- A feature's variance over the nodes: the mean of the squared deviations from the mean. -/
def varOf (h : Mat 59392 256) (j : Fin 256) : EReal :=
  Ideal.div (∑ r : Fin 59392, (h (ix2 r j) - meanOf h j) * (h (ix2 r j) - meanOf h j)) cN

/-- Batch normalisation spelled by centring first. -/
def bnCentred (h : Mat 59392 256) (gamma beta : Row 256) : Mat 59392 256 :=
  fun i => ((h i - meanOf h (i 1)) * Ideal.rsqrt (varOf h (i 1) + cEps)) * gamma (ix1 (i 1)) + beta (ix1 (i 1))

/-! ## The edge message -/

/-- The linear map of an edge's five attributes into feature `j`. -/
def edgeLin (ea : Mat 950272 5) (We : Mat 5 256) (e : Fin 950272) (j : Fin 256) : EReal :=
  ∑ k : Fin 5, ea (ix2 e k) * We (ix2 k j)

/-- The message, the linear map and its bias added first. -/
def msgRight (hsrc : Mat 950272 256) (ea : Mat 950272 5) (We : Mat 5 256) (be : Row 256) : Mat 950272 256 :=
  fun i => relu (hsrc i + (edgeLin ea We (i 0) (i 1) + be (ix1 (i 1))))

/-- The message, the source row and the linear map added first. -/
def msgLeft (hsrc : Mat 950272 256) (ea : Mat 950272 5) (We : Mat 5 256) (be : Row 256) : Mat 950272 256 :=
  fun i => relu ((hsrc i + edgeLin ea We (i 0) (i 1)) + be (ix1 (i 1)))

theorem msgRight_eq_msgLeft (hsrc : Mat 950272 256) (ea : Mat 950272 5) (We : Mat 5 256) (be : Row 256) :
    msgRight hsrc ea We be = msgLeft hsrc ea We be := by
  funext i
  unfold msgRight msgLeft
  rw [add_assoc]

/-! ## The node update -/

/-- One linear layer with a clip at zero. -/
def lin (z : Mat 59392 256) (W : Mat 256 256) (b : Row 256) : Mat 59392 256 :=
  fun i => relu ((∑ k : Fin 256, z (ix2 (i 0) k) * W (ix2 k (i 1))) + b (ix1 (i 1)))

/-- The update of every node from its normalised features `h` and its aggregated messages `agg`. -/
def mlp (h agg : Mat 59392 256) (W1 : Mat 256 256) (b1 : Row 256) (W2 : Mat 256 256) (b2 : Row 256) : Mat 59392 256 :=
  lin (lin (fun i => h i + agg i) W1 b1) W2 b2

end Cert.Spec

end
-- ==== Proof.BnLaw.lean ====
/-
  Two facts about real numbers, lifted to the extended reals.
  (1) The encoder's output is real wherever its inputs are: a finite sum of products of reals, plus a real, clipped at zero.
  (2) Batch normalisation spelled with a precomputed scale and shift equals the centred spelling when every entry is
      real: the mean of the squared deviations is the mean of the squares less the squared mean, so both take the
      reciprocal square root of the same positive real, and the rest is the ring identity
      h · (ρ γ) + (β - μ (ρ γ)) = ((h - μ) ρ) γ + β.
-/
import proofs.«425756_j88742614270020_1_alg».proof.Proof.Spec
import Mathlib.Analysis.SpecialFunctions.Pow.Real
import Mathlib.Tactic.Ring
import Mathlib.Tactic.Positivity
import Mathlib.Tactic.FieldSimp

noncomputable section

open scoped BigOperators

namespace Cert.Spec

open Idealize.ShloMosaic Idealize.ShloMosaic.ValueIdx

/-! ## The two constants -/

/-- The node count's pattern denotes the real number 59392. -/
theorem cN_eq : cN = ((59392 : ℝ) : EReal) := by
  unfold cN
  simp [Ideal.ofBits, Ideal.ieee, -EReal.coe_mul]; norm_num

/-- The variance offset's pattern denotes the real number 10995116 · 2⁻⁴⁰. -/
theorem cEps_eq : cEps = ((10995116 * (2 : ℝ) ^ (-40 : ℤ) : ℝ) : EReal) := by
  unfold cEps
  simp [Ideal.ofBits, Ideal.ieee, -EReal.coe_mul]

/-- The variance offset is a positive real. -/
theorem cEps_pos : ∃ e : ℝ, 0 < e ∧ cEps = (e : EReal) := ⟨_, by positivity, cEps_eq⟩

/-! ## Reals inside the extended reals -/

/-- A finite sum of reals, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Clipping a real at zero gives a real. -/
theorem relu_coe (a : ℝ) : relu (a : EReal) = ((max a 0 : ℝ) : EReal) := by
  unfold relu
  rcases le_total a 0 with h | h
  · have h' : (a : EReal) ≤ 0 := by exact_mod_cast h
    rw [max_eq_right h, max_eq_right h', EReal.coe_zero]
  · have h' : (0 : EReal) ≤ (a : EReal) := by exact_mod_cast h
    rw [max_eq_left h, max_eq_left h']

/-! ## The encoder's output is real -/

/-- An entry of the two inputs side by side is an entry of one of them. -/
theorem cat_isReal (x : Mat 59392 116) (ge : Mat 59392 16) (hx : IsReal x) (hge : IsReal ge)
    (r : Fin 59392) (k : Fin 132) : ∃ c : ℝ, cat x ge r k = (c : EReal) := by
  unfold cat
  split
  · exact hx _
  · exact hge _

theorem enc_isReal (x : Mat 59392 116) (ge : Mat 59392 16) (W : Mat 132 256) (b : Row 256)
    (hx : IsReal x) (hge : IsReal ge) (hW : IsReal W) (hb : IsReal b) : IsReal (enc x ge W b) := by
  intro i
  obtain ⟨p, q, rfl⟩ : ∃ (p : Fin 59392) (q : Fin 256), i = ix2 p q := ⟨i 0, i 1, eq_ix2 i⟩
  choose c hc using cat_isReal x ge hx hge
  choose w hw using hW
  choose bb hbb using hb
  refine ⟨max ((∑ k : Fin 132, c p k * w (ix2 k q)) + bb (ix1 q)) 0, ?_⟩
  show relu ((∑ k : Fin 132, cat x ge p k * W (ix2 k q)) + b (ix1 q)) = _
  simp only [hc, hw, hbb, ← EReal.coe_mul, coe_sum, ← EReal.coe_add]
  exact relu_coe _

/-! ## The variance, two ways -/

/-- Over 59392 reals with mean `μ`: the mean of the squared deviations from `μ` is the mean of the squares less `μ²`. -/
theorem var_real (f : Fin 59392 → ℝ) :
    (∑ r, (f r - (∑ r, f r) * (1 / 59392)) * (f r - (∑ r, f r) * (1 / 59392))) * (1 / 59392)
      = (∑ r, f r * f r) * (1 / 59392) - ((∑ r, f r) * (1 / 59392)) * ((∑ r, f r) * (1 / 59392)) := by
  have e : ∀ r, (f r - (∑ r, f r) * (1 / 59392)) * (f r - (∑ r, f r) * (1 / 59392))
      = f r * f r - (2 * ((∑ r, f r) * (1 / 59392))) * f r
        + ((∑ r, f r) * (1 / 59392)) * ((∑ r, f r) * (1 / 59392)) := fun r => by ring
  simp only [e, Finset.sum_add_distrib, Finset.sum_sub_distrib, ← Finset.mul_sum, Finset.sum_const,
    Finset.card_univ, Fintype.card_fin, nsmul_eq_mul]
  push_cast
  ring

/-! ## One feature's column -/

/-- For one feature with real column `f`, at a real entry `x`, with real weight `g` and offset `b`: the scale-and-shift
    spelling and the centred spelling give the same value. Both variances are the same nonnegative real `v`, so both
    reciprocal square roots are `1 / √(v + ε)` with `v + ε > 0`. -/
theorem col_law (f : Fin 59392 → ℝ) (x g b : ℝ) :
    (x : EReal) * scaleOf (∑ r, (f r : EReal)) (∑ r, (f r : EReal) * (f r : EReal)) (g : EReal)
        + shiftOf (∑ r, (f r : EReal)) (∑ r, (f r : EReal) * (f r : EReal)) (g : EReal) (b : EReal)
      = (((x : EReal) - Ideal.div (∑ r, (f r : EReal)) cN)
          * Ideal.rsqrt (Ideal.div (∑ r, ((f r : EReal) - Ideal.div (∑ r', (f r' : EReal)) cN)
                * ((f r : EReal) - Ideal.div (∑ r', (f r' : EReal)) cN)) cN + cEps)) * (g : EReal) + (b : EReal) := by
  obtain ⟨e, he, hE⟩ := cEps_pos
  have hn : (59392 : ℝ) ≠ 0 := by norm_num
  -- the mean
  have hmean : Ideal.div (∑ r, (f r : EReal)) cN = (((∑ r, f r) * (1 / 59392) : ℝ) : EReal) := by
    rw [coe_sum, cN_eq, Ideal.div_coe hn, ← EReal.coe_mul]
  -- the mean of the squares
  have hsq : Ideal.div (∑ r, (f r : EReal) * (f r : EReal)) cN = (((∑ r, f r * f r) * (1 / 59392) : ℝ) : EReal) := by
    simp only [← EReal.coe_mul, coe_sum]
    rw [cN_eq, Ideal.div_coe hn, ← EReal.coe_mul]
  -- the mean of the squared deviations
  have hvar : Ideal.div (∑ r, ((f r : EReal) - (((∑ r, f r) * (1 / 59392) : ℝ) : EReal))
        * ((f r : EReal) - (((∑ r, f r) * (1 / 59392) : ℝ) : EReal))) cN
      = (((∑ r, (f r - (∑ r, f r) * (1 / 59392)) * (f r - (∑ r, f r) * (1 / 59392))) * (1 / 59392) : ℝ) : EReal) := by
    simp only [← EReal.coe_sub, ← EReal.coe_mul, coe_sum]
    rw [cN_eq, Ideal.div_coe hn, ← EReal.coe_mul]
  have hvnn : 0 ≤ (∑ r, (f r - (∑ r, f r) * (1 / 59392)) * (f r - (∑ r, f r) * (1 / 59392))) * (1 / 59392) :=
    mul_nonneg (Finset.sum_nonneg fun r _ => mul_self_nonneg _) (by norm_num)
  unfold shiftOf scaleOf
  rw [hmean, hsq, hvar, hE]
  simp only [← EReal.coe_mul, ← EReal.coe_sub, ← EReal.coe_add]
  rw [← var_real f]
  generalize (∑ r, (f r - (∑ r, f r) * (1 / 59392)) * (f r - (∑ r, f r) * (1 / 59392))) * (1 / 59392) = v at hvnn ⊢
  generalize (∑ r, f r) * (1 / 59392) = μ
  have hpos : 0 < v + e := by linarith
  have hrs : Ideal.rsqrt ((v + e : ℝ) : EReal) = (((Real.sqrt (v + e))⁻¹ : ℝ) : EReal) := by
    rw [Ideal.rsqrt_coe, if_neg (not_lt.mpr hpos.le), if_neg hpos.ne']
  rw [hrs]
  simp only [← EReal.coe_mul, ← EReal.coe_sub, ← EReal.coe_add]
  congr 1
  ring

theorem bnScaled_eq_bnCentred (h : Mat 59392 256) (gamma beta : Row 256)
    (hh : IsReal h) (hg : IsReal gamma) (hb : IsReal beta) : bnScaled h gamma beta = bnCentred h gamma beta := by
  choose hr hhr using hh
  choose gr hgr using hg
  choose br hbr using hb
  funext i
  obtain ⟨p, q, rfl⟩ : ∃ (p : Fin 59392) (q : Fin 256), i = ix2 p q := ⟨i 0, i 1, eq_ix2 i⟩
  show h (ix2 p q) * scaleOf (colSum h q) (colSumSq h q) (gamma (ix1 q))
        + shiftOf (colSum h q) (colSumSq h q) (gamma (ix1 q)) (beta (ix1 q))
      = ((h (ix2 p q) - meanOf h q) * Ideal.rsqrt (varOf h q + cEps)) * gamma (ix1 q) + beta (ix1 q)
  simp only [colSum, colSumSq, meanOf, varOf, hhr, hgr, hbr]
  exact col_law (fun r => hr (ix2 r q)) (hr (ix2 p q)) (gr (ix1 q)) (br (ix1 q))

end Cert.Spec

end
-- ==== Proof.PreFacts.lean ====
/-
  What the precondition says, array by array: the float inputs the proof leans on are real-valued, every group id lies in
  [-8, 8), and every source node index (row 0 of the edge index) lies in [-59392, 59392).

  The precondition is one bit: a conjunction of fifteen "for all entries" statements. Thirteen say of a float array that
  every entry x has |x| < +∞, which over the extended reals holds exactly when x is a real number; two say of an integer
  array that every entry w has lo ≤ w < hi as signed 32-bit words. A conjunction of bits is 1 exactly when each bit is 1,
  and a "for all" over an array is 1 exactly when the bit at every index is 1.
-/
import proofs.«425756_j88742614270020_1_alg».proof.Pre_finite_inputs
import proofs.«425756_j88742614270020_1_alg».proof.Proof.Spec
import Idealize.ShloMosaic.Lib.ReduceAll
import Idealize.ShloMosaic.Lib.StableHlo.Predicate

noncomputable section

namespace Cert.PreFacts

open Idealize.ShloMosaic Idealize.ShloMosaic.ValueIdx Cert.Pre_finite_inputs Cert.Pre_finite_inputs.Facts

variable [Cert.Pre_finite_inputs.Facts]

/-- Row 0 of the edge index as the precondition spells it. -/
abbrev srcOf (a1 : IVec S2x950272 32) : IVec S950272 32 :=
  shapeCast S950272 (extractStridedSlice S1x950272 ![0, 0] a1 slices_S2x950272_S1x950272_0_0) shapeCasts_S1x950272_S950272

/-- A rank-0 array has one index. -/
local instance : Subsingleton S_.Idx := ⟨fun a b => funext fun d => d.elim0⟩

/-! ## One entry -/

/-- The word with all exponent bits set and no fraction bit denotes +∞. -/
theorem inf_word : Ideal.ofBits .f32 0x7F800000#32 = (⊤ : EReal) := by
  simp [Ideal.ofBits, Ideal.ieee]

/-- An extended real whose absolute value max x (-x) lies strictly below +∞ is a real number: +∞ fails because
    max ⊤ ⊥ = ⊤, and -∞ fails because max ⊥ ⊤ = ⊤. -/
theorem real_of_abs_lt (x : EReal)
    (h : FloatOps.cmpf (F := Ideal) (φ := .f32) .olt (FloatOps.hostAbsf (F := Ideal) (φ := .f32) x)
          (Ideal.ofBits .f32 0x7F800000#32) = 1#1) :
    ∃ r : ℝ, x = (r : EReal) := by
  rw [inf_word] at h
  have h' : max x (-x) < (⊤ : EReal) := by
    have : (BitVec.ofBool (decide (max x (-x) < (⊤ : EReal)))) = 1#1 := h
    simpa [StableHlo.Predicate.ofBool_eq_one_iff] using this
  induction x using EReal.rec with
  | bot => simp at h'
  | coe r => exact ⟨r, rfl⟩
  | top => simp at h'

/-- The bit of "lo ≤ w and w < hi", both comparisons signed, is 1 exactly when the integers the words denote
    satisfy the two inequalities. -/
theorem range_of_bits (w lo hi : BitVec 32) (h : IntOp.andi (IntOp.cmpi .sge w lo) (IntOp.cmpi .slt w hi) = 1#1) :
    lo.toInt ≤ w.toInt ∧ w.toInt < hi.toInt := by
  obtain ⟨h1, h2⟩ := IntOp.andi_eq_one.1 h
  simp only [IntOp.cmpi, StableHlo.Predicate.ofBool_eq_one_iff] at h1 h2
  exact ⟨BitVec.sle_iff_toInt_le.1 h1, BitVec.slt_iff_toInt_lt.1 h2⟩

/-! ## One array -/

/-- "Every entry of x has absolute value below +∞" being 1 makes every entry of x a real number, at any shape. -/
theorem isReal_of_all {s : Shape} {axes : List (Fin s.rank)} (hb : S_.BroadcastsInDim s (![] : Fin 0 → Fin s.rank))
    (hr : s.ReducesTo axes S_) (h0 : 0 < S_.numel) (x : FVec Ideal s .f32)
    (h : Host.reduce IntOp.andi
          (cmpf .olt (Host.absf x) (broadcastInDim s ![] hb (constant (F := Ideal) S_ .f32 0x7F800000#32)))
          (constantI S_ 1 1#1) hr h0 ix0 = 1#1) :
    Cert.Spec.IsReal x := by
  intro i
  exact real_of_abs_lt (x i) (Host.reduce_andi_all _ _ hr h0 ix0 h i)

/-- "Every entry w of x has lo ≤ w < hi" being 1 gives the two inequalities at every index, at any shape. -/
theorem range_of_all {s : Shape} {axes : List (Fin s.rank)} (hb : S_.BroadcastsInDim s (![] : Fin 0 → Fin s.rank))
    (hr : s.ReducesTo axes S_) (h0 : 0 < S_.numel) (x : IVec s 32) (lo hi : BitVec 32)
    (h : Host.reduce IntOp.andi
          (andi (cmpi .sge x (broadcastInDim s ![] hb (constantI S_ 32 lo)))
            (cmpi .slt x (broadcastInDim s ![] hb (constantI S_ 32 hi))))
          (constantI S_ 1 1#1) hr h0 ix0 = 1#1) :
    ∀ i, lo.toInt ≤ (x i).toInt ∧ (x i).toInt < hi.toInt := by
  intro i
  exact range_of_bits (x i) lo hi (Host.reduce_andi_all _ _ hr h0 ix0 h i)

/-- The conjunction of two one-bit arrays, read at an index, is the conjunction of the two bits there. -/
theorem andi_at {s : Shape} {w : Nat} (a b : IVec s w) (i : s.Idx) : andi a b i = IntOp.andi (a i) (b i) := rfl

/-! ## The four bounds as integers -/

theorem toInt_neg8 : (4294967288#32 : BitVec 32).toInt = -8 := by decide
theorem toInt_8 : (8#32 : BitVec 32).toInt = 8 := by decide
theorem toInt_negN : (4294907904#32 : BitVec 32).toInt = -59392 := by decide
theorem toInt_N : (59392#32 : BitVec 32).toInt = 59392 := by decide

/-! ## The precondition, decoded -/

theorem of_pre (a0 : FVec Ideal S59392x116 .f32) (a1 : IVec S2x950272 32) (a2 : FVec Ideal S950272x5 .f32) (a3 : IVec S59392 32)
    (a4 : FVec Ideal S8x16 .f32) (a5 : FVec Ideal S132x256 .f32) (a6 a7 a8 : FVec Ideal S256 .f32) (a9 : FVec Ideal S5x256 .f32)
    (a10 : FVec Ideal S256 .f32) (a11 : FVec Ideal S256x256 .f32) (a12 : FVec Ideal S256 .f32) (a13 : FVec Ideal S256x256 .f32)
    (a14 : FVec Ideal S256 .f32)
    (h : Cert.Pre_finite_inputs.fn (F := Ideal) a0 a1 a2 a3 a4 a5 a6 a7 a8 a9 a10 a11 a12 a13 a14 = (fun _ => 1#1)) :
    Cert.Spec.IsReal a0 ∧ Cert.Spec.IsReal a4 ∧ Cert.Spec.IsReal a5 ∧ Cert.Spec.IsReal a6 ∧ Cert.Spec.IsReal a7 ∧ Cert.Spec.IsReal a8
      ∧ (∀ i, -8 ≤ (a3 i).toInt ∧ (a3 i).toInt < 8)
      ∧ (∀ i, -59392 ≤ (srcOf a1 i).toInt ∧ (srcOf a1 i).toInt < 59392) := by
  have h0 := congrFun h ix0
  dsimp only [fn, fn_part1, fn_part2, fn_part3, fn_part4] at h0
  simp only [andi_at, IntOp.andi_eq_one] at h0
  obtain ⟨⟨⟨⟨⟨⟨⟨⟨⟨⟨⟨⟨⟨⟨f0, f2⟩, f4⟩, f5⟩, f6⟩, f7⟩, f8⟩, f9⟩, f10⟩, f11⟩, f12⟩, f13⟩, f14⟩, g3⟩, gs⟩ := h0
  refine ⟨isReal_of_all _ _ _ a0 f0, isReal_of_all _ _ _ a4 f4, isReal_of_all _ _ _ a5 f5, isReal_of_all _ _ _ a6 f6,
    isReal_of_all _ _ _ a7 f7, isReal_of_all _ _ _ a8 f8, ?_, ?_⟩
  · intro i
    have r := range_of_all _ _ _ a3 _ _ g3 i
    rw [toInt_neg8, toInt_8] at r
    exact r
  · intro i
    have r := range_of_all _ _ _ (srcOf a1) _ _ gs i
    rw [toInt_negN, toInt_N] at r
    exact r

end Cert.PreFacts

end
-- ==== Proof.Take.lean ====
import proofs.«425756_j88742614270020_1_alg».proof.Proof.Gen.KernelIdeal
import Idealize.ShloMosaic.Lib.ValueIdx
import Idealize.ShloMosaic.PureOps.Reduce

/-!
# The two table look-ups of the kernel's program

The program reads a table at a vector of signed positions twice: the group embedding at the node's group id, and the
normalised node features at an edge's source node. Each look-up wraps a negative position by the table's length, gathers
with the wrapped position clamped into the table, and then replaces every row whose wrapped position is outside
`[0, length - 1]` by a fixed filling value. For positions in `[-length, length)` the wrapped position is always inside
the table, so no row is filled: the look-up is the gather at the wrapped positions.
-/

noncomputable section

namespace Cert.KernelIdeal.Take

open Idealize.ShloMosaic Idealize.SL.Sem
open Cert.KernelIdeal Cert.KernelIdeal.Gen

/-! ## One-bit conjunctions -/

/-- A left fold by `and` over one-bit words that starts at 1 and meets only 1s ends at 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], init, h, _ => h
  | a :: l, init, h, hl => by
    rw [List.foldl_cons]
    refine foldl_andi_one f l _ ?_ (fun n hn => hl n (List.mem_cons_of_mem _ hn))
    rw [h, hl a List.mem_cons_self]; rfl

/-- A reduction by `and` of an array of 1s, from the initial value 1, is 1 at every index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl]
  exact foldl_andi_one x _ _ (hi _) (fun n _ => hx n)

/-- A selection whose mask is 1 everywhere is its first branch. -/
theorem select_of_one {s : Shape} {α : Type} (c : IVec s 1) (a b : s.Idx → α) (hc : ∀ i, c i = 1#1) : select c a b = a := by
  funext i
  rw [ValueIdx.select_apply, hc i]
  rfl

/-! ## A wrapped position is inside the table -/

/-- A signed 32-bit position `a` in `[-N, N)`, with `N` added when it is negative, lies in `[0, N - 1]`: both
    comparisons of the range test hold. (`n` is the word of `N`, `hi` the word of `N - 1`.) -/
theorem wrap_inRange (a n hi : BitVec 32) (N : Int) (hn : n.toInt = N) (hhi : hi.toInt = N - 1)
    (hN : 0 < N) (h : -N ≤ a.toInt ∧ a.toInt < N) :
    IntOp.andi
      (IntOp.cmpi .sge (Scalar.select (IntOp.cmpi .slt a 0#32) (IntOp.addi a n) a) 0#32)
      (IntOp.cmpi .sle (Scalar.select (IntOp.cmpi .slt a 0#32) (IntOp.addi a n) a) hi) = 1#1 := by
  have hb := BitVec.toInt_lt (x := n)
  have hb' := BitVec.le_toInt (x := n)
  have ha := BitVec.toInt_lt (x := a)
  have ha' := BitVec.le_toInt (x := a)
  unfold IntOp.andi IntOp.cmpi IntOp.addi Scalar.select
  simp only [BitVec.slt, BitVec.sle, BitVec.toInt_zero]
  have h01 : ¬ ((0 : BitVec 1) = 1) := by decide
  by_cases hneg : a.toInt < 0
  · -- a negative position: the sum a + N is in [0, N), so the 32-bit addition does not wrap
    have e : (a + n).toInt = a.toInt + N := by
      rw [BitVec.toInt_add, hn]
      exact Int.bmod_eq_of_le_mul_two (by omega) (by omega)
    have h1 : (0 : Int) ≤ a.toInt + N := by omega
    have h2 : a.toInt + N ≤ hi.toInt := by omega
    simp only [hneg, decide_true, BitVec.ofBool_true, if_true, e, h1, h2]
    decide
  · -- a position in [0, N) is kept
    have h1 : (0 : Int) ≤ a.toInt := by omega
    have h2 : a.toInt ≤ hi.toInt := by omega
    simp only [hneg, decide_false, BitVec.ofBool_false, h01, if_false, h1, h2, decide_true, BitVec.ofBool_true]
    decide

/-! ## The group embedding at the node's group id (table of 8 rows) -/

/-- The group ids with a negative id wrapped by 8, as a column of start positions. -/
def wid (ids : IVec S59392 32) : IVec S59392x1 32 :=
  broadcastInDim S59392x1 ![0] bcast_S59392_S59392x1_0
    (select (cmpi .slt ids (broadcastInDim S59392 ![] bcast_S_S59392 (constantI S_ 32 0#32)))
      (addi ids (broadcastInDim S59392 ![] bcast_S_S59392 (constantI S_ 32 8#32))) ids)

/-- The look-up of the embedding table: the gather at the wrapped ids, a row replaced by the filling value when its
    wrapped id is outside `[0, 7]`. -/
def geFill (emb : FVec Ideal S8x16 .f32) (ids : IVec S59392 32) : FVec Ideal S59392x16 .f32 :=
  select
    (broadcastInDim S59392x16 ![0] bcast_S59392_S59392x16_0
      (Host.reduce IntOp.andi
        (andi (cmpi .sge (wid ids) (broadcastInDim S59392x1 ![] bcast_S_S59392x1 (constantI S_ 32 0#32)))
          (cmpi .sle (wid ids) (broadcastInDim S59392x1 ![0, 1] bcast_S1x1_S59392x1_0_1
            (broadcastInDim S1x1 ![1] bcast_S1_S1x1_1 (constantI S1 32 7#32)))))
        (constantI S_ 1 1#1) reducesTo_S59392x1_S59392_d1 h_S_))
    (Host.gather gather_S8x16_S59392x1_S59392x16_1_0_n_n_0_1_116 emb (wid ids))
    (broadcastInDim S59392x16 ![] bcast_S_S59392x16 (constant (F := Ideal) S_ .f32 0x7FC00000#32))

/-- For group ids in `[-8, 8)` no row is filled: the look-up is the gather at the wrapped ids. -/
theorem geFill_eq (emb : FVec Ideal S8x16 .f32) (ids : IVec S59392 32)
    (h : ∀ i, -8 ≤ (ids i).toInt ∧ (ids i).toInt < 8) :
    geFill emb ids = Host.gather gather_S8x16_S59392x1_S59392x16_1_0_n_n_0_1_116 emb (wid ids) := by
  unfold geFill
  refine select_of_one _ _ _ (fun j => ?_)
  -- the mask at a row is the conjunction, over that row of the one-column range test, of the two comparisons
  show Host.reduce IntOp.andi _ _ _ _ _ = 1#1
  refine reduce_andi_one _ _ _ _ (fun i => ?_) (fun _ => rfl) _
  exact wrap_inRange (ids _) 8#32 7#32 8 (by decide) (by decide) (by decide) (h _)

/-! ## The node features at an edge's source node (table of 59392 rows) -/

/-- The source nodes with a negative position wrapped by 59392, as a column of start positions. -/
def wsrc (src : IVec S950272 32) : IVec S950272x1 32 :=
  broadcastInDim S950272x1 ![0] bcast_S950272_S950272x1_0
    (select (cmpi .slt src (broadcastInDim S950272 ![] bcast_S_S950272 (constantI S_ 32 0#32)))
      (addi src (broadcastInDim S950272 ![] bcast_S_S950272 (constantI S_ 32 59392#32))) src)

/-- The look-up of the node features: the gather at the wrapped source positions, a row replaced by the filling value
    when its wrapped position is outside `[0, 59391]`. -/
def hsrcFill (h : FVec Ideal S59392x256 .f32) (src : IVec S950272 32) : FVec Ideal S950272x256 .f32 :=
  select
    (broadcastInDim S950272x256 ![0] bcast_S950272_S950272x256_0
      (Host.reduce IntOp.andi
        (andi (cmpi .sge (wsrc src) (broadcastInDim S950272x1 ![] bcast_S_S950272x1 (constantI S_ 32 0#32)))
          (cmpi .sle (wsrc src) (broadcastInDim S950272x1 ![0, 1] bcast_S1x1_S950272x1_0_1
            (broadcastInDim S1x1 ![1] bcast_S1_S1x1_1 (constantI S1 32 59391#32)))))
        (constantI S_ 1 1#1) reducesTo_S950272x1_S950272_d1 h_S_))
    (Host.gather gather_S59392x256_S950272x1_S950272x256_1_0_n_n_0_1_1256 h (wsrc src))
    (broadcastInDim S950272x256 ![] bcast_S_S950272x256 (constant (F := Ideal) S_ .f32 0x7FC00000#32))

/-- For source positions in `[-59392, 59392)` no row is filled: the look-up is the gather at the wrapped positions. -/
theorem hsrcFill_eq (h : FVec Ideal S59392x256 .f32) (src : IVec S950272 32)
    (hs : ∀ i, -59392 ≤ (src i).toInt ∧ (src i).toInt < 59392) :
    hsrcFill h src = Host.gather gather_S59392x256_S950272x1_S950272x256_1_0_n_n_0_1_1256 h (wsrc src) := by
  unfold hsrcFill
  refine select_of_one _ _ _ (fun j => ?_)
  -- the mask at a row is the conjunction, over that row of the one-column range test, of the two comparisons
  show Host.reduce IntOp.andi _ _ _ _ _ = 1#1
  refine reduce_andi_one _ _ _ _ (fun i => ?_) (fun _ => rfl) _
  exact wrap_inRange (src _) 59392#32 59391#32 59392 (by decide) (by decide) (by decide) (hs _)

end Cert.KernelIdeal.Take

end
-- ==== Proof.RefValueA.lean ====
/-
  The reference program's first two stages, read entry by entry, are the specification's.

  The encoder: entry (r, j) of the reference's clipped affine map is the clip at zero of
  Σ_k cat(r, k) · W(k, j) + b(j), where cat(r, ·) is the node's 116 features followed by the 16 entries of its gathered
  group embedding (`enc_eq`). The concatenation is read at an entry by the side its column falls on (`cat_apply`).

  Batch normalisation: per feature j the reference computes the mean (0 + Σ_r h(r, j)) / N, the variance
  (0 + Σ_r (h(r, j) - mean)²) / N, and then ((h(r, j) - mean) · rsqrt (variance + ε)) · γ(j) + β(j). With the leading
  zeros dropped these are the specification's `meanOf`, `varOf` and `bnCentred` of the encoder's output h
  (`mean_eq`, `var_eq`, `bn_eq`).
-/
import proofs.«425756_j88742614270020_1_alg».proof.Proof.Gen.ReferenceIdeal.Read
import proofs.«425756_j88742614270020_1_alg».proof.Proof.Spec

noncomputable section

open scoped BigOperators

namespace Cert.RefValue

open Cert.ReferenceIdeal Cert.ReferenceIdeal.Gen Cert.ReferenceIdeal.Read Idealize.ShloMosaic Idealize.ShloMosaic.ValueIdx Idealize.ShloMosaic.StableHlo

/-- The node features and the gathered embedding side by side, at row `r` and column `k`: the features' column below 116,
    the embedding's column `k - 116` from 116 on. -/
theorem cat_apply (x0 : S59392x116.Idx → EReal) (ge : S59392x16.Idx → EReal)
    (hc : Shape.Concatenates [S59392x116, S59392x16] S59392x132 1) (r : Fin 59392) (k : Fin 132) :
    concatenate S59392x132 1 [⟨S59392x116, x0⟩, ⟨S59392x16, ge⟩] hc (ix2 r k) = Cert.Spec.cat x0 ge r k := by
  unfold Cert.Spec.cat
  by_cases h : k.val < 116
  · rw [dif_pos h]
    exact concatenate_pair_apply_left (t := S59392x132) (s₁ := S59392x116) (s₂ := S59392x16) 1 x0 ge hc (ix2 r k) rfl
      (ix2 r ⟨k.val, h⟩) (fun b => by
        match b with
        | ⟨0, _⟩ => rfl
        | ⟨1, _⟩ => rfl)
  · rw [dif_neg h]
    exact concatenate_pair_apply_right (t := S59392x132) (s₁ := S59392x116) (s₂ := S59392x16) 1 x0 ge hc (ix2 r k) rfl rfl
      (ix2 r ⟨k.val - 116, by omega⟩)
      (fun b hb => by
        match b with
        | ⟨0, _⟩ => rfl
        | ⟨1, _⟩ => exact absurd rfl hb)
      (by show (k.val - 116) + 116 = k.val; omega)

/-- The encoder of the reference is the specification's encoder of the node features and the gathered embedding. -/
theorem enc_eq (x0 : (⟨S59392x116, .f32⟩ : BufTy).Contents (Elt Ideal)) (x3 : (⟨S59392, .i32⟩ : BufTy).Contents (Elt Ideal))
    (x4 : (⟨S8x16, .f32⟩ : BufTy).Contents (Elt Ideal)) (x5 : (⟨S132x256, .f32⟩ : BufTy).Contents (Elt Ideal))
    (x6 : (⟨S256, .f32⟩ : BufTy).Contents (Elt Ideal)) :
    Read.val_main_v12 (F := Ideal) x0 x3 x4 x5 x6 = Cert.Spec.enc x0 (Read.val_main_v6 (F := Ideal) x3 x4) x5 x6 := by
  funext i
  obtain ⟨r, j, rfl⟩ : ∃ (r : Fin 59392) (j : Fin 256), i = ix2 r j := ⟨i 0, i 1, eq_ix2 i⟩
  have el : ∀ k : Fin 132, lidx_main_v8 (ix2 r j) k = ix2 r k := fun k =>
    funext fun a => Fin.ext (by match a with | ⟨0, _⟩ => rfl | ⟨1, _⟩ => rfl)
  have er : ∀ k : Fin 132, ridx_main_v8 (ix2 r j) k = ix2 k j := fun k =>
    funext fun a => Fin.ext (by match a with | ⟨0, _⟩ => rfl | ⟨1, _⟩ => rfl)
  have eb : idx_main_v9 (idx_main_v10 (ix2 r j)) = ix1 j :=
    funext fun a => Fin.ext (by match a with | ⟨0, _⟩ => rfl)
  have hs : ∀ k : Fin 132, val_main_v7 (F := Ideal) x0 x3 x4 (ix2 r k)
      = Cert.Spec.cat x0 (val_main_v6 (F := Ideal) x3 x4) r k := fun k => by
    unfold val_main_v7
    exact cat_apply x0 (val_main_v6 (F := Ideal) x3 x4) _ r k
  rw [val_main_v12_apply, val_main_v11_apply, val_main_v8_apply, val_main_v10_apply, val_main_v9_apply,
    val_main_call0_v0_apply, val_main_call0_cst_apply]
  simp only [el, er, eb, hs, Ideal.maximumf_def, Ideal.addf_def, Ideal.ofBits_def, Ideal.ofBits_zero_f32]
  rfl

/-- The reference's per-feature mean is the specification's: the column's sum (from zero) over the number of nodes. -/
theorem mean_eq (x0 : (⟨S59392x116, .f32⟩ : BufTy).Contents (Elt Ideal)) (x3 : (⟨S59392, .i32⟩ : BufTy).Contents (Elt Ideal))
    (x4 : (⟨S8x16, .f32⟩ : BufTy).Contents (Elt Ideal)) (x5 : (⟨S132x256, .f32⟩ : BufTy).Contents (Elt Ideal))
    (x6 : (⟨S256, .f32⟩ : BufTy).Contents (Elt Ideal)) (j : Fin 256) :
    Read.val_main_v15 (F := Ideal) x0 x3 x4 x5 x6 (ix1 j)
      = Cert.Spec.meanOf (Read.val_main_v12 (F := Ideal) x0 x3 x4 x5 x6) j := by
  have ei : ∀ k : Fin 59392, idx_main_v13 (ix1 j) k = ix2 k j := fun k =>
    funext fun a => Fin.ext (by match a with | ⟨0, _⟩ => rfl | ⟨1, _⟩ => rfl)
  rw [val_main_v15_apply, val_main_v13_apply, val_main_v14_apply, val_main_cst_1_apply, val_main_cst_apply]
  simp only [ei, Ideal.hostDivf_def, Ideal.ofBits_def, Ideal.ofBits_zero_f32, zero_add]
  rfl

/-- The reference's per-feature variance is the specification's: the mean of the squared deviations from the mean. -/
theorem var_eq (x0 : (⟨S59392x116, .f32⟩ : BufTy).Contents (Elt Ideal)) (x3 : (⟨S59392, .i32⟩ : BufTy).Contents (Elt Ideal))
    (x4 : (⟨S8x16, .f32⟩ : BufTy).Contents (Elt Ideal)) (x5 : (⟨S132x256, .f32⟩ : BufTy).Contents (Elt Ideal))
    (x6 : (⟨S256, .f32⟩ : BufTy).Contents (Elt Ideal)) (j : Fin 256) :
    Read.val_main_v22 (F := Ideal) x0 x3 x4 x5 x6 (ix1 j)
      = Cert.Spec.varOf (Read.val_main_v12 (F := Ideal) x0 x3 x4 x5 x6) j := by
  have ei : ∀ k : Fin 59392, idx_main_v20 (ix1 j) k = ix2 k j := fun k =>
    funext fun a => Fin.ext (by match a with | ⟨0, _⟩ => rfl | ⟨1, _⟩ => rfl)
  have em : ∀ k : Fin 59392, idx_main_v16 (idx_main_v17 (ix2 k j)) = ix1 j := fun k =>
    funext fun a => Fin.ext (by match a with | ⟨0, _⟩ => rfl)
  rw [val_main_v22_apply, val_main_v20_apply, val_main_v21_apply, val_main_cst_3_apply, val_main_cst_2_apply]
  simp only [ei, val_main_v19_apply, val_main_v18_apply, val_main_v17_apply, val_main_v16_apply, em, mean_eq,
    Ideal.hostDivf_def, Ideal.mulf_def, Ideal.subf_def, Ideal.ofBits_def, Ideal.ofBits_zero_f32, zero_add]
  rfl

/-- The reference's batch normalisation is the specification's centred form, applied to the encoder's output. -/
theorem bn_eq (x0 : (⟨S59392x116, .f32⟩ : BufTy).Contents (Elt Ideal)) (x3 : (⟨S59392, .i32⟩ : BufTy).Contents (Elt Ideal))
    (x4 : (⟨S8x16, .f32⟩ : BufTy).Contents (Elt Ideal)) (x5 : (⟨S132x256, .f32⟩ : BufTy).Contents (Elt Ideal))
    (x6 x7 x8 : (⟨S256, .f32⟩ : BufTy).Contents (Elt Ideal)) :
    Read.val_main_v37 (F := Ideal) x0 x3 x4 x5 x6 x7 x8
      = Cert.Spec.bnCentred (Read.val_main_v12 (F := Ideal) x0 x3 x4 x5 x6) x7 x8 := by
  funext i
  obtain ⟨r, j, rfl⟩ : ∃ (r : Fin 59392) (j : Fin 256), i = ix2 r j := ⟨i 0, i 1, eq_ix2 i⟩
  have e24 : idx_main_v23 (idx_main_v24 (ix2 r j)) = ix1 j :=
    funext fun a => Fin.ext (by match a with | ⟨0, _⟩ => rfl)
  have e30 : idx_main_v29 (idx_main_v30 (ix2 r j)) = ix1 j :=
    funext fun a => Fin.ext (by match a with | ⟨0, _⟩ => rfl)
  have e33 : idx_main_v32 (idx_main_v33 (ix2 r j)) = ix1 j :=
    funext fun a => Fin.ext (by match a with | ⟨0, _⟩ => rfl)
  have e36 : idx_main_v35 (idx_main_v36 (ix2 r j)) = ix1 j :=
    funext fun a => Fin.ext (by match a with | ⟨0, _⟩ => rfl)
  rw [val_main_v37_apply, val_main_v34_apply, val_main_v31_apply, val_main_v25_apply, val_main_v24_apply,
    val_main_v23_apply, val_main_v30_apply, val_main_v29_apply, val_main_v28_apply, val_main_v27_apply,
    val_main_v33_apply, val_main_v32_apply, val_main_v36_apply, val_main_v35_apply, e24, e30, e33, e36,
    val_main_v26_apply, val_main_cst_4_apply, mean_eq, var_eq]
  rfl

end Cert.RefValue

end
-- ==== Proof.RefValueB.lean ====
/-
  The reference's edge message and its node update are the specification's.

  The reference computes the message of an edge as the clip at zero of (gathered source row + the 5 → 256 linear map
  of the edge's attributes) + bias, and the update of a node as two linear layers, each followed by a clip at zero,
  applied to the sum of the node's normalised features and its aggregated messages. Each stage is read at one index:
  a contraction as the sum over its one contracted coordinate, a bias as the entry at the output's column, a clip at
  zero as the maximum with the zero word, which is the extended real 0. The gather of the source rows and the
  scatter-add of the messages are left as they stand: the statements carry them as the arrays they produce.
-/
import proofs.«425756_j88742614270020_1_alg».proof.Proof.Gen.ReferenceIdeal.Read
import proofs.«425756_j88742614270020_1_alg».proof.Proof.Spec

noncomputable section

open scoped BigOperators

namespace Cert.RefValue

open Cert.ReferenceIdeal Cert.ReferenceIdeal.Read Idealize.ShloMosaic Idealize.ShloMosaic.ValueIdx

/-! ## The index maps of the reference's stages, by coordinates -/

/-- The edge attributes' entry the contraction reads at step `k` for output `(e, j)`: row `e`, column `k`. -/
theorem edge_lhs (i : S950272x256.Idx) (k : Fin 5) : lidx_main_v49 i k = @ix2 950272 5 (i 0) k :=
  funext fun a => by
    match a with
    | ⟨0, _⟩ => rfl
    | ⟨1, _⟩ => rfl

/-- The edge weights' entry the contraction reads at step `k` for output `(e, j)`: row `k`, column `j`. -/
theorem edge_rhs (i : S950272x256.Idx) (k : Fin 5) : ridx_main_v49 i k = @ix2 5 256 k (i 1) :=
  funext fun a => by
    match a with
    | ⟨0, _⟩ => rfl
    | ⟨1, _⟩ => rfl

/-- The edge bias, laid out as one row and repeated over the edges, is read at the output's column. -/
theorem edge_bias (i : S950272x256.Idx) : idx_main_v51 (idx_main_v52 i) = @ix1 256 (i 1) :=
  funext fun a => by
    match a with
    | ⟨0, _⟩ => rfl

/-- The first layer's left entry at step `k` for output `(r, j)`: row `r`, column `k`. -/
theorem fst_lhs (i : S59392x256.Idx) (k : Fin 256) : lidx_main_v59 i k = @ix2 59392 256 (i 0) k :=
  funext fun a => by
    match a with
    | ⟨0, _⟩ => rfl
    | ⟨1, _⟩ => rfl

/-- The first layer's weight entry at step `k` for output `(r, j)`: row `k`, column `j`. -/
theorem fst_rhs (i : S59392x256.Idx) (k : Fin 256) : ridx_main_v59 i k = @ix2 256 256 k (i 1) :=
  funext fun a => by
    match a with
    | ⟨0, _⟩ => rfl
    | ⟨1, _⟩ => rfl

/-- The first layer's bias is read at the output's column. -/
theorem fst_bias (i : S59392x256.Idx) : idx_main_v60 (idx_main_v61 i) = @ix1 256 (i 1) :=
  funext fun a => by
    match a with
    | ⟨0, _⟩ => rfl

/-- The second layer's left entry at step `k` for output `(r, j)`: row `r`, column `k`. -/
theorem snd_lhs (i : S59392x256.Idx) (k : Fin 256) : lidx_main_v64 i k = @ix2 59392 256 (i 0) k :=
  funext fun a => by
    match a with
    | ⟨0, _⟩ => rfl
    | ⟨1, _⟩ => rfl

/-- The second layer's weight entry at step `k` for output `(r, j)`: row `k`, column `j`. -/
theorem snd_rhs (i : S59392x256.Idx) (k : Fin 256) : ridx_main_v64 i k = @ix2 256 256 k (i 1) :=
  funext fun a => by
    match a with
    | ⟨0, _⟩ => rfl
    | ⟨1, _⟩ => rfl

/-- The second layer's bias is read at the output's column. -/
theorem snd_bias (i : S59392x256.Idx) : idx_main_v65 (idx_main_v66 i) = @ix1 256 (i 1) :=
  funext fun a => by
    match a with
    | ⟨0, _⟩ => rfl

/-! ## The edge message -/

/-- The reference's message is the specification's, the gathered source row and the linear map of the edge
    attributes added first, then the bias, then the clip at zero. -/
theorem msg_eq (x0 : (⟨S59392x116, .f32⟩ : BufTy).Contents (Elt Ideal)) (x1 : (⟨S2x950272, .i32⟩ : BufTy).Contents (Elt Ideal)) (x2 : (⟨S950272x5, .f32⟩ : BufTy).Contents (Elt Ideal)) (x3 : (⟨S59392, .i32⟩ : BufTy).Contents (Elt Ideal)) (x4 : (⟨S8x16, .f32⟩ : BufTy).Contents (Elt Ideal)) (x5 : (⟨S132x256, .f32⟩ : BufTy).Contents (Elt Ideal)) (x6 x7 x8 : (⟨S256, .f32⟩ : BufTy).Contents (Elt Ideal)) (x9 : (⟨S5x256, .f32⟩ : BufTy).Contents (Elt Ideal)) (x10 : (⟨S256, .f32⟩ : BufTy).Contents (Elt Ideal)) :
    val_main_v54 (F := Ideal) x0 x1 x2 x3 x4 x5 x6 x7 x8 x9 x10
      = Cert.Spec.msgLeft (val_main_v48 (F := Ideal) x0 x1 x3 x4 x5 x6 x7 x8) x2 x9 x10 := by
  funext i
  rw [val_main_v54_apply, val_main_v53_apply, val_main_v50_apply, val_main_v49_apply, val_main_v52_apply,
    val_main_v51_apply, val_main_call1_v0_apply, val_main_call1_cst_apply]
  simp only [edge_lhs, edge_rhs, edge_bias, Ideal.maximumf_def, Ideal.addf_def, Ideal.ofBits_def, Ideal.ofBits_zero_f32]
  rfl

/-! ## The node update -/

/-- The reference's hidden layer is one linear layer with a clip at zero, applied to the sum of the normalised
    features and the aggregated messages. -/
theorem hidden_eq (x0 : (⟨S59392x116, .f32⟩ : BufTy).Contents (Elt Ideal)) (x1 : (⟨S2x950272, .i32⟩ : BufTy).Contents (Elt Ideal)) (x2 : (⟨S950272x5, .f32⟩ : BufTy).Contents (Elt Ideal)) (x3 : (⟨S59392, .i32⟩ : BufTy).Contents (Elt Ideal)) (x4 : (⟨S8x16, .f32⟩ : BufTy).Contents (Elt Ideal)) (x5 : (⟨S132x256, .f32⟩ : BufTy).Contents (Elt Ideal)) (x6 x7 x8 : (⟨S256, .f32⟩ : BufTy).Contents (Elt Ideal)) (x9 : (⟨S5x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) :
    val_main_v63 (F := Ideal) x0 x1 x2 x3 x4 x5 x6 x7 x8 x9 x10 x11 x12
      = Cert.Spec.lin (fun l => val_main_v37 (F := Ideal) x0 x3 x4 x5 x6 x7 x8 l
          + val_main_v57 (F := Ideal) x0 x1 x2 x3 x4 x5 x6 x7 x8 x9 x10 l) x11 x12 := by
  funext i
  rw [val_main_v63_apply, val_main_v62_apply, val_main_v59_apply, val_main_v61_apply, val_main_v60_apply,
    val_main_call2_v0_apply, val_main_call2_cst_apply]
  simp only [val_main_v58_apply, fst_lhs, fst_rhs, fst_bias, Ideal.maximumf_def, Ideal.addf_def, Ideal.ofBits_def,
    Ideal.ofBits_zero_f32]
  rfl

/-- The reference's result is the specification's node update of the normalised features and the aggregated
    messages. -/
theorem out_eq (x0 : (⟨S59392x116, .f32⟩ : BufTy).Contents (Elt Ideal)) (x1 : (⟨S2x950272, .i32⟩ : BufTy).Contents (Elt Ideal)) (x2 : (⟨S950272x5, .f32⟩ : BufTy).Contents (Elt Ideal)) (x3 : (⟨S59392, .i32⟩ : BufTy).Contents (Elt Ideal)) (x4 : (⟨S8x16, .f32⟩ : BufTy).Contents (Elt Ideal)) (x5 : (⟨S132x256, .f32⟩ : BufTy).Contents (Elt Ideal)) (x6 x7 x8 : (⟨S256, .f32⟩ : BufTy).Contents (Elt Ideal)) (x9 : (⟨S5x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) :
    val_main_v68 (F := Ideal) x0 x1 x2 x3 x4 x5 x6 x7 x8 x9 x10 x11 x12 x13 x14
      = Cert.Spec.mlp (val_main_v37 (F := Ideal) x0 x3 x4 x5 x6 x7 x8)
          (val_main_v57 (F := Ideal) x0 x1 x2 x3 x4 x5 x6 x7 x8 x9 x10) x11 x12 x13 x14 := by
  funext i
  rw [val_main_v68_apply, val_main_v67_apply, val_main_v64_apply, val_main_v66_apply, val_main_v65_apply,
    val_main_call3_v0_apply, val_main_call3_cst_apply, hidden_eq]
  simp only [snd_lhs, snd_rhs, snd_bias, Ideal.maximumf_def, Ideal.addf_def, Ideal.ofBits_def, Ideal.ofBits_zero_f32]
  rfl

end Cert.RefValue

end
-- ==== Proof.Region0.lean ====
/-
  Region 0 of the kernel, its first output: the encoder.

  The region walks 58 grid points. At point t it reads rows 1024 t … 1024 t + 1023 of the node features (116 columns) and of
  the gathered group embedding (16 columns), the whole 132 × 256 weight matrix and the one-row bias, and stores into block t
  of its first output the clipped value  max (∑ₖ [x | ge](r, k) · W(k, j) + b(j), 0)  for the block's rows r. Over the
  extended reals the narrowing of the operands before the product is the identity and the product into the zero block is the
  plain sum over the 132 inner positions, so the stored block is block t of `Spec.enc`; the 58 blocks tile the 59392 rows,
  so after the last point the output array is `Spec.enc` of the four arrays the region reads (`arrAt_4`). The same store
  happens at the first point (which also resets the two running column sums) and at the later ones (which add to them):
  `outA4`, `outB4`. `pay1_apply` is the stored value at one entry, which the running sums are sums of.
-/
import proofs.«425756_j88742614270020_1_alg».proof.Proof.Gen.KernelIdeal.Frame
import proofs.«425756_j88742614270020_1_alg».proof.Proof.Spec
import Idealize.ShloMosaic.Lib.Pipeline.Value
import Idealize.ShloMosaic.Lib.Tactic

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

section Pieces
variable {F : FTy → Type} [FloatOps F]

theorem hz : (![0, 0] : Fin 2 → Nat) = fun _ => 0 := funext fun a => by fin_cases a <;> rfl

/-- At the first grid point the block stored into the fifth window is the encoder payload of the four loaded blocks. -/
theorem outA4 (c : Dev nD) (i : grid0.Coords) (arg1 : Memref sig .tc .vmem S1024x116 .f32) (harg1 : arg1.IsWhole) (arg2 : Memref sig .tc .vmem S1024x16 .f32) (harg2 : arg2.IsWhole) (arg3 : Memref sig .tc .vmem S132x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S1x256 .f32) (harg7 : arg7.IsWhole) (hc0 : cond0_0 i)
    (x0 : Vec F S1024x116 .f32) (x1 : Vec F S1024x16 .f32) (x2 : Vec F S132x256 .f32) (x3 : Vec F S1x256 .f32) :
    out0_A_4 c i arg1 harg1 arg2 harg2 arg3 harg3 arg4 harg4 arg5 harg5 arg6 harg6 arg7 harg7 hc0 x0 x1 x2 x3 = k0_pay1 x0 x1 x2 x3 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  try sl_unfold_words
  rw [View.canon_unit_zero hz]
  simp only [View.readAt_eq_ld, harg1.read_unread, harg2.read_unread, harg3.read_unread, harg4.read_unread,
    View.ld_unit_zero (S := S1024x116) hz, View.ld_unit_zero (S := S1024x16) hz, View.ld_unit_zero (S := S132x256) hz,
    View.ld_unit_zero (S := S1x256) hz]

/-- At every later grid point too, whatever the two running sums hold. -/
theorem outB4 (c : Dev nD) (i : grid0.Coords) (arg1 : Memref sig .tc .vmem S1024x116 .f32) (harg1 : arg1.IsWhole) (arg2 : Memref sig .tc .vmem S1024x16 .f32) (harg2 : arg2.IsWhole) (arg3 : Memref sig .tc .vmem S132x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i)
    (x0 : Vec F S1024x116 .f32) (x1 : Vec F S1024x16 .f32) (x2 : Vec F S132x256 .f32) (x3 : Vec F S1x256 .f32) (xo5 : Vec F S1x256 .f32) (xo6 : Vec F S1x256 .f32) :
    out0_B_4 c i arg1 harg1 arg2 harg2 arg3 harg3 arg4 harg4 arg5 harg5 arg6 harg6 arg7 harg7 hc0 x0 x1 x2 x3 xo5 xo6 = k0_pay1 x0 x1 x2 x3 := by
  unfold out0_B_4
  rw [View.read_writes_eq_canon _ _ _ (cover0_B_4 c i arg1 harg1 arg2 harg2 arg3 harg3 arg4 harg4 arg5 harg5 arg6 harg6 arg7 harg7 hc0 x0 x1 x2 x3 xo5 xo6)]
  unfold kernelRun0_B
  dsimp only
  try sl_unfold_words
  rw [View.canon_unit_zero hz]
  simp only [View.readAt_eq_ld, harg1.read_unread, harg2.read_unread, harg3.read_unread, harg4.read_unread,
    View.ld_unit_zero (S := S1024x116) hz, View.ld_unit_zero (S := S1024x16) hz, View.ld_unit_zero (S := S132x256) hz,
    View.ld_unit_zero (S := S1x256) hz]

end Pieces

/-! ## The payload at an index -/

section Payload

theorem lhs_axis0 (i : S1024x256.Idx) (q : dot_S1024x132_S132x256_S1024x256_1_0_0_1_n_n.contr.Idx) :
    (dot_S1024x132_S132x256_S1024x256_1_0_0_1_n_n.lhsIdx i q 0).val = (i 0).val := by
  unfold DotDims.lhsIdx
  rw [dif_neg (show ¬(0 : Fin S1024x132.rank) ∈ dot_S1024x132_S132x256_S1024x256_1_0_0_1_n_n.lhsBatch by decide), dif_pos (show (0 : Fin S1024x132.rank) ∈ dot_S1024x132_S132x256_S1024x256_1_0_0_1_n_n.lhsNonContracting by decide)]
  rfl
theorem lhs_axis1 (i : S1024x256.Idx) (q : dot_S1024x132_S132x256_S1024x256_1_0_0_1_n_n.contr.Idx) :
    (dot_S1024x132_S132x256_S1024x256_1_0_0_1_n_n.lhsIdx i q 1).val = (q ⟨0, by decide⟩).val :=
  dot_S1024x132_S132x256_S1024x256_1_0_0_1_n_n.lhsIdx_val_of_single rfl i q
theorem rhs_axis0 (i : S1024x256.Idx) (q : dot_S1024x132_S132x256_S1024x256_1_0_0_1_n_n.contr.Idx) :
    (dot_S1024x132_S132x256_S1024x256_1_0_0_1_n_n.rhsIdx i q 0).val = (q ⟨0, by decide⟩).val :=
  dot_S1024x132_S132x256_S1024x256_1_0_0_1_n_n.rhsIdx_val_of_single rfl i q
theorem rhs_axis1 (i : S1024x256.Idx) (q : dot_S1024x132_S132x256_S1024x256_1_0_0_1_n_n.contr.Idx) :
    (dot_S1024x132_S132x256_S1024x256_1_0_0_1_n_n.rhsIdx i q 1).val = (i 1).val := by
  unfold DotDims.rhsIdx
  rw [dif_neg (show ¬(1 : Fin S132x256.rank) ∈ dot_S1024x132_S132x256_S1024x256_1_0_0_1_n_n.rhsBatch by decide), dif_pos (show (1 : Fin S132x256.rank) ∈ dot_S1024x132_S132x256_S1024x256_1_0_0_1_n_n.rhsNonContracting by decide)]
  rfl

/-- The product of a 1024 × 132 block and a 132 × 256 matrix into the zero block, at (p, q): the sum over the 132 inner positions. -/
theorem mm_apply (A : FVec Ideal S1024x132 .bf16) (B : FVec Ideal S132x256 .bf16) (p : Fin 1024) (q : Fin 256) :
    matmul dot_S1024x132_S132x256_S1024x256_1_0_0_1_n_n none A B (constant (F := Ideal) S1024x256 .f32 0x00000000#32) (ix2 p q)
      = ∑ k : Fin 132, A (ix2 p k) * B (ix2 k q) := by
  simp only [matmul]
  rw [Ideal.matmul_constant_zero_apply, ← Equiv.sum_comp (ValueIdx.contrEquiv1 dot_S1024x132_S132x256_S1024x256_1_0_0_1_n_n 132 rfl rfl).symm]
  refine Finset.sum_congr rfl fun k _ => ?_
  have hk := ValueIdx.contrEquiv1_symm_val dot_S1024x132_S132x256_S1024x256_1_0_0_1_n_n 132 rfl rfl k
  have el : dot_S1024x132_S132x256_S1024x256_1_0_0_1_n_n.lhsIdx (ix2 p q) ((ValueIdx.contrEquiv1 dot_S1024x132_S132x256_S1024x256_1_0_0_1_n_n 132 rfl rfl).symm k) = ix2 p k := funext fun a => Fin.ext (by
    match a with
    | ⟨0, _⟩ => exact lhs_axis0 _ _
    | ⟨1, _⟩ => exact (lhs_axis1 _ _).trans hk)
  have er : dot_S1024x132_S132x256_S1024x256_1_0_0_1_n_n.rhsIdx (ix2 p q) ((ValueIdx.contrEquiv1 dot_S1024x132_S132x256_S1024x256_1_0_0_1_n_n 132 rfl rfl).symm k) = ix2 k q := funext fun a => Fin.ext (by
    match a with
    | ⟨0, _⟩ => exact (rhs_axis0 _ _).trans hk
    | ⟨1, _⟩ => exact rhs_axis1 _ _)
  rw [el, er]

/-- Column k of the 116 feature columns and the 16 embedding columns side by side. -/
def catBlk (x0 : FVec Ideal S1024x116 .f32) (x1 : FVec Ideal S1024x16 .f32) (p : Fin 1024) (k : Fin 132) : EReal :=
  if h : k.val < 116 then x0 (ix2 p ⟨k.val, h⟩) else x1 (ix2 p ⟨k.val - 116, by omega⟩)

theorem cat_apply (x0 : FVec Ideal S1024x116 .f32) (x1 : FVec Ideal S1024x16 .f32) (p : Fin 1024) (k : Fin 132) :
    concatenate S1024x132 1 [⟨S1024x116, x0⟩, ⟨S1024x16, x1⟩] concatenates_S1024x116_S1024x16_S1024x132_d1 (ix2 p k)
      = catBlk x0 x1 p k := by
  unfold catBlk
  by_cases h : k.val < 116
  · rw [dif_pos h]
    refine concatenate_pair_apply_left (1 : Fin S1024x132.rank) x0 x1 _ (ix2 p k) rfl (ix2 p ⟨k.val, h⟩) fun b => ?_
    match b with
    | ⟨0, _⟩ => rfl
    | ⟨1, _⟩ => rfl
  · rw [dif_neg h]
    refine concatenate_pair_apply_right (1 : Fin S1024x132.rank) x0 x1 _ (ix2 p k) rfl rfl (ix2 p ⟨k.val - 116, by omega⟩) (fun b hb => ?_) ?_
    · match b with
      | ⟨0, _⟩ => rfl
      | ⟨1, _⟩ => exact absurd rfl hb
    · show (k.val - 116) + 116 = k.val
      omega

/-- A one-row block broadcast down the 1024 rows reads its column. -/
theorem bias_apply (x3 : FVec Ideal S1x256 .f32) (p : Fin 1024) (q : Fin 256) :
    broadcastTo S1024x256 x3 broadcasts_S1x256_S1024x256 (ix2 p q) = x3 (ix2 0 q) := by
  refine broadcastTo_apply x3 _ (ix2 p q) (ix2 0 q) fun a => ?_
  match a with
  | ⟨0, _⟩ => rfl
  | ⟨1, _⟩ => rfl

/-- The encoder payload of four blocks at (p, q): the clipped sum over the 132 side-by-side columns plus the bias. -/
theorem pay1_at (x0 : Vec Ideal S1024x116 .f32) (x1 : Vec Ideal S1024x16 .f32) (x2 : Vec Ideal S132x256 .f32) (x3 : Vec Ideal S1x256 .f32)
    (p : Fin 1024) (q : Fin 256) :
    k0_pay1 (F := Ideal) x0 x1 x2 x3 (ix2 p q)
      = Cert.Spec.relu ((∑ k : Fin 132, catBlk x0 x1 p k * x2 (ix2 k q)) + x3 (ix2 0 q)) := by
  unfold k0_pay1
  rw [shapeCast_self, shapeCast_self]
  show max (matmul dot_S1024x132_S132x256_S1024x256_1_0_0_1_n_n none _ _ (constant (F := Ideal) S1024x256 .f32 0x00000000#32) (ix2 p q)
      + broadcastTo S1024x256 x3 broadcasts_S1x256_S1024x256 (ix2 p q)) (Ideal.ofBits .f32 0x00000000#32) = _
  rw [mm_apply, bias_apply, Ideal.ofBits_zero_f32]
  unfold Cert.Spec.relu
  refine congrArg (fun z => max (z + x3 (ix2 0 q)) 0) (Finset.sum_congr rfl fun k _ => ?_)
  simp only [truncf_apply, cat_apply]

end Payload

/-! ## The blocks, the points, the array -/

section Region
variable (V : (c : Dev nD) → (b : Ref sig .tc) → Buf (Elt Ideal) ((c : Thread nD τ).loc b))

/-- The encoder's output on all 59392 nodes, from the four arrays the region reads. -/
abbrev hpre (c : Dev nD) : Cert.Spec.Mat 59392 256 :=
  Cert.Spec.enc (V c (Pipeline.arrRef spec0 0)) (V c (Pipeline.arrRef spec0 1)) (V c (Pipeline.arrRef spec0 2))
    (Cert.Spec.row1 (V c (Pipeline.arrRef spec0 3)))

/-- Where each window's block sits at grid point t: the three row-blocked windows at block row t, the two whole windows at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the feature block at point t is row 1024 t + p of the feature array. -/
theorem blk0_apply (c : Dev nD) (t : Fin cfg0.N) (p : Fin 1024) (k : Fin 116) (hr : 1024 * t.val + p.val < 59392) :
    (iblk0 V c 0 t : Vec Ideal S1024x116 .f32) (ix2 p k)
      = ((V c (Pipeline.arrRef spec0 0)) : Cert.Spec.Mat 59392 116) (ix2 ⟨1024 * t.val + p.val, hr⟩ k) := by
  obtain ⟨e0, e1, -⟩ := idx_facts t
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 1024 + 1 * p.val = 1024 * t.val + p.val; omega
  | ⟨1, _⟩ => show win0_0.index t (1 : Fin 2) * 116 + 1 * k.val = k.val; omega

/-- Row p of the embedding block at point t is row 1024 t + p of the embedding array. -/
theorem blk1_apply (c : Dev nD) (t : Fin cfg0.N) (p : Fin 1024) (k : Fin 16) (hr : 1024 * t.val + p.val < 59392) :
    (iblk0 V c 1 t : Vec Ideal S1024x16 .f32) (ix2 p k)
      = ((V c (Pipeline.arrRef spec0 1)) : Cert.Spec.Mat 59392 16) (ix2 ⟨1024 * t.val + p.val, hr⟩ k) := by
  obtain ⟨-, -, e0, e1, -⟩ := idx_facts t
  show V c (Pipeline.arrRef spec0 1) (((cfg0.win 1).blk t).view.emb (ix2 p k)) = _
  refine congrArg (V c (Pipeline.arrRef spec0 1)) (funext fun a => Fin.ext ?_)
  match a with
  | ⟨0, _⟩ => show win0_1.index t (0 : Fin 2) * 1024 + 1 * p.val = 1024 * t.val + p.val; omega
  | ⟨1, _⟩ => show win0_1.index t (1 : Fin 2) * 16 + 1 * k.val = k.val; omega

/-- The weight block at every point is the whole weight matrix. -/
theorem blk2_apply (c : Dev nD) (t : Fin cfg0.N) (k : Fin 132) (q : Fin 256) :
    (iblk0 V c 2 t : Vec Ideal S132x256 .f32) (ix2 k q) = ((V c (Pipeline.arrRef spec0 2)) : Cert.Spec.Mat 132 256) (ix2 k q) := by
  obtain ⟨-, -, -, -, e0, e1, -⟩ := idx_facts t
  show V c (Pipeline.arrRef spec0 2) (((cfg0.win 2).blk t).view.emb (ix2 k q)) = _
  refine congrArg (V c (Pipeline.arrRef spec0 2)) (funext fun a => Fin.ext ?_)
  match a with
  | ⟨0, _⟩ => show win0_2.index t (0 : Fin 2) * 132 + 1 * k.val = k.val; omega
  | ⟨1, _⟩ => show win0_2.index t (1 : Fin 2) * 256 + 1 * q.val = q.val; omega

/-- The bias block at every point is the whole one-row bias, read as a vector. -/
theorem blk3_apply (c : Dev nD) (t : Fin cfg0.N) (q : Fin 256) :
    (iblk0 V c 3 t : Vec Ideal S1x256 .f32) (ix2 0 q) = Cert.Spec.row1 (V c (Pipeline.arrRef spec0 3)) (ix1 q) := by
  obtain ⟨-, -, -, -, -, -, e0, e1, -⟩ := idx_facts t
  show V c (Pipeline.arrRef spec0 3) (((cfg0.win 3).blk t).view.emb (ix2 0 q)) = V c (Pipeline.arrRef spec0 3) (ix2 0 q)
  refine congrArg (V c (Pipeline.arrRef spec0 3)) (funext fun a => Fin.ext ?_)
  match a with
  | ⟨0, _⟩ => show win0_3.index t (0 : Fin 2) * 1 + 1 * 0 = 0; omega
  | ⟨1, _⟩ => show win0_3.index t (1 : Fin 2) * 256 + 1 * q.val = q.val; omega

/-- Side by side, the two row-blocked windows' blocks at point t read the side-by-side arrays at row 1024 t + p. -/
theorem cat_blk (c : Dev nD) (t : Fin cfg0.N) (p : Fin 1024) (k : Fin 132) (hr : 1024 * t.val + p.val < 59392) :
    catBlk (iblk0 V c 0 t) (iblk0 V c 1 t) p k
      = Cert.Spec.cat (V c (Pipeline.arrRef spec0 0)) (V c (Pipeline.arrRef spec0 1)) ⟨1024 * t.val + p.val, hr⟩ k := by
  unfold catBlk Cert.Spec.cat
  by_cases h : k.val < 116
  · rw [dif_pos h, dif_pos h]; exact blk0_apply V c t p ⟨k.val, h⟩ hr
  · rw [dif_neg h, dif_neg h]; exact blk1_apply V c t p ⟨k.val - 116, by omega⟩ hr

/-- THE PAYLOAD AT A POINT: entry (p, j) of the encoder payload of the point's four blocks is the encoder's entry (1024 t + p, j). -/
theorem pay1_apply (c : Dev nD) (t : Fin cfg0.N) (p : Fin 1024) (j : Fin 256) (hr : 1024 * t.val + p.val < 59392) :
    k0_pay1 (F := Ideal) (iblk0 V c 0 t) (iblk0 V c 1 t) (iblk0 V c 2 t) (iblk0 V c 3 t) (ix2 p j)
      = Cert.Spec.encAt (V c (Pipeline.arrRef spec0 0)) (V c (Pipeline.arrRef spec0 1)) (V c (Pipeline.arrRef spec0 2))
          (Cert.Spec.row1 (V c (Pipeline.arrRef spec0 3))) ⟨1024 * t.val + p.val, hr⟩ j := by
  refine (pay1_at (iblk0 V c 0 t) (iblk0 V c 1 t) (iblk0 V c 2 t) (iblk0 V c 3 t) p j).trans ?_
  unfold Cert.Spec.encAt
  refine congrArg Cert.Spec.relu (congrArg₂ (· + ·) (Finset.sum_congr rfl fun k _ => ?_) (blk3_apply V c t j))
  exact congrArg₂ (· * ·) (cat_blk V c t p k hr) (blk2_apply V c t k j)

/-- After every point the fifth window's staging block is the encoder payload of the point's four input blocks. -/
theorem after4 (c : Dev nD) (t : Fin cfg0.N) :
    (outsAt0 V c t.val t.isLt).1 = k0_pay1 (F := Ideal) (iblk0 V c 0 t) (iblk0 V c 1 t) (iblk0 V c 2 t) (iblk0 V c 3 t) := by
  by_cases h0 : t.val % 58 = 0
  · rw [outsAt0_A V c t h0]
    dsimp only
    exact outA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]
    dsimp only
    exact outB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t)
      (outsAt0 V c (t.val - 1) (Nat.lt_of_le_of_lt (Nat.sub_le _ _) t.isLt)).2.1 (outsAt0 V c (t.val - 1) (Nat.lt_of_le_of_lt (Nat.sub_le _ _) t.isLt)).2.2

/-- What point t writes back to the fifth window's array is block t of the encoder's output. -/
theorem flushed_eq (c : Dev nD) (t : Fin cfg0.N) :
    (dat0 (F := Ideal) V c).flushed 4 t = ((cfg0.win 4).blk t).view.read (Elt Ideal) (hpre V c) := by
  show (cfg0.win 4).cut (grid0.coords t) ((dat0 V c).after 4 t) = _
  rw [after0_4, after4]
  funext y
  obtain ⟨p, q, rfl⟩ : ∃ (p : Fin 1024) (q : Fin 256), y = ix2 p q := ⟨y 0, y 1, eq_ix2 y⟩
  have hN : t.val < 58 := lt_of_lt_of_eq t.isLt (show cfg0.N = 58 from N_0)
  have hr : 1024 * t.val + p.val < 59392 := by have := p.isLt; omega
  obtain ⟨-, -, -, -, -, -, -, -, e0, e1⟩ := idx_facts t
  have he : ((cfg0.win 4).blk t).view.emb (ix2 p q) = (ix2 ⟨1024 * t.val + p.val, hr⟩ q : (⟨2, ![59392, 256]⟩ : Shape).Idx) :=
    funext fun a => Fin.ext (by
      match a with
      | ⟨0, _⟩ => show win0_4.index t (0 : Fin 2) * 1024 + 1 * p.val = 1024 * t.val + p.val; omega
      | ⟨1, _⟩ => show win0_4.index t (1 : Fin 2) * 256 + 1 * q.val = q.val; omega)
  show k0_pay1 (F := Ideal) (iblk0 V c 0 t) (iblk0 V c 1 t) (iblk0 V c 2 t) (iblk0 V c 3 t) (ix2 p q) = hpre V c (((cfg0.win 4).blk t).view.emb (ix2 p q))
  rw [he]
  exact pay1_apply V c t p q hr

/-- An index of the output array is in point t's block iff each coordinate is in the block's range on its axis. -/
theorem mem_blk4 (t : Fin cfg0.N) (i : S59392x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v5_0).slice (win0_4.rect t)).set ↔ _
  rw [View.set_slice_whole, Rect.mem_set_unit]
  exact Iff.rfl

/-- Every index of the output array lies in the block of the point its row falls in. -/
theorem cover4 (i : S59392x256.Idx) : ∃ t : Fin cfg0.N, (cfg0.win 4).flush t = true ∧ i ∈ ((cfg0.win 4).blk t).view.set := by
  have hi0 : (i 0).val < 59392 := (i 0).isLt
  have hi1 : (i 1).val < 256 := (i 1).isLt
  let t : Fin cfg0.N := ⟨(i 0).val / 1024, by rw [show cfg0.N = 58 from N_0]; omega⟩
  obtain ⟨-, -, -, -, -, -, -, -, e0, e1⟩ := idx_facts t
  have ht : t.val = (i 0).val / 1024 := rfl
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 256 ≤ (i 1).val ∧ (i 1).val < win0_4.index t (1 : Fin 2) * 256 + 256; omega

/-- REGION 0'S FIRST OUTPUT: after the 58 points the array is the encoder's output on all the nodes. -/
theorem arrAt_4 (c : Dev nD) : (dat0 (F := Ideal) V c).arrAt 4 cfg0.N = hpre V c :=
  (dat0 (F := Ideal) V c).arrAt_eq_of_cover 4 (hpre V c) (fun t _ => flushed_eq V c t) cover4

end Region

end Cert.KernelIdeal.Region0

end
-- ==== Proof.Region0Acc.lean ====
/-
  The first launch's two accumulated outputs.

  The grid has 58 points. Point t computes the encoder's output on the rows 1024 t … 1024 t + 1023 and adds, feature by
  feature, that block's column sums to a one-row block carried from point to point (set to zero at the first point);
  a second carried block receives the column sums of the squares. The two blocks are written back once, after the last
  point. So the two one-row output arrays end holding, for every feature, the sum and the sum of squares of the
  encoder's output over all 59392 = 58 · 1024 nodes: `Spec.sumRow` and `Spec.sumSqRow` of it, each laid out as a
  one-row matrix.

  The proof: what each of the two cases of the body (first point, later point) leaves in each carried block, as a
  function of the point's input blocks and of the carried block; that function read at a feature over the extended
  reals (a column sum is a sum over the block's 1024 rows); the invariant "after point n the blocks hold the sums over
  the first 1024 (n + 1) rows", by induction on n; and the one write-back, whose block is the whole array.
-/
import proofs.«425756_j88742614270020_1_alg».proof.Proof.Gen.KernelIdeal.Frame
import proofs.«425756_j88742614270020_1_alg».proof.Proof.Spec
import proofs.«425756_j88742614270020_1_alg».proof.Proof.Region0
import Idealize.ShloMosaic.Lib.Pipeline.Value
import Idealize.ShloMosaic.Lib.Tactic

set_option maxRecDepth 16384

noncomputable section

namespace Cert.KernelIdeal.Region0Acc

open Idealize.ShloMosaic Idealize.ShloMosaic.TcCoe Idealize.ShloMosaic.ValueIdx Idealize.SL.Sem
open Idealize.ShloMosaic.Pipeline (Dat Cfg Window)
open Cert.KernelIdeal Cert.KernelIdeal.Gen

section Pieces
variable {F : FTy → Type} [FloatOps F]

/-- The zero offsets of a whole-block access, as a constant function. -/
theorem hz : (![0, 0] : Fin 2 → Nat) = fun _ => 0 := funext fun a => by fin_cases a <;> rfl

/-- At a point after the first, the body leaves in the sum block the carried block plus the column sums of the point's
    encoder output. -/
theorem out_B_5 (c : Dev nD) (i : grid0.Coords) (a1 : Memref sig .tc .vmem S1024x116 .f32) (h1 : a1.IsWhole)
    (a2 : Memref sig .tc .vmem S1024x16 .f32) (h2 : a2.IsWhole) (a3 : Memref sig .tc .vmem S132x256 .f32) (h3 : a3.IsWhole)
    (a4 : Memref sig .tc .vmem S1x256 .f32) (h4 : a4.IsWhole) (a5 : Memref sig .tc .vmem S1024x256 .f32) (h5 : a5.IsWhole)
    (a6 : Memref sig .tc .vmem S1x256 .f32) (h6 : a6.IsWhole) (a7 : Memref sig .tc .vmem S1x256 .f32) (h7 : a7.IsWhole)
    (hc : ¬cond0_0 i) (x0 : Vec F S1024x116 .f32) (x1 : Vec F S1024x16 .f32) (x2 : Vec F S132x256 .f32)
    (x3 : Vec F S1x256 .f32) (xo5 xo6 : Vec F S1x256 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h6.read_unread,
    View.ld_unit_zero (S := S1024x116) hz, View.ld_unit_zero (S := S1024x16) hz, View.ld_unit_zero (S := S132x256) hz,
    View.ld_unit_zero (S := S1x256) hz]

/-- At a point after the first, the body leaves in the sum-of-squares block the carried block plus the column sums of
    the squares of the point's encoder output. -/
theorem out_B_6 (c : Dev nD) (i : grid0.Coords) (a1 : Memref sig .tc .vmem S1024x116 .f32) (h1 : a1.IsWhole)
    (a2 : Memref sig .tc .vmem S1024x16 .f32) (h2 : a2.IsWhole) (a3 : Memref sig .tc .vmem S132x256 .f32) (h3 : a3.IsWhole)
    (a4 : Memref sig .tc .vmem S1x256 .f32) (h4 : a4.IsWhole) (a5 : Memref sig .tc .vmem S1024x256 .f32) (h5 : a5.IsWhole)
    (a6 : Memref sig .tc .vmem S1x256 .f32) (h6 : a6.IsWhole) (a7 : Memref sig .tc .vmem S1x256 .f32) (h7 : a7.IsWhole)
    (hc : ¬cond0_0 i) (x0 : Vec F S1024x116 .f32) (x1 : Vec F S1024x16 .f32) (x2 : Vec F S132x256 .f32)
    (x3 : Vec F S1x256 .f32) (xo5 xo6 : Vec F S1x256 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h7.read_unread,
    View.ld_unit_zero (S := S1024x116) hz, View.ld_unit_zero (S := S1024x16) hz, View.ld_unit_zero (S := S132x256) hz,
    View.ld_unit_zero (S := S1x256) hz]

/-- At the first point the sum block is set to zero and read back before the column sums are added. -/
theorem out_A_5 (c : Dev nD) (i : grid0.Coords) (a1 : Memref sig .tc .vmem S1024x116 .f32) (h1 : a1.IsWhole)
    (a2 : Memref sig .tc .vmem S1024x16 .f32) (h2 : a2.IsWhole) (a3 : Memref sig .tc .vmem S132x256 .f32) (h3 : a3.IsWhole)
    (a4 : Memref sig .tc .vmem S1x256 .f32) (h4 : a4.IsWhole) (a5 : Memref sig .tc .vmem S1024x256 .f32) (h5 : a5.IsWhole)
    (a6 : Memref sig .tc .vmem S1x256 .f32) (h6 : a6.IsWhole) (a7 : Memref sig .tc .vmem S1x256 .f32) (h7 : a7.IsWhole)
    (hc : cond0_0 i) (x0 : Vec F S1024x116 .f32) (x1 : Vec F S1024x16 .f32) (x2 : Vec F S132x256 .f32)
    (x3 : Vec F S1x256 .f32) :
    out0_A_5 c i a1 h1 a2 h2 a3 h3 a4 h4 a5 h5 a6 h6 a7 h7 hc x0 x1 x2 x3 = k0_pay4 x0 x1 x2 x3 (k0_pay2 (F := F)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread,
    View.ld_unit_zero (S := S1024x116) hz, View.ld_unit_zero (S := S1024x16) hz, View.ld_unit_zero (S := S132x256) hz,
    View.ld_unit_zero (S := S1x256) hz]

/-- At the first point the sum-of-squares block is set to zero and read back before the column sums are added. -/
theorem out_A_6 (c : Dev nD) (i : grid0.Coords) (a1 : Memref sig .tc .vmem S1024x116 .f32) (h1 : a1.IsWhole)
    (a2 : Memref sig .tc .vmem S1024x16 .f32) (h2 : a2.IsWhole) (a3 : Memref sig .tc .vmem S132x256 .f32) (h3 : a3.IsWhole)
    (a4 : Memref sig .tc .vmem S1x256 .f32) (h4 : a4.IsWhole) (a5 : Memref sig .tc .vmem S1024x256 .f32) (h5 : a5.IsWhole)
    (a6 : Memref sig .tc .vmem S1x256 .f32) (h6 : a6.IsWhole) (a7 : Memref sig .tc .vmem S1x256 .f32) (h7 : a7.IsWhole)
    (hc : cond0_0 i) (x0 : Vec F S1024x116 .f32) (x1 : Vec F S1024x16 .f32) (x2 : Vec F S132x256 .f32)
    (x3 : Vec F S1x256 .f32) :
    out0_A_6 c i a1 h1 a2 h2 a3 h3 a4 h4 a5 h5 a6 h6 a7 h7 hc x0 x1 x2 x3 = k0_pay5 x0 x1 x2 x3 (k0_pay3 (F := F)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread,
    View.ld_unit_zero (S := S1024x116) hz, View.ld_unit_zero (S := S1024x16) hz, View.ld_unit_zero (S := S132x256) hz,
    View.ld_unit_zero (S := S1x256) hz]

end Pieces

section AtIdeal

open scoped BigOperators

/-- A column sum of a 1024 × 256 block, laid out as one row, at feature j. -/
theorem colsum_apply (P : FVec Ideal S1024x256 .f32) (j : Fin 256) :
    shapeCast S1x256 (multiReduction (F := Ideal) .add [0] S256 P 0x00000000#32 reduces_S1024x256_S256 (.inl rfl) rfl)
        shapeCasts_S256_S1x256 (ix2 0 j)
      = ∑ p : Fin 1024, P (ix2 p j) := by
  refine (shapeCast_addUnit_apply ![256] _ shapeCasts_S256_S1x256 (ix2 0 j)).trans ?_
  refine (Ideal.multiReduction_add_single P 0x00000000#32 reduces_S1024x256_S256 (.inl rfl) rfl _).trans ?_
  refine Finset.sum_congr rfl fun p _ => congrArg P ?_
  funext a
  match a with
  | ⟨0, _⟩ => rfl
  | ⟨1, _⟩ => rfl

/-- The running column sum after a block: the carried value plus the block's column sum. -/
theorem pay4_apply (x0 : Vec Ideal S1024x116 .f32) (x1 : Vec Ideal S1024x16 .f32) (x2 : Vec Ideal S132x256 .f32)
    (x3 : Vec Ideal S1x256 .f32) (acc : Vec Ideal S1x256 .f32) (j : Fin 256) :
    k0_pay4 (F := Ideal) x0 x1 x2 x3 acc (ix2 0 j)
      = acc (ix2 0 j) + ∑ p : Fin 1024, k0_pay1 (F := Ideal) x0 x1 x2 x3 (ix2 p j) := by
  unfold k0_pay4
  exact congrArg₂ (· + ·) (congrFun (shapeCast_self acc shapeCasts_S1x256_S1x256) (ix2 0 j))
    (colsum_apply (k0_pay1 (F := Ideal) x0 x1 x2 x3) j)

/-- The running column sum of squares after a block. -/
theorem pay5_apply (x0 : Vec Ideal S1024x116 .f32) (x1 : Vec Ideal S1024x16 .f32) (x2 : Vec Ideal S132x256 .f32)
    (x3 : Vec Ideal S1x256 .f32) (acc : Vec Ideal S1x256 .f32) (j : Fin 256) :
    k0_pay5 (F := Ideal) x0 x1 x2 x3 acc (ix2 0 j)
      = acc (ix2 0 j) + ∑ p : Fin 1024, k0_pay1 (F := Ideal) x0 x1 x2 x3 (ix2 p j) * k0_pay1 (F := Ideal) x0 x1 x2 x3 (ix2 p j) := by
  unfold k0_pay5
  exact congrArg₂ (· + ·) (congrFun (shapeCast_self acc shapeCasts_S1x256_S1x256) (ix2 0 j))
    (colsum_apply (mulf (k0_pay1 (F := Ideal) x0 x1 x2 x3) (k0_pay1 (F := Ideal) x0 x1 x2 x3)) j)

/-- The block the first point stores before accumulating is zero everywhere. -/
theorem pay2_apply (i : S1x256.Idx) : k0_pay2 (F := Ideal) i = 0 := Ideal.ofBits_zero_f32
/-- Likewise for the sums of squares. -/
theorem pay3_apply (i : S1x256.Idx) : k0_pay3 (F := Ideal) i = 0 := Ideal.ofBits_zero_f32

end AtIdeal

section Acc

open scoped BigOperators

variable (V : (c : Dev nD) → (b : Ref sig .tc) → Buf (Elt Ideal) ((c : Thread nD τ).loc b))

/-- The four input blocks at a point, at their literal types. -/
abbrev b0 (c : Dev nD) (t : Fin cfg0.N) : Vec Ideal S1024x116 .f32 := iblk0 V c 0 t
abbrev b1 (c : Dev nD) (t : Fin cfg0.N) : Vec Ideal S1024x16 .f32 := iblk0 V c 1 t
abbrev b2 (c : Dev nD) (t : Fin cfg0.N) : Vec Ideal S132x256 .f32 := iblk0 V c 2 t
abbrev b3 (c : Dev nD) (t : Fin cfg0.N) : Vec Ideal S1x256 .f32 := iblk0 V c 3 t

/-- Row r of the encoder's output at feature j; zero past the last row. -/
def hrow (c : Dev nD) (r : ℕ) (j : Fin 256) : EReal :=
  if h : r < 59392 then Region0.hpre V c (ix2 ⟨r, h⟩ j) else 0

/-- Entry (p, j) of the encoder's output on block t is row 1024 t + p of the whole output. -/
theorem pay1_at (c : Dev nD) (t : Fin cfg0.N) (p : Fin 1024) (j : Fin 256) :
    k0_pay1 (F := Ideal) (b0 V c t) (b1 V c t) (b2 V c t) (b3 V c t) (ix2 p j) = hrow V c (1024 * t.val + p.val) j := by
  have hN : t.val < 58 := lt_of_lt_of_eq t.isLt (show cfg0.N = 58 from N_0)
  have hr : 1024 * t.val + p.val < 59392 := by have := p.isLt; omega
  unfold hrow
  rw [dif_pos hr]
  exact Region0.pay1_apply V c t p j hr

/-- A sum over the first 1024 (n + 1) naturals: the first 1024 n, then one more block of 1024. -/
theorem sum_range_block (f : ℕ → EReal) (n : ℕ) :
    ∑ r ∈ Finset.range (1024 * (n + 1)), f r
      = ∑ r ∈ Finset.range (1024 * n), f r + ∑ p : Fin 1024, f (1024 * n + p.val) := by
  rw [show 1024 * (n + 1) = 1024 * n + 1024 by ring, Finset.sum_range_add]
  exact congrArg (_ + ·) (Finset.sum_range fun x => f (1024 * n + x))

/-- At the first point the sum block holds zero plus the first block's column sums. -/
theorem step5_A (c : Dev nD) (t : Fin cfg0.N) (h0 : t.val % 58 = 0) (j : Fin 256) :
    ((outsAt0 V c t.val t.isLt).2.1 (ix2 0 j) : EReal) = 0 + ∑ p : Fin 1024, hrow V c (1024 * t.val + p.val) j := by
  rw [outsAt0_A V c t h0]
  dsimp only
  refine (congrFun (out_A_5 (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) ((hcond0_0 t).mpr h0)
    (b0 V c t) (b1 V c t) (b2 V c t) (b3 V c t)) (ix2 0 j)).trans ?_
  refine (pay4_apply (b0 V c t) (b1 V c t) (b2 V c t) (b3 V c t) (k0_pay2 (F := Ideal)) j).trans ?_
  exact congrArg₂ (· + ·) (pay2_apply _) (Finset.sum_congr rfl fun p _ => pay1_at V c t p j)

/-- Likewise the sum-of-squares block. -/
theorem step6_A (c : Dev nD) (t : Fin cfg0.N) (h0 : t.val % 58 = 0) (j : Fin 256) :
    ((outsAt0 V c t.val t.isLt).2.2 (ix2 0 j) : EReal)
      = 0 + ∑ p : Fin 1024, hrow V c (1024 * t.val + p.val) j * hrow V c (1024 * t.val + p.val) j := by
  rw [outsAt0_A V c t h0]
  dsimp only
  refine (congrFun (out_A_6 (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) ((hcond0_0 t).mpr h0)
    (b0 V c t) (b1 V c t) (b2 V c t) (b3 V c t)) (ix2 0 j)).trans ?_
  refine (pay5_apply (b0 V c t) (b1 V c t) (b2 V c t) (b3 V c t) (k0_pay3 (F := Ideal)) j).trans ?_
  exact congrArg₂ (· + ·) (pay3_apply _)
    (Finset.sum_congr rfl fun p _ => congrArg₂ (· * ·) (pay1_at V c t p j) (pay1_at V c t p j))

/-- At a later point the sum block holds what the point before left plus this block's column sums. -/
theorem step5_B (c : Dev nD) (t : Fin cfg0.N) (h0 : ¬t.val % 58 = 0) (j : Fin 256) :
    ((outsAt0 V c t.val t.isLt).2.1 (ix2 0 j) : EReal)
      = (outsAt0 V c (t.val - 1) (Nat.lt_of_le_of_lt (Nat.sub_le _ _) t.isLt)).2.1 (ix2 0 j)
        + ∑ p : Fin 1024, hrow V c (1024 * t.val + p.val) j := by
  rw [outsAt0_B V c t h0]
  dsimp only
  refine (congrFun (out_B_5 (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (fun h => h0 ((hcond0_0 t).mp h))
    (b0 V c t) (b1 V c t) (b2 V c t) (b3 V c t)
    (outsAt0 V c (t.val - 1) (Nat.lt_of_le_of_lt (Nat.sub_le _ _) t.isLt)).2.1
    (outsAt0 V c (t.val - 1) (Nat.lt_of_le_of_lt (Nat.sub_le _ _) t.isLt)).2.2) (ix2 0 j)).trans ?_
  refine (pay4_apply (b0 V c t) (b1 V c t) (b2 V c t) (b3 V c t)
    (outsAt0 V c (t.val - 1) (Nat.lt_of_le_of_lt (Nat.sub_le _ _) t.isLt)).2.1 j).trans ?_
  exact congrArg (_ + ·) (Finset.sum_congr rfl fun p _ => pay1_at V c t p j)

/-- Likewise the sum-of-squares block. -/
theorem step6_B (c : Dev nD) (t : Fin cfg0.N) (h0 : ¬t.val % 58 = 0) (j : Fin 256) :
    ((outsAt0 V c t.val t.isLt).2.2 (ix2 0 j) : EReal)
      = (outsAt0 V c (t.val - 1) (Nat.lt_of_le_of_lt (Nat.sub_le _ _) t.isLt)).2.2 (ix2 0 j)
        + ∑ p : Fin 1024, hrow V c (1024 * t.val + p.val) j * hrow V c (1024 * t.val + p.val) j := by
  rw [outsAt0_B V c t h0]
  dsimp only
  refine (congrFun (out_B_6 (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (fun h => h0 ((hcond0_0 t).mp h))
    (b0 V c t) (b1 V c t) (b2 V c t) (b3 V c t)
    (outsAt0 V c (t.val - 1) (Nat.lt_of_le_of_lt (Nat.sub_le _ _) t.isLt)).2.1
    (outsAt0 V c (t.val - 1) (Nat.lt_of_le_of_lt (Nat.sub_le _ _) t.isLt)).2.2) (ix2 0 j)).trans ?_
  refine (pay5_apply (b0 V c t) (b1 V c t) (b2 V c t) (b3 V c t)
    (outsAt0 V c (t.val - 1) (Nat.lt_of_le_of_lt (Nat.sub_le _ _) t.isLt)).2.2 j).trans ?_
  exact congrArg (_ + ·)
    (Finset.sum_congr rfl fun p _ => congrArg₂ (· * ·) (pay1_at V c t p j) (pay1_at V c t p j))

/-- After point n the two blocks hold the column sums, and the column sums of squares, of the first 1024 (n + 1) rows. -/
theorem acc_eq (c : Dev nD) : ∀ (n : ℕ) (h : n < cfg0.N) (j : Fin 256),
    ((outsAt0 V c n h).2.1 (ix2 0 j) : EReal) = ∑ r ∈ Finset.range (1024 * (n + 1)), hrow V c r j
    ∧ ((outsAt0 V c n h).2.2 (ix2 0 j) : EReal) = ∑ r ∈ Finset.range (1024 * (n + 1)), hrow V c r j * hrow V c r j
  | 0, h, j => by
    have e5 := step5_A V c ⟨0, h⟩ (Nat.zero_mod 58) j
    have e6 := step6_A V c ⟨0, h⟩ (Nat.zero_mod 58) j
    dsimp only at e5 e6
    rw [sum_range_block, sum_range_block, Nat.mul_zero, Finset.range_zero, Finset.sum_empty, Finset.sum_empty]
    exact ⟨e5, e6⟩
  | n + 1, h, j => by
    have hN : cfg0.N = 58 := N_0
    have hB : ¬(⟨n + 1, h⟩ : Fin cfg0.N).val % 58 = 0 := by dsimp only; omega
    have e5 := step5_B V c ⟨n + 1, h⟩ hB j
    have e6 := step6_B V c ⟨n + 1, h⟩ hB j
    obtain ⟨i5, i6⟩ := acc_eq c n (Nat.lt_of_succ_lt h) j
    rw [sum_range_block (fun r => hrow V c r j) (n + 1), sum_range_block (fun r => hrow V c r j * hrow V c r j) (n + 1), ← i5, ← i6]
    exact ⟨e5, e6⟩

end Acc

section Final

open scoped BigOperators

variable (V : (c : Dev nD) → (b : Ref sig .tc) → Buf (Elt Ideal) ((c : Thread nD τ).loc b))

/-- The last point of the grid. -/
abbrev tLast : Fin cfg0.N := ⟨57, by rw [show cfg0.N = 58 from N_0]; decide⟩

/-- The sum over all 59392 rows, as a sum over the naturals below 59392. -/
theorem sum_hrow (c : Dev nD) (g : EReal → EReal) (j : Fin 256) :
    ∑ r ∈ Finset.range 59392, g (hrow V c r j) = ∑ r : Fin 59392, g (Region0.hpre V c (ix2 r j)) := by
  rw [Finset.sum_range]
  refine Finset.sum_congr rfl fun r _ => ?_
  unfold hrow
  rw [dif_pos r.isLt]

/-- After the last point the first block holds every feature's sum over the nodes. -/
theorem last5 (c : Dev nD) :
    ((outsAt0 V c (tLast).val (tLast).isLt).2.1 : Cert.Spec.Mat 1 256)
      = Cert.Spec.asMat1 (Cert.Spec.sumRow (Region0.hpre V c)) := by
  funext i
  obtain ⟨a, j, rfl⟩ : ∃ (a : Fin 1) (j : Fin 256), i = ix2 a j := ⟨i 0, i 1, eq_ix2 i⟩
  obtain rfl : a = 0 := Subsingleton.elim _ _
  refine ((acc_eq V c 57 (tLast).isLt j).1).trans ?_
  exact sum_hrow V c (fun x => x) j

/-- After the last point the second block holds every feature's sum of squares over the nodes. -/
theorem last6 (c : Dev nD) :
    ((outsAt0 V c (tLast).val (tLast).isLt).2.2 : Cert.Spec.Mat 1 256)
      = Cert.Spec.asMat1 (Cert.Spec.sumSqRow (Region0.hpre V c)) := by
  funext i
  obtain ⟨a, j, rfl⟩ : ∃ (a : Fin 1) (j : Fin 256), i = ix2 a j := ⟨i 0, i 1, eq_ix2 i⟩
  obtain rfl : a = 0 := Subsingleton.elim _ _
  refine ((acc_eq V c 57 (tLast).isLt j).2).trans ?_
  exact sum_hrow V c (fun x => x * x) j

end Final

section WriteBack

variable (V : (c : Dev nD) → (b : Ref sig .tc) → Buf (Elt Ideal) ((c : Thread nD τ).loc b))

/-- The one write-back of window 5, after the last point, writes the sums: its block is the whole one-row array. -/
theorem flushed5_eq (c : Dev nD) (t : Fin cfg0.N) (hf : (cfg0.win 5).flush t = true) :
    (dat0 (F := Ideal) V c).flushed 5 t
      = ((cfg0.win 5).blk t).view.read (Elt Ideal) (Cert.Spec.asMat1 (Cert.Spec.sumRow (Region0.hpre V c))) := by
  have hN : cfg0.N = 58 := N_0
  have h57 : t.val = 57 := by have := (flush0_5 t).mp hf; have := t.isLt; omega
  obtain rfl : t = tLast := Fin.ext h57
  show (cfg0.win 5).cut (grid0.coords tLast) ((dat0 (F := Ideal) V c).after 5 tLast) = _
  rw [after0_5, last5]
  have hz' : (fun a => win0_5.index tLast a * main_v5_1.ty.shape.size a) = fun _ => 0 :=
    funext fun a => by fin_cases a <;> decide
  exact (Memref.read_access_unit_zero (Elt Ideal) main_v5_1 hz' (fun a => by rw [congrFun hz' a]; simp) _).symm

/-- After the launch the second output array holds every feature's sum over the nodes. -/
theorem arrAt_5 (c : Dev nD) :
    (dat0 (F := Ideal) V c).arrAt 5 cfg0.N = Cert.Spec.asMat1 (Cert.Spec.sumRow (Region0.hpre V c)) :=
  (dat0 (F := Ideal) V c).arrAt_eq_of_cover 5 _ (flushed5_eq V c) fun i =>
    ⟨tLast, (flush0_5 tLast).mpr rfl, by
      show i ∈ ((View.whole main_v5_1).slice (win0_5.rect tLast)).set
      rw [View.set_slice_whole, Rect.mem_set_unit]
      intro a
      have h0 : (i 0 : Nat) < 1 := (i 0).isLt
      have h1 : (i 1 : Nat) < 256 := (i 1).isLt
      match a with
      | ⟨0, _⟩ =>
        show win0_5.index tLast 0 * win0_5.size 0 ≤ (i 0 : Nat)
          ∧ (i 0 : Nat) < win0_5.index tLast 0 * win0_5.size 0 + win0_5.xsize (grid0.coords tLast) 0
        rw [show win0_5.index tLast 0 * win0_5.size 0 = 0 from by decide +kernel,
          show win0_5.xsize (grid0.coords tLast) 0 = 1 from by decide +kernel]
        omega
      | ⟨1, _⟩ =>
        show win0_5.index tLast 1 * win0_5.size 1 ≤ (i 1 : Nat)
          ∧ (i 1 : Nat) < win0_5.index tLast 1 * win0_5.size 1 + win0_5.xsize (grid0.coords tLast) 1
        rw [show win0_5.index tLast 1 * win0_5.size 1 = 0 from by decide +kernel,
          show win0_5.xsize (grid0.coords tLast) 1 = 256 from by decide +kernel]
        omega⟩

/-- The one write-back of window 6, after the last point, writes the sums of squares: its block is the whole one-row array. -/
theorem flushed6_eq (c : Dev nD) (t : Fin cfg0.N) (hf : (cfg0.win 6).flush t = true) :
    (dat0 (F := Ideal) V c).flushed 6 t
      = ((cfg0.win 6).blk t).view.read (Elt Ideal) (Cert.Spec.asMat1 (Cert.Spec.sumSqRow (Region0.hpre V c))) := by
  have hN : cfg0.N = 58 := N_0
  have h57 : t.val = 57 := by have := (flush0_6 t).mp hf; have := t.isLt; omega
  obtain rfl : t = tLast := Fin.ext h57
  show (cfg0.win 6).cut (grid0.coords tLast) ((dat0 (F := Ideal) V c).after 6 tLast) = _
  rw [after0_6, last6]
  have hz' : (fun a => win0_6.index tLast a * main_v5_2.ty.shape.size a) = fun _ => 0 :=
    funext fun a => by fin_cases a <;> decide
  exact (Memref.read_access_unit_zero (Elt Ideal) main_v5_2 hz' (fun a => by rw [congrFun hz' a]; simp) _).symm

/-- After the launch the third output array holds every feature's sum of squares over the nodes. -/
theorem arrAt_6 (c : Dev nD) :
    (dat0 (F := Ideal) V c).arrAt 6 cfg0.N = Cert.Spec.asMat1 (Cert.Spec.sumSqRow (Region0.hpre V c)) :=
  (dat0 (F := Ideal) V c).arrAt_eq_of_cover 6 _ (flushed6_eq V c) fun i =>
    ⟨tLast, (flush0_6 tLast).mpr rfl, by
      show i ∈ ((View.whole main_v5_2).slice (win0_6.rect tLast)).set
      rw [View.set_slice_whole, Rect.mem_set_unit]
      intro a
      have h0 : (i 0 : Nat) < 1 := (i 0).isLt
      have h1 : (i 1 : Nat) < 256 := (i 1).isLt
      match a with
      | ⟨0, _⟩ =>
        show win0_6.index tLast 0 * win0_6.size 0 ≤ (i 0 : Nat)
          ∧ (i 0 : Nat) < win0_6.index tLast 0 * win0_6.size 0 + win0_6.xsize (grid0.coords tLast) 0
        rw [show win0_6.index tLast 0 * win0_6.size 0 = 0 from by decide +kernel,
          show win0_6.xsize (grid0.coords tLast) 0 = 1 from by decide +kernel]
        omega
      | ⟨1, _⟩ =>
        show win0_6.index tLast 1 * win0_6.size 1 ≤ (i 1 : Nat)
          ∧ (i 1 : Nat) < win0_6.index tLast 1 * win0_6.size 1 + win0_6.xsize (grid0.coords tLast) 1
        rw [show win0_6.index tLast 1 * win0_6.size 1 = 0 from by decide +kernel,
          show win0_6.xsize (grid0.coords tLast) 1 = 256 from by decide +kernel]
        omega⟩

end WriteBack

end Cert.KernelIdeal.Region0Acc

end
-- ==== Proof.Region1.lean ====
/-
  The second launch: batch normalisation applied with a precomputed scale and shift.

  Each of the 58 grid points takes a block of 1024 node rows of the 59392 × 256 feature array, multiplies every
  entry by its feature's scale, adds its feature's shift, and writes the block to the same rows of the output
  array; the scale row and the shift row (1 × 256 each) are the same at every point. The blocks tile the array,
  so afterwards the output array is the affine map of the specification, entry by entry:
  `out[r, j] = h[r, j] * scale[j] + shift[j]`.
-/
import proofs.«425756_j88742614270020_1_alg».proof.Proof.Gen.KernelIdeal.Frame
import proofs.«425756_j88742614270020_1_alg».proof.Proof.Spec
import Idealize.ShloMosaic.Lib.Pipeline.Value
import Idealize.ShloMosaic.Lib.ValueLayout

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## What the body stores, entry by entry -/

/-- The zero offsets of an access to a whole buffer, as a constant function. -/
theorem zero_offsets : (![0, 0] : Fin 2 → Nat) = fun _ => 0 := funext fun a => by fin_cases a <;> rfl

/-- One entry of the stored block: the node block's entry times the feature's scale, plus the feature's shift. -/
theorem stored_apply (x : FVec Ideal S1024x256 .f32) (s b : FVec Ideal S1x256 .f32) (p : Fin 1024) (q : Fin 256) :
    k1_pay1 (F := Ideal) x s b (ix2 p q) = x (ix2 p q) * s (ix2 0 q) + b (ix2 0 q) := by
  unfold k1_pay1
  show shapeCast S1024x256 x shapeCasts_S1024x256_S1024x256 (ix2 p q)
      * broadcastTo S1024x256 (shapeCast S1x256 s shapeCasts_S1x256_S1x256) broadcasts_S1x256_S1024x256 (ix2 p q)
      + broadcastTo S1024x256 (shapeCast S1x256 b shapeCasts_S1x256_S1x256) broadcasts_S1x256_S1024x256 (ix2 p q) = _
  rw [shapeCast_self, shapeCast_self, shapeCast_self, broadcastTo_1b_ab_apply, broadcastTo_1b_ab_apply]

/-! ## Where the blocks sit -/

/-- The node blocks of the input and of the output advance one block of 1024 rows per grid point; the scale and shift rows stay. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The input blocks, read off their arrays -/

/-- An entry of the node block at a point is the entry of the node array 1024 rows per point further down. -/
theorem node_block_apply (c : Dev nD) (t : Fin cfg1.N) (y : S1024x256.Idx) (i : S59392x256.Idx)
    (h0 : (i 0).val = 1024 * t.val + (y 0).val) (h1 : (i 1).val = (y 1).val) :
    (iblk1 V c 0 t : FVec Ideal S1024x256 .f32) y = (V c (Pipeline.arrRef spec1 0) : S59392x256.Idx → Ideal .f32) i := by
  obtain ⟨e0, e1, -⟩ := block_index t
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 1024 + 1 * (y 0).val = (i 0).val; rw [e0, h0]; omega
  | ⟨1, _⟩ => show win1_0.index t (1 : Fin 2) * 256 + 1 * (y 1).val = (i 1).val; rw [e1, h1]; omega

/-- The scale row's block at every point is the scale row. -/
theorem scale_block_apply (c : Dev nD) (t : Fin cfg1.N) (q : Fin 256) :
    (iblk1 V c 1 t : FVec Ideal S1x256 .f32) (ix2 0 q) = (V c (Pipeline.arrRef spec1 1) : S1x256.Idx → Ideal .f32) (ix2 0 q) := by
  obtain ⟨-, -, e0, e1, -⟩ := block_index t
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 1 + 1 * 0 = 0; rw [e0]
  | ⟨1, _⟩ => show win1_1.index t (1 : Fin 2) * 256 + 1 * q.val = q.val; rw [e1]; omega

/-- The shift row's block at every point is the shift row. -/
theorem shift_block_apply (c : Dev nD) (t : Fin cfg1.N) (q : Fin 256) :
    (iblk1 V c 2 t : FVec Ideal S1x256 .f32) (ix2 0 q) = (V c (Pipeline.arrRef spec1 2) : S1x256.Idx → Ideal .f32) (ix2 0 q) := by
  obtain ⟨-, -, -, -, e0, e1, -⟩ := block_index t
  unfold iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 1 + 1 * 0 = 0; rw [e0]
  | ⟨1, _⟩ => show win1_2.index t (1 : Fin 2) * 256 + 1 * q.val = q.val; rw [e1]; omega

/-! ## What a point writes back -/

/-- The affine map at an entry whose column is `q`. -/
theorem affine_at (H : Cert.Spec.Mat 59392 256) (A B : Cert.Spec.Mat 1 256) (i : S59392x256.Idx) (q : Fin 256)
    (hq : (i 1).val = q.val) :
    Cert.Spec.affine H (Cert.Spec.row1 A) (Cert.Spec.row1 B) i = H i * A (ix2 0 q) + B (ix2 0 q) := by
  have e : i 1 = q := Fin.ext hq
  show H i * A (ix2 0 (i 1)) + B (ix2 0 (i 1)) = _
  rw [e]

/-- What a point writes back is its block of the affine map of the three arrays the launch reads. -/
theorem written_back (c : Dev nD) (t : Fin cfg1.N) :
    (dat1 (F := Ideal) V c).flushed 3 t
      = ((cfg1.win 3).blk t).view.read (Elt Ideal)
          (Cert.Spec.affine (V c (Pipeline.arrRef spec1 0)) (Cert.Spec.row1 (V c (Pipeline.arrRef spec1 1)))
            (Cert.Spec.row1 (V c (Pipeline.arrRef spec1 2)))) := by
  show (cfg1.win 3).cut (grid1.coords t) ((dat1 V c).after 3 t) = _
  rw [after1_3]
  unfold out1_3
  rw [View.canon_unit_zero zero_offsets]
  simp only [View.ld_unit_zero (S := S1024x256) zero_offsets, View.ld_unit_zero (S := S1x256) zero_offsets]
  obtain ⟨-, -, -, -, -, -, e0, e1⟩ := block_index t
  funext j
  have hj0 : (j 0).val < 1024 := (j 0).isLt
  have hj1 : (j 1).val < 256 := (j 1).isLt
  have hI0 : ((((cfg1.win 3).blk t).view.emb j) 0).val = 1024 * t.val + (j 0).val := by
    show win1_3.index t (0 : Fin 2) * 1024 + 1 * (j 0).val = _
    rw [e0]; omega
  have hI1 : ((((cfg1.win 3).blk t).view.emb j) 1).val = (j 1).val := by
    show win1_3.index t (1 : Fin 2) * 256 + 1 * (j 1).val = _
    rw [e1]; omega
  refine (congrArg (k1_pay1 (F := Ideal) (iblk1 V c 0 t) (iblk1 V c 1 t) (iblk1 V c 2 t))
    (eq_ix2 (n0 := 1024) (n1 := 256) ((win1 3).xinj (grid1.coords t) j))).trans ?_
  refine (stored_apply (iblk1 V c 0 t) (iblk1 V c 1 t) (iblk1 V c 2 t) _ _).trans ?_
  refine Eq.trans ?_ (affine_at (V c (Pipeline.arrRef spec1 0)) (V c (Pipeline.arrRef spec1 1)) (V c (Pipeline.arrRef spec1 2))
    (((cfg1.win 3).blk t).view.emb j) ⟨(j 1).val, hj1⟩ hI1).symm
  exact congrArg₂ (· + ·) (congrArg₂ (· * ·) (node_block_apply V c t _ _ hI0 hI1) (scale_block_apply V c t _))
    (shift_block_apply V c t _)

/-! ## The blocks tile the array -/

/-- An entry lies in the block a point writes iff its row and column lie in the block's ranges. -/
theorem mem_block (t : Fin cfg1.N) (i : S59392x256.Idx) :
    i ∈ ((cfg1.win 3).blk t).view.set
      ↔ ∀ a : Fin 2, win1_3.index t a * S1024x256.size a ≤ (i a).val
          ∧ (i a).val < win1_3.index t a * S1024x256.size a + S1024x256.size a := by
  show i ∈ ((View.whole main_v20).slice (win1_3.rect t)).set ↔ _
  rw [View.set_slice_whole, Rect.mem_set_unit]
  exact Iff.rfl

/-- Every entry of the array lies in the block of the point its row selects, and every point writes back. -/
theorem covered (i : S59392x256.Idx) :
    ∃ t : Fin cfg1.N, (cfg1.win 3).flush t = true ∧ i ∈ ((cfg1.win 3).blk t).view.set := by
  have hN : cfg1.N = 58 := N_1
  have hi0 : (i 0).val < 59392 := (i 0).isLt
  have hi1 : (i 1).val < 256 := (i 1).isLt
  obtain ⟨t, ht⟩ : ∃ t : Fin cfg1.N, t.val = (i 0).val / 1024 := ⟨⟨(i 0).val / 1024, by rw [hN]; omega⟩, rfl⟩
  obtain ⟨-, -, -, -, -, -, e0, e1⟩ := block_index t
  refine ⟨t, flush1_3 t, ?_⟩
  rw [mem_block]
  intro a
  match a with
  | ⟨0, _⟩ =>
    show win1_3.index t (0 : Fin 2) * 1024 ≤ (i 0).val ∧ (i 0).val < win1_3.index t (0 : Fin 2) * 1024 + 1024
    rw [e0, ht]; omega
  | ⟨1, _⟩ =>
    show win1_3.index t (1 : Fin 2) * 256 ≤ (i 1).val ∧ (i 1).val < win1_3.index t (1 : Fin 2) * 256 + 256
    rw [e1]; omega

/-! ## The array after the launch -/

/-- After the second launch the output array is the first input scaled and shifted, feature by feature. -/
theorem arrAt_3 (c : Dev nD) :
    (dat1 (F := Ideal) V c).arrAt 3 cfg1.N
      = Cert.Spec.affine (V c (Pipeline.arrRef spec1 0)) (Cert.Spec.row1 (V c (Pipeline.arrRef spec1 1)))
          (Cert.Spec.row1 (V c (Pipeline.arrRef spec1 2))) :=
  (dat1 (F := Ideal) V c).arrAt_eq_of_cover 3 _ (fun t _ => written_back V c t) covered

end Cert.KernelIdeal.Region1

end
-- ==== Proof.Region2.lean ====
/-
  The third launch: the edge messages.

  The launch walks the 950272 edges in 232 blocks of 4096. At each block it adds, to the block of gathered source rows,
  the block of edge attributes times the 5 × 256 matrix plus the bias row, and clips below at zero. Over the extended
  reals the product is the plain sum over the five attributes, so entry (p, j) of what a point stores is
  `max (src + (Σ k, attr k · W k j + b j)) 0` at row 4096 t + p. The blocks of the 232 points tile the output array,
  each is written back, and so the array ends holding the messages of all the edges (`Cert.Spec.msgRight`).
-/
import proofs.«425756_j88742614270020_1_alg».proof.Proof.Gen.KernelIdeal.Frame
import proofs.«425756_j88742614270020_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

/-! ## The product of a 4096 × 5 block with the 5 × 256 matrix, entry by entry

Which coordinates of the two factors an output entry (row, column) and a summation index name: the left factor at
(row, summation index), the right factor at (summation index, column). -/

theorem lhs_dotE_0 (i : S4096x256.Idx) (q : dot_S4096x5_S5x256_S4096x256_1_0_0_1_n_n.contr.Idx) :
    (dot_S4096x5_S5x256_S4096x256_1_0_0_1_n_n.lhsIdx i q 0).val = (i 0).val := by
  unfold DotDims.lhsIdx
  rw [dif_neg (show ¬(0 : Fin S4096x5.rank) ∈ dot_S4096x5_S5x256_S4096x256_1_0_0_1_n_n.lhsBatch by decide), dif_pos (show (0 : Fin S4096x5.rank) ∈ dot_S4096x5_S5x256_S4096x256_1_0_0_1_n_n.lhsNonContracting by decide)]
  rfl
theorem lhs_dotE_1 (i : S4096x256.Idx) (q : dot_S4096x5_S5x256_S4096x256_1_0_0_1_n_n.contr.Idx) :
    (dot_S4096x5_S5x256_S4096x256_1_0_0_1_n_n.lhsIdx i q 1).val = (q ⟨0, by decide⟩).val :=
  dot_S4096x5_S5x256_S4096x256_1_0_0_1_n_n.lhsIdx_val_of_single rfl i q
theorem rhs_dotE_0 (i : S4096x256.Idx) (q : dot_S4096x5_S5x256_S4096x256_1_0_0_1_n_n.contr.Idx) :
    (dot_S4096x5_S5x256_S4096x256_1_0_0_1_n_n.rhsIdx i q 0).val = (q ⟨0, by decide⟩).val :=
  dot_S4096x5_S5x256_S4096x256_1_0_0_1_n_n.rhsIdx_val_of_single rfl i q
theorem rhs_dotE_1 (i : S4096x256.Idx) (q : dot_S4096x5_S5x256_S4096x256_1_0_0_1_n_n.contr.Idx) :
    (dot_S4096x5_S5x256_S4096x256_1_0_0_1_n_n.rhsIdx i q 1).val = (i 1).val := by
  unfold DotDims.rhsIdx
  rw [dif_neg (show ¬(1 : Fin S5x256.rank) ∈ dot_S4096x5_S5x256_S4096x256_1_0_0_1_n_n.rhsBatch by decide), dif_pos (show (1 : Fin S5x256.rank) ∈ dot_S4096x5_S5x256_S4096x256_1_0_0_1_n_n.rhsNonContracting by decide)]
  rfl

/-- The block's product into the zero accumulator, entry (p, j): the sum over the five attributes. -/
theorem matmul_at (a : FVec Ideal S4096x5 .bf16) (b : FVec Ideal S5x256 .bf16) (p : Fin 4096) (j : Fin 256) :
    matmul dot_S4096x5_S5x256_S4096x256_1_0_0_1_n_n none a b (constant (F := Ideal) S4096x256 .f32 0x00000000#32) (ix2 p j)
      = ∑ k : Fin 5, a (ix2 p k) * b (ix2 k j) := by
  simp only [matmul]
  rw [Ideal.matmul_constant_zero_apply, ← Equiv.sum_comp (ValueIdx.contrEquiv1 dot_S4096x5_S5x256_S4096x256_1_0_0_1_n_n 5 rfl rfl).symm]
  refine Finset.sum_congr rfl fun k _ => ?_
  have hk := ValueIdx.contrEquiv1_symm_val dot_S4096x5_S5x256_S4096x256_1_0_0_1_n_n 5 rfl rfl k
  have el : dot_S4096x5_S5x256_S4096x256_1_0_0_1_n_n.lhsIdx (ix2 p j) ((ValueIdx.contrEquiv1 dot_S4096x5_S5x256_S4096x256_1_0_0_1_n_n 5 rfl rfl).symm k) = ix2 p k := funext fun a => Fin.ext (by
    match a with
    | ⟨0, _⟩ => exact lhs_dotE_0 _ _
    | ⟨1, _⟩ => exact (lhs_dotE_1 _ _).trans hk)
  have er : dot_S4096x5_S5x256_S4096x256_1_0_0_1_n_n.rhsIdx (ix2 p j) ((ValueIdx.contrEquiv1 dot_S4096x5_S5x256_S4096x256_1_0_0_1_n_n 5 rfl rfl).symm k) = ix2 k j := funext fun a => Fin.ext (by
    match a with
    | ⟨0, _⟩ => exact (rhs_dotE_0 _ _).trans hk
    | ⟨1, _⟩ => exact rhs_dotE_1 _ _)
  rw [el, er]

/-- A one-row block spread over 4096 rows reads its row's entry in every row. -/
theorem bcast_row_at (v : FVec Ideal S1x256 .f32) (p : Fin 4096) (j : Fin 256) :
    broadcastTo S4096x256 v broadcasts_S1x256_S4096x256 (ix2 p j) = v (ix2 0 j) := by
  refine broadcastTo_apply v broadcasts_S1x256_S4096x256 (ix2 p j) (ix2 0 j) fun a => ?_
  match a with
  | ⟨0, _⟩ => rfl
  | ⟨1, _⟩ => rfl

/-- The body's stored value at entry (p, j) of the point's block: the source row's entry plus the five attributes' linear
    image plus the bias, clipped below at zero. -/
theorem pay1_at (v0 : Vec Ideal S4096x5 .f32) (v2 : Vec Ideal S5x256 .f32) (v5 : Vec Ideal S1x256 .f32) (v9 : Vec Ideal S4096x256 .f32)
    (p : Fin 4096) (j : Fin 256) :
    k2_pay1 v0 v2 v5 v9 (ix2 p j)
      = max (v9 (ix2 p j) + ((∑ k : Fin 5, v0 (ix2 p k) * v2 (ix2 k j)) + v5 (ix2 0 j))) 0 := by
  unfold k2_pay1
  simp only [shapeCast_self]
  rw [maximumf_apply, addf_apply, addf_apply, matmul_at, bcast_row_at]
  simp only [truncf_apply, broadcast_apply]
  rw [show (Scalar.ofBits (F := Ideal) .f32 0x00000000#32 : EReal) = 0 from Ideal.ofBits_zero_f32]

/-! ## From the blocks to the array -/

variable (V : (c : Dev nD) → (b : Ref sig .tc) → Buf (Elt Ideal) ((c : Thread nD τ).loc b))

/-- The four arrays the launch reads, as it finds them: the gathered source rows, the edge attributes, the 5 × 256 matrix
    and the bias laid out as one row. -/
abbrev srcRows (c : Dev nD) : Cert.Spec.Mat 950272 256 := V c (Pipeline.arrRef spec2 0)
abbrev attrs (c : Dev nD) : Cert.Spec.Mat 950272 5 := V c (Pipeline.arrRef spec2 1)
abbrev wEdge (c : Dev nD) : Cert.Spec.Mat 5 256 := V c (Pipeline.arrRef spec2 2)
abbrev bEdge (c : Dev nD) : Cert.Spec.Mat 1 256 := V c (Pipeline.arrRef spec2 3)

/-- The messages of all the edges, from those four arrays. -/
abbrev msgs (c : Dev nD) : Cert.Spec.Mat 950272 256 :=
  Cert.Spec.msgRight (srcRows V c) (attrs V c) (wEdge V c) (Cert.Spec.row1 (bEdge V c))

theorem zero_offsets : (![0, 0] : Fin 2 → Nat) = fun _ => 0 := funext fun a => by fin_cases a <;> rfl

/-- Where each window's block sits at point t: the source rows, the attributes and the output at block row t, the
    matrix and the bias at their one block. -/
theorem block_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry (p, j) of the source rows' block at point t is entry (4096 t + p, j) of the array. -/
theorem srcRows_blk (c : Dev nD) (t : Fin cfg2.N) (p : Fin 4096) (j : Fin 256) (r : Fin 950272)
    (hr : r.val = 4096 * t.val + p.val) :
    (iblk2 V c 0 t : Vec Ideal S4096x256 .f32) (ix2 p j) = srcRows V c (ix2 r j) := by
  obtain ⟨e0, e1, -⟩ := block_rows t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 4096 + 1 * p.val = r.val; rw [e0, hr]; omega
  | ⟨1, _⟩ => show win2_0.index t (1 : Fin 2) * 256 + 1 * j.val = j.val; rw [e1]; omega

/-- Entry (p, k) of the attributes' block at point t is entry (4096 t + p, k) of the array. -/
theorem attrs_blk (c : Dev nD) (t : Fin cfg2.N) (p : Fin 4096) (k : Fin 5) (r : Fin 950272)
    (hr : r.val = 4096 * t.val + p.val) :
    (iblk2 V c 1 t : Vec Ideal S4096x5 .f32) (ix2 p k) = attrs V c (ix2 r k) := by
  obtain ⟨-, -, e0, e1, -⟩ := block_rows t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 4096 + 1 * p.val = r.val; rw [e0, hr]; omega
  | ⟨1, _⟩ => show win2_1.index t (1 : Fin 2) * 5 + 1 * k.val = k.val; rw [e1]; omega

/-- The matrix's block at every point is the matrix. -/
theorem wEdge_blk (c : Dev nD) (t : Fin cfg2.N) (k : Fin 5) (j : Fin 256) :
    (iblk2 V c 2 t : Vec Ideal S5x256 .f32) (ix2 k j) = wEdge V c (ix2 k j) := by
  obtain ⟨-, -, -, -, e0, e1, -⟩ := block_rows t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 5 + 1 * k.val = k.val; rw [e0]; omega
  | ⟨1, _⟩ => show win2_2.index t (1 : Fin 2) * 256 + 1 * j.val = j.val; rw [e1]; omega

/-- The bias row's block at every point is the bias row. -/
theorem bEdge_blk (c : Dev nD) (t : Fin cfg2.N) (j : Fin 256) :
    (iblk2 V c 3 t : Vec Ideal S1x256 .f32) (ix2 0 j) = bEdge V c (ix2 0 j) := by
  obtain ⟨-, -, -, -, -, -, e0, e1, -⟩ := block_rows t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * (0 : Fin 1).val = (0 : Fin 1).val; rw [e0]; rfl
  | ⟨1, _⟩ => show win2_3.index t (1 : Fin 2) * 256 + 1 * j.val = j.val; rw [e1]; omega

/-- What point t writes back is block t of the messages. -/
theorem flushed_eq (c : Dev nD) (t : Fin cfg2.N) :
    (dat2 (F := Ideal) V c).flushed 4 t = ((cfg2.win 4).blk t).view.read (Elt Ideal) (msgs V c) := by
  show (cfg2.win 4).cut (grid2.coords t) ((dat2 V c).after 4 t) = _
  rw [after2_4]
  unfold out2_4
  rw [View.canon_unit_zero zero_offsets]
  simp only [View.ld_unit_zero (S := S4096x5) zero_offsets, View.ld_unit_zero (S := S5x256) zero_offsets,
    View.ld_unit_zero (S := S1x256) zero_offsets, View.ld_unit_zero (S := S4096x256) zero_offsets]
  funext y
  obtain ⟨-, -, -, -, -, -, -, -, e0, e1⟩ := block_rows t
  have hp : (y 0).val < 4096 := (y 0).isLt
  have hj : (y 1).val < 256 := (y 1).isLt
  have ht : t.val < 232 := Nat.lt_of_lt_of_eq t.isLt N_2
  have hr : 4096 * t.val + (y 0).val < 950272 := by omega
  show k2_pay1 (iblk2 V c 1 t) (iblk2 V c 2 t) (iblk2 V c 3 t) (iblk2 V c 0 t) ((win2 4).xinj (grid2.coords t) y)
    = msgs V c (((cfg2.win 4).blk t).view.emb y)
  have hy : (win2 4).xinj (grid2.coords t) y = ix2 ⟨(y 0).val, hp⟩ ⟨(y 1).val, hj⟩ :=
    funext fun a => match a with | ⟨0, _⟩ => rfl | ⟨1, _⟩ => rfl
  have hi : ((cfg2.win 4).blk t).view.emb y = ix2 ⟨4096 * t.val + (y 0).val, hr⟩ ⟨(y 1).val, hj⟩ := by
    funext a
    apply Fin.ext
    match a with
    | ⟨0, _⟩ => show win2_4.index t (0 : Fin 2) * 4096 + 1 * (y 0).val = 4096 * t.val + (y 0).val; rw [e0]; omega
    | ⟨1, _⟩ => show win2_4.index t (1 : Fin 2) * 256 + 1 * (y 1).val = (y 1).val; rw [e1]; omega
  rw [hy, hi]
  refine (pay1_at (iblk2 V c 1 t) (iblk2 V c 2 t) (iblk2 V c 3 t) (iblk2 V c 0 t) _ _).trans ?_
  rw [srcRows_blk V c t ⟨(y 0).val, hp⟩ ⟨(y 1).val, hj⟩ ⟨4096 * t.val + (y 0).val, hr⟩ rfl,
    bEdge_blk V c t ⟨(y 1).val, hj⟩]
  simp only [attrs_blk V c t ⟨(y 0).val, hp⟩ _ ⟨4096 * t.val + (y 0).val, hr⟩ rfl, wEdge_blk V c t _ ⟨(y 1).val, hj⟩]
  rfl

/-- An index of the output array is in point t's block when each coordinate is in the block's range on its axis. -/
theorem mem_blk (t : Fin cfg2.N) (i : S950272x256.Idx) :
    i ∈ ((cfg2.win 4).blk t).view.set ↔ ∀ a : Fin 2, win2_4.index t a * S4096x256.size a ≤ (i a).val
      ∧ (i a).val < win2_4.index t a * S4096x256.size a + S4096x256.size a := by
  show i ∈ ((View.whole main_v26).slice (win2_4.rect t)).set ↔ _
  rw [View.set_slice_whole, Rect.mem_set_unit]
  exact Iff.rfl

/-- Every row r of the output array lies in the block of point r / 4096, which is written back. -/
theorem covered (i : S950272x256.Idx) :
    ∃ t : Fin cfg2.N, (cfg2.win 4).flush t = true ∧ i ∈ ((cfg2.win 4).blk t).view.set := by
  have hi0 : (i 0).val < 950272 := (i 0).isLt
  have hi1 : (i 1).val < 256 := (i 1).isLt
  obtain ⟨t, ht⟩ : ∃ t : Fin cfg2.N, t.val = (i 0).val / 4096 :=
    ⟨⟨(i 0).val / 4096, Nat.lt_of_lt_of_eq (show (i 0).val / 4096 < 232 by omega) N_2.symm⟩, rfl⟩
  obtain ⟨-, -, -, -, -, -, -, -, e0, e1⟩ := block_rows t
  refine ⟨t, flush2_4 t, ?_⟩
  rw [mem_blk]
  intro a
  match a with
  | ⟨0, _⟩ =>
    show win2_4.index t (0 : Fin 2) * 4096 ≤ (i 0).val ∧ (i 0).val < win2_4.index t (0 : Fin 2) * 4096 + 4096
    rw [e0, ht]; omega
  | ⟨1, _⟩ =>
    show win2_4.index t (1 : Fin 2) * 256 ≤ (i 1).val ∧ (i 1).val < win2_4.index t (1 : Fin 2) * 256 + 256
    rw [e1]; omega

/-- After the third launch the output array holds the messages of all the edges. -/
theorem arrAt_4 (c : Dev nD) :
    (dat2 (F := Ideal) V c).arrAt 4 cfg2.N
      = Cert.Spec.msgRight (V c (Pipeline.arrRef spec2 0)) (V c (Pipeline.arrRef spec2 1)) (V c (Pipeline.arrRef spec2 2))
          (Cert.Spec.row1 (V c (Pipeline.arrRef spec2 3))) :=
  (dat2 (F := Ideal) V c).arrAt_eq_of_cover 4 (msgs V c) (fun t _ => flushed_eq V c t) covered

end Cert.KernelIdeal.Region2

end
-- ==== Proof.Region3.lean ====
/-
  The fourth launch, the node update, read off its frame. The block a grid point stores is two linear layers, each
  clipped at zero, applied to the sum of the point's 1024 rows of the normalised features and of the aggregated
  messages: a contraction over 256 positions, a bias row, a maximum with zero, twice. The 58 blocks of 1024 rows tile
  the 59392 nodes, so after the launch the result array is the specification's node update of the launch's six input
  arrays.
-/
import proofs.«425756_j88742614270020_1_alg».proof.Proof.Gen.KernelIdeal.Frame
import proofs.«425756_j88742614270020_1_alg».proof.Proof.Spec
import Idealize.ShloMosaic.Lib.Pipeline.Value

set_option maxRecDepth 16384

noncomputable section

open scoped BigOperators

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The contraction of a 1024 × 256 block with a 256 × 256 matrix, at an index -/

theorem lhs_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
theorem lhs_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- Entry (p, j) of the product accumulated from zero: the sum over the 256 inner positions. -/
theorem matmul_at (a : FVec Ideal S1024x256 .bf16) (b : FVec Ideal S256x256 .bf16) (p : Fin 1024) (j : Fin 256) :
    matmul dot_S1024x256_S256x256_S1024x256_1_0_0_1_n_n none a b (constant (F := Ideal) S1024x256 .f32 0x00000000#32) (ix2 p j)
      = ∑ k : Fin 256, a (ix2 p k) * b (ix2 k j) := by
  simp only [matmul]
  rw [Ideal.matmul_constant_zero_apply,
    ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p j)
      ((contrEquiv1 dot_S1024x256_S256x256_S1024x256_1_0_0_1_n_n 256 rfl rfl).symm k) = ix2 p k :=
    funext fun a => Fin.ext (by
      match a with
      | ⟨0, _⟩ => exact lhs_0 _ _
      | ⟨1, _⟩ => exact (lhs_1 _ _).trans hk)
  have er : dot_S1024x256_S256x256_S1024x256_1_0_0_1_n_n.rhsIdx (ix2 p j)
      ((contrEquiv1 dot_S1024x256_S256x256_S1024x256_1_0_0_1_n_n 256 rfl rfl).symm k) = ix2 k j :=
    funext fun a => Fin.ext (by
      match a with
      | ⟨0, _⟩ => exact (rhs_0 _ _).trans hk
      | ⟨1, _⟩ => exact rhs_1 _ _)
  rw [el, er]

/-- A one-row block laid over 1024 rows, at (p, j): the row's entry j. -/
theorem bias_at (v : Vec Ideal S1x256 .f32) (p : Fin 1024) (j : Fin 256) :
    broadcastTo S1024x256 (shapeCast S1x256 v shapeCasts_S1x256_S1x256) broadcasts_S1x256_S1024x256 (ix2 p j) = v (ix2 0 j) := by
  rw [shapeCast_self]
  refine broadcastTo_apply v broadcasts_S1x256_S1024x256 (ix2 p j) (ix2 0 j) fun a => ?_
  match a with
  | ⟨0, _⟩ => rfl
  | ⟨1, _⟩ => rfl

/-- One layer of the update on a block: product, bias row, clip at zero. -/
def layer (z : FVec Ideal S1024x256 .f32) (w : Vec Ideal S256x256 .f32) (b : Vec Ideal S1x256 .f32) : FVec Ideal S1024x256 .f32 :=
  maximumf (addf (matmul dot_S1024x256_S256x256_S1024x256_1_0_0_1_n_n none (truncf .bf16 z bitsLt_bf16_f32) (truncf .bf16 w bitsLt_bf16_f32)
      (constant (F := Ideal) S1024x256 .f32 0x00000000#32))
    (broadcastTo S1024x256 (shapeCast S1x256 b shapeCasts_S1x256_S1x256) broadcasts_S1x256_S1024x256))
    (broadcast S1024x256 (Scalar.ofBits (F := Ideal) .f32 0x00000000#32))

theorem layer_at (z : FVec Ideal S1024x256 .f32) (w : Vec Ideal S256x256 .f32) (b : Vec Ideal S1x256 .f32) (p : Fin 1024) (j : Fin 256) :
    layer z w b (ix2 p j) = Cert.Spec.relu ((∑ k : Fin 256, z (ix2 p k) * w (ix2 k j)) + b (ix2 0 j)) := by
  unfold layer
  rw [maximumf_apply, addf_apply, matmul_at, bias_at, broadcast_apply]
  unfold Cert.Spec.relu
  congr 1
  exact Ideal.ofBits_zero_f32

/-- The block the body stores is two layers applied to the sum of its first two input blocks. -/
theorem pay1_eq (x0 x1 : Vec Ideal S1024x256 .f32) (w1 : Vec Ideal S256x256 .f32) (b1 : Vec Ideal S1x256 .f32)
    (w2 : Vec Ideal S256x256 .f32) (b2 : Vec Ideal S1x256 .f32) :
    k3_pay1 (F := Ideal) x0 x1 w1 b1 w2 b2 = layer (layer (addf x0 x1) w1 b1) w2 b2 := by
  unfold k3_pay1 layer
  simp only [shapeCast_self]

/-! ## The stored block against the specification, row by row -/

/-- The stored block at (p, j), when row p of the first two input blocks is row r of the two node arrays: the update of
    node r at feature j. -/
theorem pay1_row (h agg : Cert.Spec.Mat 59392 256) (W1 : Cert.Spec.Mat 256 256) (B1 : Cert.Spec.Mat 1 256)
    (W2 : Cert.Spec.Mat 256 256) (B2 : Cert.Spec.Mat 1 256)
    (x0 x1 : Vec Ideal S1024x256 .f32) (r : Fin 59392) (p : Fin 1024)
    (h0 : ∀ l : Fin 256, x0 (ix2 p l) = h (ix2 r l)) (h1 : ∀ l : Fin 256, x1 (ix2 p l) = agg (ix2 r l)) (j : Fin 256) :
    k3_pay1 (F := Ideal) x0 x1 W1 B1 W2 B2 (ix2 p j)
      = Cert.Spec.mlp h agg W1 (Cert.Spec.row1 B1) W2 (Cert.Spec.row1 B2) (ix2 r j) := by
  rw [pay1_eq, layer_at]
  show _ = Cert.Spec.relu ((∑ k : Fin 256, Cert.Spec.lin (fun i => h i + agg i) W1 (Cert.Spec.row1 B1) (ix2 r k) * W2 (ix2 k j)) + B2 (ix2 0 j))
  refine congrArg (fun s => Cert.Spec.relu (s + B2 (ix2 0 j))) (Finset.sum_congr rfl fun k _ => ?_)
  refine congrArg (· * W2 (ix2 k j)) ?_
  rw [layer_at]
  show _ = Cert.Spec.relu ((∑ l : Fin 256, (h (ix2 r l) + agg (ix2 r l)) * W1 (ix2 l k)) + B1 (ix2 0 k))
  refine congrArg (fun s => Cert.Spec.relu (s + B1 (ix2 0 k))) (Finset.sum_congr rfl fun l _ => ?_)
  rw [addf_apply, h0, h1]

/-- Two functions on a 1024 × 256 block that agree at every pair of coordinates are equal. -/
theorem block_ext (X Y : S1024x256.Idx → EReal) (h : ∀ (p : Fin 1024) (q : Fin 256), X (ix2 p q) = Y (ix2 p q)) : X = Y :=
  funext fun y => by rw [eq_ix2 y]; exact h _ _

variable (V : (c : Dev nD) → (b : Ref sig .tc) → Buf (Elt Ideal) ((c : Thread nD τ).loc b))

theorem hz : (![0, 0] : Fin 2 → Nat) = fun _ => 0 := funext fun a => by fin_cases a <;> rfl

/-- The block indices of the seven windows at every point: the two node arrays and the result move down one block of
    rows per point; the four parameter arrays stay at their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of the first node array's block at point t is row 1024 t + p of the array. -/
theorem iblk0_at (c : Dev nD) (t : Fin cfg3.N) (p : Fin 1024) (l : Fin 256) (r : Fin 59392) (hr : r.val = 1024 * t.val + p.val) :
    (iblk3 (F := Ideal) V c 0 t : Vec Ideal S1024x256 .f32) (ix2 p l)
      = (V c (Pipeline.arrRef spec3 0) : Cert.Spec.Mat 59392 256) (ix2 r l) := by
  obtain ⟨e00, e01, -⟩ := idx_facts t
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 1024 + 1 * p.val = r.val; rw [e00, hr]; omega
  | ⟨1, _⟩ => show win3_0.index t (1 : Fin 2) * 256 + 1 * l.val = l.val; rw [e01]; omega

/-- Row p of the second node array's block at point t is row 1024 t + p of the array. -/
theorem iblk1_at (c : Dev nD) (t : Fin cfg3.N) (p : Fin 1024) (l : Fin 256) (r : Fin 59392) (hr : r.val = 1024 * t.val + p.val) :
    (iblk3 (F := Ideal) V c 1 t : Vec Ideal S1024x256 .f32) (ix2 p l)
      = (V c (Pipeline.arrRef spec3 1) : Cert.Spec.Mat 59392 256) (ix2 r l) := by
  obtain ⟨-, -, e10, e11, -⟩ := idx_facts t
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 1024 + 1 * p.val = r.val; rw [e10, hr]; omega
  | ⟨1, _⟩ => show win3_1.index t (1 : Fin 2) * 256 + 1 * l.val = l.val; rw [e11]; omega

/-- The first weight matrix's one block is the matrix. -/
theorem iblk2_eq (c : Dev nD) (t : Fin cfg3.N) :
    (iblk3 (F := Ideal) V c 2 t : Vec Ideal S256x256 .f32) = (V c (Pipeline.arrRef spec3 2) : Cert.Spec.Mat 256 256) := by
  obtain ⟨-, -, -, -, e20, e21, -⟩ := idx_facts t
  funext y
  unfold iblk3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 256 + 1 * (y 0).val = (y 0).val; rw [e20]; omega
  | ⟨1, _⟩ => show win3_2.index t (1 : Fin 2) * 256 + 1 * (y 1).val = (y 1).val; rw [e21]; omega

/-- The first bias row's one block is the row. -/
theorem iblk3_eq (c : Dev nD) (t : Fin cfg3.N) :
    (iblk3 (F := Ideal) V c 3 t : Vec Ideal S1x256 .f32) = (V c (Pipeline.arrRef spec3 3) : Cert.Spec.Mat 1 256) := by
  obtain ⟨-, -, -, -, -, -, e30, e31, -⟩ := idx_facts t
  funext y
  unfold iblk3
  rw [View.read_apply]
  show V c (Pipeline.arrRef spec3 3) _ = V c (Pipeline.arrRef spec3 3) _
  refine congrArg _ (funext fun a => Fin.ext ?_)
  match a with
  | ⟨0, _⟩ => show win3_3.index t (0 : Fin 2) * 1 + 1 * (y 0).val = (y 0).val; rw [e30]; omega
  | ⟨1, _⟩ => show win3_3.index t (1 : Fin 2) * 256 + 1 * (y 1).val = (y 1).val; rw [e31]; omega

/-- The second weight matrix's one block is the matrix. -/
theorem iblk4_eq (c : Dev nD) (t : Fin cfg3.N) :
    (iblk3 (F := Ideal) V c 4 t : Vec Ideal S256x256 .f32) = (V c (Pipeline.arrRef spec3 4) : Cert.Spec.Mat 256 256) := by
  obtain ⟨-, -, -, -, -, -, -, -, e40, e41, -⟩ := idx_facts t
  funext y
  unfold iblk3
  rw [View.read_apply]
  show V c (Pipeline.arrRef spec3 4) _ = V c (Pipeline.arrRef spec3 4) _
  refine congrArg _ (funext fun a => Fin.ext ?_)
  match a with
  | ⟨0, _⟩ => show win3_4.index t (0 : Fin 2) * 256 + 1 * (y 0).val = (y 0).val; rw [e40]; omega
  | ⟨1, _⟩ => show win3_4.index t (1 : Fin 2) * 256 + 1 * (y 1).val = (y 1).val; rw [e41]; omega

/-- The second bias row's one block is the row. -/
theorem iblk5_eq (c : Dev nD) (t : Fin cfg3.N) :
    (iblk3 (F := Ideal) V c 5 t : Vec Ideal S1x256 .f32) = (V c (Pipeline.arrRef spec3 5) : Cert.Spec.Mat 1 256) := by
  obtain ⟨-, -, -, -, -, -, -, -, -, -, e50, e51, -⟩ := idx_facts t
  funext y
  unfold iblk3
  rw [View.read_apply]
  show V c (Pipeline.arrRef spec3 5) _ = V c (Pipeline.arrRef spec3 5) _
  refine congrArg _ (funext fun a => Fin.ext ?_)
  match a with
  | ⟨0, _⟩ => show win3_5.index t (0 : Fin 2) * 1 + 1 * (y 0).val = (y 0).val; rw [e50]; omega
  | ⟨1, _⟩ => show win3_5.index t (1 : Fin 2) * 256 + 1 * (y 1).val = (y 1).val; rw [e51]; omega

/-! ## From the blocks to the array -/

/-- The update of every node, from the arrays as the launch finds them. -/
abbrev upd (c : Dev nD) : Cert.Spec.Mat 59392 256 :=
  Cert.Spec.mlp (V c (Pipeline.arrRef spec3 0)) (V c (Pipeline.arrRef spec3 1)) (V c (Pipeline.arrRef spec3 2))
    (Cert.Spec.row1 (V c (Pipeline.arrRef spec3 3))) (V c (Pipeline.arrRef spec3 4)) (Cert.Spec.row1 (V c (Pipeline.arrRef spec3 5)))

/-- What point t writes back is rows 1024 t … 1024 t + 1023 of the update. -/
theorem flushed_eq (c : Dev nD) (t : Fin cfg3.N) :
    (dat3 (F := Ideal) V c).flushed 6 t = ((cfg3.win 6).blk t).view.read (Elt Ideal) (upd V c) := by
  show (cfg3.win 6).cut (grid3.coords t) ((dat3 (F := Ideal) V c).after 6 t) = _
  rw [after3_6]
  unfold out3_6
  rw [View.canon_unit_zero hz]
  simp only [View.ld_unit_zero (S := S1024x256) hz, View.ld_unit_zero (S := S256x256) hz, View.ld_unit_zero (S := S1x256) hz]
  rw [iblk2_eq, iblk3_eq, iblk4_eq, iblk5_eq]
  refine block_ext _ _ fun p q => ?_
  have ht : t.val < 58 := Nat.lt_of_lt_of_eq t.isLt N_3
  have hr : 1024 * t.val + p.val < 59392 := by have := p.isLt; omega
  obtain ⟨-, -, -, -, -, -, -, -, -, -, -, -, e60, e61⟩ := idx_facts t
  have e : ((cfg3.win 6).blk t).view.emb (ix2 p q) = ix2 (⟨1024 * t.val + p.val, hr⟩ : Fin 59392) q :=
    funext fun a => Fin.ext (by
      match a with
      | ⟨0, _⟩ => show win3_6.index t (0 : Fin 2) * 1024 + 1 * p.val = 1024 * t.val + p.val; rw [e60]; omega
      | ⟨1, _⟩ => show win3_6.index t (1 : Fin 2) * 256 + 1 * q.val = q.val; rw [e61]; omega)
  show k3_pay1 (F := Ideal) (iblk3 V c 0 t) (iblk3 V c 1 t) (V c (Pipeline.arrRef spec3 2)) (V c (Pipeline.arrRef spec3 3))
      (V c (Pipeline.arrRef spec3 4)) (V c (Pipeline.arrRef spec3 5)) (ix2 p q)
    = upd V c (((cfg3.win 6).blk t).view.emb (ix2 p q))
  rw [e]
  exact pay1_row (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (iblk3 V c 0 t) (iblk3 V c 1 t) ⟨1024 * t.val + p.val, hr⟩ p
    (fun l => iblk0_at V c t p l ⟨1024 * t.val + p.val, hr⟩ rfl) (fun l => iblk1_at V c t p l ⟨1024 * t.val + p.val, hr⟩ rfl) q

/-- An index of the result array is in point t's block iff each coordinate is in the block's range on its axis. -/
theorem mem_blk (t : Fin cfg3.N) (i : S59392x256.Idx) :
    i ∈ ((cfg3.win 6).blk t).view.set ↔ ∀ a : Fin 2, win3_6.index t a * S1024x256.size a ≤ (i a).val
      ∧ (i a).val < win3_6.index t a * S1024x256.size a + S1024x256.size a := by
  show i ∈ ((View.whole main_v30).slice (win3_6.rect t)).set ↔ _
  rw [View.set_slice_whole, Rect.mem_set_unit]
  exact Iff.rfl

/-- Every index of the result array is in the block of the point its row falls to. -/
theorem cover (i : S59392x256.Idx) :
    ∃ t : Fin cfg3.N, (cfg3.win 6).flush t = true ∧ i ∈ ((cfg3.win 6).blk t).view.set := by
  have hi0 : (i 0).val < 59392 := (i 0).isLt
  have hi1 : (i 1).val < 256 := (i 1).isLt
  have hN : cfg3.N = 58 := N_3
  have ht : (i 0).val / 1024 < cfg3.N := by rw [hN]; omega
  obtain ⟨-, -, -, -, -, -, -, -, -, -, -, -, e60, e61⟩ := idx_facts ⟨(i 0).val / 1024, ht⟩
  refine ⟨⟨(i 0).val / 1024, ht⟩, flush3_6 _, ?_⟩
  rw [mem_blk]
  intro a
  match a with
  | ⟨0, _⟩ =>
    show win3_6.index ⟨(i 0).val / 1024, ht⟩ (0 : Fin 2) * 1024 ≤ (i 0).val
      ∧ (i 0).val < win3_6.index ⟨(i 0).val / 1024, ht⟩ (0 : Fin 2) * 1024 + 1024
    rw [e60]; show (i 0).val / 1024 * 1024 ≤ (i 0).val ∧ (i 0).val < (i 0).val / 1024 * 1024 + 1024; omega
  | ⟨1, _⟩ =>
    show win3_6.index ⟨(i 0).val / 1024, ht⟩ (1 : Fin 2) * 256 ≤ (i 1).val
      ∧ (i 1).val < win3_6.index ⟨(i 0).val / 1024, ht⟩ (1 : Fin 2) * 256 + 256
    rw [e61]; omega

/-- After the fourth launch the result array is the update of every node from the launch's six input arrays. -/
theorem arrAt_6 (c : Dev nD) :
    (dat3 (F := Ideal) V c).arrAt 6 cfg3.N
      = Cert.Spec.mlp (V c (Pipeline.arrRef spec3 0)) (V c (Pipeline.arrRef spec3 1)) (V c (Pipeline.arrRef spec3 2))
          (Cert.Spec.row1 (V c (Pipeline.arrRef spec3 3))) (V c (Pipeline.arrRef spec3 4)) (Cert.Spec.row1 (V c (Pipeline.arrRef spec3 5))) :=
  (dat3 (F := Ideal) V c).arrAt_eq_of_cover 6 (upd V c) (fun t _ => flushed_eq V c t) cover

end Cert.KernelIdeal.Region3

end
-- ==== Proof.KernelChain.lean ====
import proofs.«425756_j88742614270020_1_alg».proof.Proof.Gen.KernelIdeal.Frame
import proofs.«425756_j88742614270020_1_alg».proof.Proof.Spec
import proofs.«425756_j88742614270020_1_alg».proof.Proof.Take
import proofs.«425756_j88742614270020_1_alg».proof.Proof.Region0
import proofs.«425756_j88742614270020_1_alg».proof.Proof.Region0Acc
import proofs.«425756_j88742614270020_1_alg».proof.Proof.Region1
import proofs.«425756_j88742614270020_1_alg».proof.Proof.Region2
import proofs.«425756_j88742614270020_1_alg».proof.Proof.Region3
import Idealize.ShloMosaic.Lib.Pipeline.Value
import Idealize.ShloMosaic.Lib.StableHlo.Run

/-!
# The kernel's result buffer through the ten segments of its program

The program is four launches among six stretches of host operations. Each stretch and each launch is read as what it
leaves in the buffers the next one reads: the biases laid out as rows and the embedding look-up, the encoder with its
column sums and sums of squares, the per-feature scale and shift, the normalisation, the edge endpoints and the
source-row look-up, the edge messages, their aggregation, and the node update. Composed, the result buffer holds
`mlp h agg W1 b1 W2 b2` with `h` the normalised encoder output (scale-and-shift spelling) and `agg` the messages
summed into their destination nodes, every array a launch argument.
-/

set_option maxRecDepth 16384

noncomputable section

namespace Cert.KernelIdeal.Chain

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## A vector of 256 entries laid out as one row -/

/-- A vector of 256 entries as a 1 × 256 matrix: the same entries in the same order. -/
def rsh (v : FVec Ideal S256 .f32) : FVec Ideal S1x256 .f32 := shapeCast S1x256 v shapeCasts_S256_S1x256

/-- Read back as a vector, the one-row matrix is the vector it was made from. -/
theorem row1_rsh (v : Cert.Spec.Row 256) : Cert.Spec.row1 (rsh v) = v := by
  funext j
  show shapeCast S1x256 v shapeCasts_S256_S1x256 (ix2 0 (j 0)) = v j
  refine (shapeCast_addUnit_apply (n := 1) ![256] v shapeCasts_S256_S1x256 (ix2 0 (j 0))).trans ?_
  refine congrArg v (funext fun a => ?_)
  match a with
  | ⟨0, _⟩ => rfl

/-! ## The per-feature scale and shift as the program computes them on one-row matrices -/

/-- The number of nodes, repeated along a row. -/
def bN : FVec Ideal S1x256 .f32 := broadcastInDim S1x256 ![] bcast_S_S1x256 (constant (F := Ideal) S_ .f32 0x47680000#32)
/-- The variance's offset, repeated along a row. -/
def bEps : FVec Ideal S1x256 .f32 := broadcastInDim S1x256 ![] bcast_S_S1x256 (constant (F := Ideal) S_ .f32 0x3727C5AC#32)

theorem bN_apply (i : S1x256.Idx) : bN i = Cert.Spec.cN :=
  broadcastInDim_apply _ bcast_S_S1x256 (constant (F := Ideal) S_ .f32 0x47680000#32) i (fun a => a.elim0) (fun a => a.elim0)
theorem bEps_apply (i : S1x256.Idx) : bEps i = Cert.Spec.cEps :=
  broadcastInDim_apply _ bcast_S_S1x256 (constant (F := Ideal) S_ .f32 0x3727C5AC#32) i (fun a => a.elim0) (fun a => a.elim0)

/-- The row of scales from the row of sums `s`, the row of sums of squares `q` and the row of weights `g`. -/
def scaleMat (s q g : FVec Ideal S1x256 .f32) : FVec Ideal S1x256 .f32 :=
  mulf (Host.rsqrt (addf (subf (Host.divf q bN) (mulf (Host.divf s bN) (Host.divf s bN))) bEps)) g
/-- The row of shifts from the sums, the sums of squares, the weights and the offsets `b`. -/
def shiftMat (s q g b : FVec Ideal S1x256 .f32) : FVec Ideal S1x256 .f32 :=
  subf b (mulf (Host.divf s bN) (scaleMat s q g))

theorem scaleMat_apply (s q g : FVec Ideal S1x256 .f32) (i : S1x256.Idx) :
    scaleMat s q g i = Cert.Spec.scaleOf (s i) (q i) (g i) := by
  show Ideal.rsqrt ((Ideal.div (q i) (bN i) - Ideal.div (s i) (bN i) * Ideal.div (s i) (bN i)) + bEps i) * g i = _
  rw [bN_apply, bEps_apply]
  rfl

theorem shiftMat_apply (s q g b : FVec Ideal S1x256 .f32) (i : S1x256.Idx) :
    shiftMat s q g b i = Cert.Spec.shiftOf (s i) (q i) (g i) (b i) := by
  show b i - Ideal.div (s i) (bN i) * scaleMat s q g i = _
  rw [bN_apply, scaleMat_apply]
  rfl

theorem row1_scaleMat (S Q g : Cert.Spec.Row 256) :
    Cert.Spec.row1 (scaleMat (Cert.Spec.asMat1 S) (Cert.Spec.asMat1 Q) (rsh g)) = Cert.Spec.scaleRow S Q g := by
  funext j
  show scaleMat (Cert.Spec.asMat1 S) (Cert.Spec.asMat1 Q) (rsh g) (ix2 0 (j 0)) = Cert.Spec.scaleOf (S j) (Q j) (g j)
  rw [scaleMat_apply]
  have hS : Cert.Spec.asMat1 S (ix2 0 (j 0)) = S j := congrFun (Cert.Spec.row1_asMat1 S) j
  have hQ : Cert.Spec.asMat1 Q (ix2 0 (j 0)) = Q j := congrFun (Cert.Spec.row1_asMat1 Q) j
  have hg : rsh g (ix2 0 (j 0)) = g j := congrFun (row1_rsh g) j
  rw [hS, hQ, hg]

theorem row1_shiftMat (S Q g b : Cert.Spec.Row 256) :
    Cert.Spec.row1 (shiftMat (Cert.Spec.asMat1 S) (Cert.Spec.asMat1 Q) (rsh g) (rsh b)) = Cert.Spec.shiftRow S Q g b := by
  funext j
  show shiftMat (Cert.Spec.asMat1 S) (Cert.Spec.asMat1 Q) (rsh g) (rsh b) (ix2 0 (j 0)) = Cert.Spec.shiftOf (S j) (Q j) (g j) (b j)
  rw [shiftMat_apply]
  have hS : Cert.Spec.asMat1 S (ix2 0 (j 0)) = S j := congrFun (Cert.Spec.row1_asMat1 S) j
  have hQ : Cert.Spec.asMat1 Q (ix2 0 (j 0)) = Q j := congrFun (Cert.Spec.row1_asMat1 Q) j
  have hg : rsh g (ix2 0 (j 0)) = g j := congrFun (row1_rsh g) j
  have hb : rsh b (ix2 0 (j 0)) = b j := congrFun (row1_rsh b) j
  rw [hS, hQ, hg, hb]

/-! ## The edge endpoints and the aggregation, as the program spells them -/

/-- The edges' source nodes: row 0 of the edge index. -/
def srcK (x1 : IVec S2x950272 32) : IVec S950272 32 :=
  shapeCast S950272 (extractStridedSlice S1x950272 ![0, 0] x1 slices_S2x950272_S1x950272_0_0) shapeCasts_S1x950272_S950272
/-- The edges' destination nodes: row 1 of the edge index. -/
def dstK (x1 : IVec S2x950272 32) : IVec S950272 32 :=
  shapeCast S950272 (extractStridedSlice S1x950272 ![1, 0] x1 slices_S2x950272_S1x950272_1_0) shapeCasts_S1x950272_S950272
/-- The messages summed into their destination nodes, from zero. -/
def scat (dst : IVec S950272 32) (msg : FVec Ideal S950272x256 .f32) : FVec Ideal S59392x256 .f32 :=
  Host.scatterAdd scatter_S59392x256_S950272x1_S950272x256_1_0_0_1
    (broadcastInDim S59392x256 ![] bcast_S_S59392x256 (constant (F := Ideal) S_ .f32 0x00000000#32))
    (broadcastInDim S950272x1 ![0] bcast_S950272_S950272x1_0 dst) msg

/-! ## Contents moved between a value's type and its buffer's type -/

/-- Contents moved to a buffer's own type and back are unchanged. -/
theorem ofBuf_toBuf {T : BufTy} {Val : EltTy → Type} (x : StableHlo.TRef sig T) (v : T.Contents Val) :
    x.ofBuf (x.toBuf v) = v := by
  obtain ⟨r, h, h1, h2⟩ := x
  subst h
  rfl

/-- At a named buffer the two types are the same type and the move is the identity. -/
theorem ofBuf_c0v5 (h1 h2 h3) (v : IVec S59392x1 32) :
    (StableHlo.TRef.of main_call0_v5 h1 h2 h3 : StableHlo.TRef sig ⟨S59392x1, .i32⟩).ofBuf (Val := Elt Ideal) v = v := rfl
theorem ofBuf_arg4 (h1 h2 h3) (v : FVec Ideal S8x16 .f32) :
    (StableHlo.TRef.of main_arg4 h1 h2 h3 : StableHlo.TRef sig ⟨S8x16, .f32⟩).ofBuf (Val := Elt Ideal) v = v := rfl
theorem toBuf_v4 (h1 h2 h3) (v : FVec Ideal S59392x16 .f32) :
    (StableHlo.TRef.of main_v4 h1 h2 h3 : StableHlo.TRef sig ⟨S59392x16, .f32⟩).toBuf (Val := Elt Ideal) v = v := rfl
theorem ofBuf_c1v5 (h1 h2 h3) (v : IVec S950272x1 32) :
    (StableHlo.TRef.of main_call1_v5 h1 h2 h3 : StableHlo.TRef sig ⟨S950272x1, .i32⟩).ofBuf (Val := Elt Ideal) v = v := rfl
theorem ofBuf_v20 (h1 h2 h3) (v : FVec Ideal S59392x256 .f32) :
    (StableHlo.TRef.of main_v20 h1 h2 h3 : StableHlo.TRef sig ⟨S59392x256, .f32⟩).ofBuf (Val := Elt Ideal) v = v := rfl
theorem toBuf_v25 (h1 h2 h3) (v : FVec Ideal S950272x256 .f32) :
    (StableHlo.TRef.of main_v25 h1 h2 h3 : StableHlo.TRef sig ⟨S950272x256, .f32⟩).toBuf (Val := Elt Ideal) v = v := rfl

/-! ## What a stretch of host operations leaves in the buffers it writes -/

section Host
variable (W : Valuation τ sig (Elt Ideal))

theorem H0_v0 : StableHlo.after (hostOps0 (F := Ideal)) W (Proc.devRef .tc main_v0) = rsh (W (Proc.devRef .tc main_arg6)) := by
  after_results; rfl
theorem H0_v1 : StableHlo.after (hostOps0 (F := Ideal)) W (Proc.devRef .tc main_v1) = rsh (W (Proc.devRef .tc main_arg10)) := by
  after_results; rfl
theorem H0_v2 : StableHlo.after (hostOps0 (F := Ideal)) W (Proc.devRef .tc main_v2) = rsh (W (Proc.devRef .tc main_arg12)) := by
  after_results; rfl
theorem H0_v3 : StableHlo.after (hostOps0 (F := Ideal)) W (Proc.devRef .tc main_v3) = rsh (W (Proc.devRef .tc main_arg14)) := by
  after_results; rfl

set_option maxHeartbeats 1000000 in
theorem H1_v16 : StableHlo.after (hostOps1 (F := Ideal)) W (Proc.devRef .tc main_v16)
    = scaleMat (W (Proc.devRef .tc main_v5_1)) (W (Proc.devRef .tc main_v5_2)) (rsh (W (Proc.devRef .tc main_arg7))) := by
  after_results_simp
  rfl

set_option maxHeartbeats 1000000 in
theorem H1_v19 : StableHlo.after (hostOps1 (F := Ideal)) W (Proc.devRef .tc main_v19)
    = shiftMat (W (Proc.devRef .tc main_v5_1)) (W (Proc.devRef .tc main_v5_2)) (rsh (W (Proc.devRef .tc main_arg7)))
        (rsh (W (Proc.devRef .tc main_arg8))) := by
  after_results_simp
  rfl

theorem H2_v22 : StableHlo.after (hostOps2 (F := Ideal)) W (Proc.devRef .tc main_v22) = srcK (W (Proc.devRef .tc main_arg1)) := by
  after_results; rfl
theorem H2_v24 : StableHlo.after (hostOps2 (F := Ideal)) W (Proc.devRef .tc main_v24) = dstK (W (Proc.devRef .tc main_arg1)) := by
  after_results; rfl

theorem H3_v29 : StableHlo.after (hostOps3 (F := Ideal)) W (Proc.devRef .tc main_v29)
    = scat (W (Proc.devRef .tc main_v24)) (W (Proc.devRef .tc main_v26)) := by
  after_results; rfl

/-! ### The two look-ups: first the wrapped positions (eight operations), then the range test, the gather and the fill -/

theorem H0_1_head : StableHlo.after ((hostOps0_1 (F := Ideal)).take 8) W (Proc.devRef .tc main_call0_v5)
    = Take.wid (W (Proc.devRef .tc main_arg3)) := by
  dsimp only [hostOps0_1, List.take]
  after_results
  rfl

theorem H0_1_head_arg4 : StableHlo.after ((hostOps0_1 (F := Ideal)).take 8) W (Proc.devRef .tc main_arg4)
    = W (Proc.devRef .tc main_arg4) := by
  dsimp only [hostOps0_1, List.take]
  after_results

set_option maxHeartbeats 1000000 in
theorem H0_1_tail (ids : IVec S59392 32) (h5 : W (Proc.devRef .tc main_call0_v5) = Take.wid ids) :
    StableHlo.after ((hostOps0_1 (F := Ideal)).drop 8) W (Proc.devRef .tc main_v4)
      = Take.geFill (W (Proc.devRef .tc main_arg4)) ids := by
  dsimp only [hostOps0_1, List.drop]
  after_results
  rw [h5]
  simp only [ofBuf_toBuf, ofBuf_c0v5, ofBuf_arg4, toBuf_v4]
  rfl

theorem H0_1_v4 : StableHlo.after (hostOps0_1 (F := Ideal)) W (Proc.devRef .tc main_v4)
    = Take.geFill (W (Proc.devRef .tc main_arg4)) (W (Proc.devRef .tc main_arg3)) := by
  rw [← List.take_append_drop 8 (hostOps0_1 (F := Ideal)), StableHlo.after_append,
    H0_1_tail _ _ (H0_1_head W), H0_1_head_arg4]

theorem H2_1_head : StableHlo.after ((hostOps2_1 (F := Ideal)).take 8) W (Proc.devRef .tc main_call1_v5)
    = Take.wsrc (W (Proc.devRef .tc main_v22)) := by
  dsimp only [hostOps2_1, List.take]
  after_results
  rfl

theorem H2_1_head_v20 : StableHlo.after ((hostOps2_1 (F := Ideal)).take 8) W (Proc.devRef .tc main_v20)
    = W (Proc.devRef .tc main_v20) := by
  dsimp only [hostOps2_1, List.take]
  after_results

set_option maxHeartbeats 1000000 in
theorem H2_1_tail (src : IVec S950272 32) (h5 : W (Proc.devRef .tc main_call1_v5) = Take.wsrc src) :
    StableHlo.after ((hostOps2_1 (F := Ideal)).drop 8) W (Proc.devRef .tc main_v25)
      = Take.hsrcFill (W (Proc.devRef .tc main_v20)) src := by
  dsimp only [hostOps2_1, List.drop]
  after_results
  rw [h5]
  simp only [ofBuf_toBuf, ofBuf_c1v5, ofBuf_v20, toBuf_v25]
  rfl

theorem H2_1_v25 : StableHlo.after (hostOps2_1 (F := Ideal)) W (Proc.devRef .tc main_v25)
    = Take.hsrcFill (W (Proc.devRef .tc main_v20)) (W (Proc.devRef .tc main_v22)) := by
  rw [← List.take_append_drop 8 (hostOps2_1 (F := Ideal)), StableHlo.after_append,
    H2_1_tail _ _ (H2_1_head W), H2_1_head_v20]

end Host

/-! ## Buffers a stretch of host operations leaves alone -/

theorem sing_sub {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map.mpr ⟨y, h, rfl⟩))

/-- The buffers each stretch writes, in order. -/
abbrev L0 : List (Ref sig .tc) := [main_v0, main_v1, main_v2, main_v3]
abbrev L0_1 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v4]
abbrev L1 : List (Ref sig .tc) :=
  [main_cst, main_v6, main_v7, main_cst_0, main_v8, main_v9, main_v10, main_v11, main_cst_1, main_v12, main_v13, main_v14,
   main_v15, main_v16, main_v17, main_v18, main_v19]
abbrev L2 : List (Ref sig .tc) := [main_v21, main_v22, main_v23, main_v24]
abbrev L2_1 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v25]
abbrev L3 : List (Ref sig .tc) := [main_cst_2, main_v27, main_v28, main_v29]

section Pass
variable (W : Valuation τ sig (Elt Ideal)) (b : Ref sig .tc)

theorem pass0 (hb : b ∉ L0) : StableHlo.after (hostOps0 (F := Ideal)) W (Proc.devRef .tc b) = W (Proc.devRef .tc b) :=
  StableHlo.after_of_writes_sub (W := L0) hostOps0 W (by
    simp only [hostOps0, List.Forall, StableHlo.reshape_writes]
    repeat' apply And.intro
    all_goals exact sing_sub (by decide)) hb

theorem pass0_1 (hb : b ∉ L0_1) : StableHlo.after (hostOps0_1 (F := Ideal)) W (Proc.devRef .tc b) = W (Proc.devRef .tc b) :=
  StableHlo.after_of_writes_sub (W := L0_1) hostOps0_1 W (by
    simp only [hostOps0_1, List.Forall, StableHlo.nullary_writes, StableHlo.unary_writes, StableHlo.binary_writes, StableHlo.ternary_writes]
    repeat' apply And.intro
    all_goals exact sing_sub (by decide)) hb

theorem pass1 (hb : b ∉ L1) : StableHlo.after (hostOps1 (F := Ideal)) W (Proc.devRef .tc b) = W (Proc.devRef .tc b) :=
  StableHlo.after_of_writes_sub (W := L1) hostOps1 W (by
    simp only [hostOps1, List.Forall, StableHlo.nullary_writes, StableHlo.unary_writes, StableHlo.binary_writes, StableHlo.reshape_writes]
    repeat' apply And.intro
    all_goals exact sing_sub (by decide)) hb

theorem pass2 (hb : b ∉ L2) : StableHlo.after (hostOps2 (F := Ideal)) W (Proc.devRef .tc b) = W (Proc.devRef .tc b) :=
  StableHlo.after_of_writes_sub (W := L2) hostOps2 W (by
    simp only [hostOps2, List.Forall, StableHlo.unary_writes, StableHlo.reshape_writes]
    repeat' apply And.intro
    all_goals exact sing_sub (by decide)) hb

theorem pass2_1 (hb : b ∉ L2_1) : StableHlo.after (hostOps2_1 (F := Ideal)) W (Proc.devRef .tc b) = W (Proc.devRef .tc b) :=
  StableHlo.after_of_writes_sub (W := L2_1) hostOps2_1 W (by
    simp only [hostOps2_1, List.Forall, StableHlo.nullary_writes, StableHlo.unary_writes, StableHlo.binary_writes, StableHlo.ternary_writes]
    repeat' apply And.intro
    all_goals exact sing_sub (by decide)) hb

theorem pass3 (hb : b ∉ L3) : StableHlo.after (hostOps3 (F := Ideal)) W (Proc.devRef .tc b) = W (Proc.devRef .tc b) :=
  StableHlo.after_of_writes_sub (W := L3) hostOps3 W (by
    simp only [hostOps3, List.Forall, StableHlo.nullary_writes, StableHlo.unary_writes, StableHlo.ternary_writes]
    repeat' apply And.intro
    all_goals exact sing_sub (by decide)) hb

end Pass

/-! ## The run, boundary by boundary -/

section Run
variable (m : (ℓ : Loc nD τ sig) → Buf (Elt Ideal) ℓ) (ρ : Dev nD → PrngReg)

/-- The normalised node features, from the launch arguments. -/
def hK (c : Dev nD) : Cert.Spec.Mat 59392 256 :=
  Cert.Spec.bnScaled (Cert.Spec.enc (m ((c : Thread nD τ).loc main_arg0)) (Take.geFill (m ((c : Thread nD τ).loc main_arg4)) (m ((c : Thread nD τ).loc main_arg3)))
      (m ((c : Thread nD τ).loc main_arg5)) (m ((c : Thread nD τ).loc main_arg6)))
    (m ((c : Thread nD τ).loc main_arg7)) (m ((c : Thread nD τ).loc main_arg8))
/-- The aggregated messages, from the launch arguments. -/
def aggK (c : Dev nD) : Cert.Spec.Mat 59392 256 :=
  scat (dstK (m ((c : Thread nD τ).loc main_arg1)))
    (Cert.Spec.msgRight (Take.hsrcFill (hK m c) (srcK (m ((c : Thread nD τ).loc main_arg1)))) (m ((c : Thread nD τ).loc main_arg2))
      (m ((c : Thread nD τ).loc main_arg9)) (m ((c : Thread nD τ).loc main_arg10)))

/-- The encoder's output, from the launch arguments. -/
def encK (c : Dev nD) : Cert.Spec.Mat 59392 256 :=
  Cert.Spec.enc (m ((c : Thread nD τ).loc main_arg0)) (Take.geFill (m ((c : Thread nD τ).loc main_arg4)) (m ((c : Thread nD τ).loc main_arg3)))
    (m ((c : Thread nD τ).loc main_arg5)) (m ((c : Thread nD τ).loc main_arg6))
/-- The edge messages, from the launch arguments. -/
def msgK (c : Dev nD) : Cert.Spec.Mat 950272 256 :=
  Cert.Spec.msgRight (Take.hsrcFill (hK m c) (srcK (m ((c : Thread nD τ).loc main_arg1)))) (m ((c : Thread nD τ).loc main_arg2))
    (m ((c : Thread nD τ).loc main_arg9)) (m ((c : Thread nD τ).loc main_arg10))

theorem hK_eq (c : Dev nD) :
    hK m c = Cert.Spec.bnScaled (encK m c) (m ((c : Thread nD τ).loc main_arg7)) (m ((c : Thread nD τ).loc main_arg8)) := rfl
theorem aggK_eq (c : Dev nD) : aggK m c = scat (dstK (m ((c : Thread nD τ).loc main_arg1))) (msgK m c) := rfl

section Steps
variable (c : Dev nD)

/-! ### Buffers carried unchanged from boundary to boundary -/

/-- A buffer the first stretch does not write holds its launch contents after it. -/
theorem W1_of (b : Ref sig .tc) (h0 : b ∉ L0) : W1 m ρ c (Proc.devRef .tc b) = m ((c : Thread nD τ).loc b) :=
  pass0 (W0 m ρ c) b h0

theorem B2 (b : Ref sig .tc) (h01 : b ∉ L0_1) : W2 m ρ c (Proc.devRef .tc b) = W1 m ρ c (Proc.devRef .tc b) :=
  pass0_1 (W1 m ρ c) b h01
theorem B3 (b : Ref sig .tc) (hr0 : ∀ w, Pipeline.arrRef spec0 w ≠ b) (h01 : b ∉ L0_1) :
    W3 m ρ c (Proc.devRef .tc b) = W1 m ρ c (Proc.devRef .tc b) :=
  (W3_of_ne m ρ c b hr0).trans (B2 m ρ c b h01)
theorem B5 (b : Ref sig .tc) (hr1 : ∀ w, Pipeline.arrRef spec1 w ≠ b) (h1 : b ∉ L1)
    (hr0 : ∀ w, Pipeline.arrRef spec0 w ≠ b) (h01 : b ∉ L0_1) :
    W5 m ρ c (Proc.devRef .tc b) = W1 m ρ c (Proc.devRef .tc b) :=
  (W5_of_ne m ρ c b hr1).trans ((pass1 (W3 m ρ c) b h1).trans (B3 m ρ c b hr0 h01))
theorem B7 (b : Ref sig .tc) (h21 : b ∉ L2_1) (h2 : b ∉ L2) (hr1 : ∀ w, Pipeline.arrRef spec1 w ≠ b) (h1 : b ∉ L1)
    (hr0 : ∀ w, Pipeline.arrRef spec0 w ≠ b) (h01 : b ∉ L0_1) :
    W7 m ρ c (Proc.devRef .tc b) = W1 m ρ c (Proc.devRef .tc b) :=
  (pass2_1 (W6 m ρ c) b h21).trans ((pass2 (W5 m ρ c) b h2).trans (B5 m ρ c b hr1 h1 hr0 h01))
theorem B9 (b : Ref sig .tc) (h3 : b ∉ L3) (hr2 : ∀ w, Pipeline.arrRef spec2 w ≠ b) (h21 : b ∉ L2_1) (h2 : b ∉ L2)
    (hr1 : ∀ w, Pipeline.arrRef spec1 w ≠ b) (h1 : b ∉ L1) (hr0 : ∀ w, Pipeline.arrRef spec0 w ≠ b) (h01 : b ∉ L0_1) :
    W9 m ρ c (Proc.devRef .tc b) = W1 m ρ c (Proc.devRef .tc b) :=
  (pass3 (W8 m ρ c) b h3).trans ((W8_of_ne m ρ c b hr2).trans (B7 m ρ c b h21 h2 hr1 h1 hr0 h01))

/-- The four biases laid out as rows by the first stretch. -/
theorem W1_v0 : W1 m ρ c (Proc.devRef .tc main_v0) = rsh (m ((c : Thread nD τ).loc main_arg6)) := H0_v0 (W0 m ρ c)
theorem W1_v1 : W1 m ρ c (Proc.devRef .tc main_v1) = rsh (m ((c : Thread nD τ).loc main_arg10)) := H0_v1 (W0 m ρ c)
theorem W1_v2 : W1 m ρ c (Proc.devRef .tc main_v2) = rsh (m ((c : Thread nD τ).loc main_arg12)) := H0_v2 (W0 m ρ c)
theorem W1_v3 : W1 m ρ c (Proc.devRef .tc main_v3) = rsh (m ((c : Thread nD τ).loc main_arg14)) := H0_v3 (W0 m ρ c)

/-! ### The first launch: the encoder, its column sums and sums of squares -/

theorem in0_0 : V2 m ρ c (Pipeline.arrRef spec0 0) = m ((c : Thread nD τ).loc main_arg0) :=
  show W2 m ρ c (Proc.devRef .tc main_arg0) = _ from
    (B2 m ρ c main_arg0 (by decide)).trans (W1_of m ρ c main_arg0 (by decide))
theorem in0_1 : V2 m ρ c (Pipeline.arrRef spec0 1)
    = Take.geFill (m ((c : Thread nD τ).loc main_arg4)) (m ((c : Thread nD τ).loc main_arg3)) :=
  show StableHlo.after hostOps0_1 (W1 m ρ c) (Proc.devRef .tc main_v4) = _ from
    (H0_1_v4 (W1 m ρ c)).trans (congrArg₂ Take.geFill (W1_of m ρ c main_arg4 (by decide)) (W1_of m ρ c main_arg3 (by decide)))
theorem in0_2 : V2 m ρ c (Pipeline.arrRef spec0 2) = m ((c : Thread nD τ).loc main_arg5) :=
  show W2 m ρ c (Proc.devRef .tc main_arg5) = _ from
    (B2 m ρ c main_arg5 (by decide)).trans (W1_of m ρ c main_arg5 (by decide))
theorem in0_3 : V2 m ρ c (Pipeline.arrRef spec0 3) = rsh (m ((c : Thread nD τ).loc main_arg6)) :=
  show W2 m ρ c (Proc.devRef .tc main_v0) = _ from (B2 m ρ c main_v0 (by decide)).trans (W1_v0 m ρ c)

theorem hpre_eq : Region0.hpre (V2 m ρ) c = encK m c := by
  unfold encK
  show Cert.Spec.enc (V2 m ρ c (Pipeline.arrRef spec0 0)) (V2 m ρ c (Pipeline.arrRef spec0 1)) (V2 m ρ c (Pipeline.arrRef spec0 2))
    (Cert.Spec.row1 (V2 m ρ c (Pipeline.arrRef spec0 3))) = _
  rw [in0_0, in0_1, in0_2, in0_3, row1_rsh]

theorem W3_v5_0 : W3 m ρ c (Proc.devRef .tc main_v5_0) = encK m c :=
  (W3_arr m ρ c 4).trans ((Region0.arrAt_4 (V2 m ρ) c).trans (hpre_eq m ρ c))
theorem W3_v5_1 : W3 m ρ c (Proc.devRef .tc main_v5_1) = Cert.Spec.asMat1 (Cert.Spec.sumRow (encK m c)) :=
  (W3_arr m ρ c 5).trans ((Region0Acc.arrAt_5 (V2 m ρ) c).trans (by rw [hpre_eq]))
theorem W3_v5_2 : W3 m ρ c (Proc.devRef .tc main_v5_2) = Cert.Spec.asMat1 (Cert.Spec.sumSqRow (encK m c)) :=
  (W3_arr m ρ c 6).trans ((Region0Acc.arrAt_6 (V2 m ρ) c).trans (by rw [hpre_eq]))
theorem W3_arg7 : W3 m ρ c (Proc.devRef .tc main_arg7) = m ((c : Thread nD τ).loc main_arg7) :=
  (B3 m ρ c main_arg7 (by decide) (by decide)).trans (W1_of m ρ c main_arg7 (by decide))
theorem W3_arg8 : W3 m ρ c (Proc.devRef .tc main_arg8) = m ((c : Thread nD τ).loc main_arg8) :=
  (B3 m ρ c main_arg8 (by decide) (by decide)).trans (W1_of m ρ c main_arg8 (by decide))

/-! ### The second launch: the normalisation -/

theorem in1_0 : V4 m ρ c (Pipeline.arrRef spec1 0) = encK m c :=
  show W4 m ρ c (Proc.devRef .tc main_v5_0) = _ from (pass1 (W3 m ρ c) main_v5_0 (by decide)).trans (W3_v5_0 m ρ c)
theorem in1_1 : V4 m ρ c (Pipeline.arrRef spec1 1)
    = scaleMat (Cert.Spec.asMat1 (Cert.Spec.sumRow (encK m c))) (Cert.Spec.asMat1 (Cert.Spec.sumSqRow (encK m c)))
        (rsh (m ((c : Thread nD τ).loc main_arg7))) :=
  show StableHlo.after hostOps1 (W3 m ρ c) (Proc.devRef .tc main_v16) = _ from
    (H1_v16 (W3 m ρ c)).trans (by rw [W3_v5_1, W3_v5_2, W3_arg7])
theorem in1_2 : V4 m ρ c (Pipeline.arrRef spec1 2)
    = shiftMat (Cert.Spec.asMat1 (Cert.Spec.sumRow (encK m c))) (Cert.Spec.asMat1 (Cert.Spec.sumSqRow (encK m c)))
        (rsh (m ((c : Thread nD τ).loc main_arg7))) (rsh (m ((c : Thread nD τ).loc main_arg8))) :=
  show StableHlo.after hostOps1 (W3 m ρ c) (Proc.devRef .tc main_v19) = _ from
    (H1_v19 (W3 m ρ c)).trans (by rw [W3_v5_1, W3_v5_2, W3_arg7, W3_arg8])

theorem W5_v20 : W5 m ρ c (Proc.devRef .tc main_v20) = hK m c := by
  refine (W5_arr m ρ c 3).trans ((Region1.arrAt_3 (V4 m ρ) c).trans ?_)
  rw [hK_eq, in1_0, in1_1, in1_2, row1_scaleMat, row1_shiftMat]
  rfl

/-! ### The third launch: the edge messages -/

theorem W5_arg1 : W5 m ρ c (Proc.devRef .tc main_arg1) = m ((c : Thread nD τ).loc main_arg1) :=
  (B5 m ρ c main_arg1 (by decide) (by decide) (by decide) (by decide)).trans (W1_of m ρ c main_arg1 (by decide))
theorem W6_v20 : W6 m ρ c (Proc.devRef .tc main_v20) = hK m c :=
  (pass2 (W5 m ρ c) main_v20 (by decide)).trans (W5_v20 m ρ c)
theorem W6_v22 : W6 m ρ c (Proc.devRef .tc main_v22) = srcK (m ((c : Thread nD τ).loc main_arg1)) :=
  (H2_v22 (W5 m ρ c)).trans (congrArg srcK (W5_arg1 m ρ c))
theorem W6_v24 : W6 m ρ c (Proc.devRef .tc main_v24) = dstK (m ((c : Thread nD τ).loc main_arg1)) :=
  (H2_v24 (W5 m ρ c)).trans (congrArg dstK (W5_arg1 m ρ c))

theorem in2_0 : V7 m ρ c (Pipeline.arrRef spec2 0) = Take.hsrcFill (hK m c) (srcK (m ((c : Thread nD τ).loc main_arg1))) :=
  show StableHlo.after hostOps2_1 (W6 m ρ c) (Proc.devRef .tc main_v25) = _ from
    (H2_1_v25 (W6 m ρ c)).trans (congrArg₂ Take.hsrcFill (W6_v20 m ρ c) (W6_v22 m ρ c))
theorem in2_1 : V7 m ρ c (Pipeline.arrRef spec2 1) = m ((c : Thread nD τ).loc main_arg2) :=
  show W7 m ρ c (Proc.devRef .tc main_arg2) = _ from
    (B7 m ρ c main_arg2 (by decide) (by decide) (by decide) (by decide) (by decide) (by decide)).trans (W1_of m ρ c main_arg2 (by decide))
theorem in2_2 : V7 m ρ c (Pipeline.arrRef spec2 2) = m ((c : Thread nD τ).loc main_arg9) :=
  show W7 m ρ c (Proc.devRef .tc main_arg9) = _ from
    (B7 m ρ c main_arg9 (by decide) (by decide) (by decide) (by decide) (by decide) (by decide)).trans (W1_of m ρ c main_arg9 (by decide))
theorem in2_3 : V7 m ρ c (Pipeline.arrRef spec2 3) = rsh (m ((c : Thread nD τ).loc main_arg10)) :=
  show W7 m ρ c (Proc.devRef .tc main_v1) = _ from
    (B7 m ρ c main_v1 (by decide) (by decide) (by decide) (by decide) (by decide) (by decide)).trans (W1_v1 m ρ c)

theorem W8_v26 : W8 m ρ c (Proc.devRef .tc main_v26) = msgK m c := by
  refine (W8_arr m ρ c 4).trans ((Region2.arrAt_4 (V7 m ρ) c).trans ?_)
  unfold msgK
  rw [in2_0, in2_1, in2_2, in2_3, row1_rsh]

/-! ### The aggregation and the fourth launch: the node update -/

theorem W8_v24 : W8 m ρ c (Proc.devRef .tc main_v24) = dstK (m ((c : Thread nD τ).loc main_arg1)) :=
  (W8_of_ne m ρ c main_v24 (by decide)).trans ((pass2_1 (W6 m ρ c) main_v24 (by decide)).trans (W6_v24 m ρ c))

theorem in3_0 : V9 m ρ c (Pipeline.arrRef spec3 0) = hK m c :=
  show W9 m ρ c (Proc.devRef .tc main_v20) = _ from
    (pass3 (W8 m ρ c) main_v20 (by decide)).trans ((W8_of_ne m ρ c main_v20 (by decide)).trans
      ((pass2_1 (W6 m ρ c) main_v20 (by decide)).trans (W6_v20 m ρ c)))
theorem in3_1 : V9 m ρ c (Pipeline.arrRef spec3 1) = aggK m c :=
  show StableHlo.after hostOps3 (W8 m ρ c) (Proc.devRef .tc main_v29) = _ from
    (H3_v29 (W8 m ρ c)).trans (congrArg₂ scat (W8_v24 m ρ c) (W8_v26 m ρ c))
theorem in3_2 : V9 m ρ c (Pipeline.arrRef spec3 2) = m ((c : Thread nD τ).loc main_arg11) :=
  show W9 m ρ c (Proc.devRef .tc main_arg11) = _ from
    (B9 m ρ c main_arg11 (by decide) (by decide) (by decide) (by decide) (by decide) (by decide) (by decide) (by decide)).trans
      (W1_of m ρ c main_arg11 (by decide))
theorem in3_3 : V9 m ρ c (Pipeline.arrRef spec3 3) = rsh (m ((c : Thread nD τ).loc main_arg12)) :=
  show W9 m ρ c (Proc.devRef .tc main_v2) = _ from
    (B9 m ρ c main_v2 (by decide) (by decide) (by decide) (by decide) (by decide) (by decide) (by decide) (by decide)).trans (W1_v2 m ρ c)
theorem in3_4 : V9 m ρ c (Pipeline.arrRef spec3 4) = m ((c : Thread nD τ).loc main_arg13) :=
  show W9 m ρ c (Proc.devRef .tc main_arg13) = _ from
    (B9 m ρ c main_arg13 (by decide) (by decide) (by decide) (by decide) (by decide) (by decide) (by decide) (by decide)).trans
      (W1_of m ρ c main_arg13 (by decide))
theorem in3_5 : V9 m ρ c (Pipeline.arrRef spec3 5) = rsh (m ((c : Thread nD τ).loc main_arg14)) :=
  show W9 m ρ c (Proc.devRef .tc main_v3) = _ from
    (B9 m ρ c main_v3 (by decide) (by decide) (by decide) (by decide) (by decide) (by decide) (by decide) (by decide)).trans (W1_v3 m ρ c)

end Steps

/-- THE KERNEL'S RESULT: after the ten segments the result buffer holds the node update of the normalised features
    and the aggregated messages, all from the launch arguments. -/
theorem out_eq (c : Dev nD) :
    W10 (F := Ideal) m ρ c (Proc.devRef .tc main_v30)
      = Cert.Spec.mlp (hK m c) (aggK m c) (m ((c : Thread nD τ).loc main_arg11)) (m ((c : Thread nD τ).loc main_arg12))
          (m ((c : Thread nD τ).loc main_arg13)) (m ((c : Thread nD τ).loc main_arg14)) := by
  refine (W10_arr m ρ c 6).trans ((Region3.arrAt_6 (V9 m ρ) c).trans ?_)
  rw [in3_0, in3_1, in3_2, in3_3, in3_4, in3_5, row1_rsh, row1_rsh]

end Run

end Cert.KernelIdeal.Chain

end
-- ==== Proof.lean ====
/-
  The certificate of one graph-network layer: the idealized kernel and the idealized reference compute the same node
  update, as extended reals, from memories that agree on the arguments; and each program runs to the end leaving its
  arguments as launched.

  The layer, on 59392 nodes with 256 features and 950272 edges (Proof/Spec.lean states each stage once):
  an encoder (node features beside a gathered group embedding, a linear map, a clip at zero); batch normalisation over
  the nodes; a message per edge (the source node's row, a linear map of the edge's attributes, a clip at zero); the
  messages summed into their destination nodes; two linear layers with clips on the sum of the two.

  The kernel computes it in four tiled regions among host operations. Each region's output array is the stage's function
  of the arrays the region is entered with (Proof/Region0.lean … Region3.lean, Region0Acc.lean for the two column sums the
  first region accumulates), and the host operations between them are read off in order (Proof/KernelChain.lean), so the
  kernel's result is `mlp h agg` with `h` normalised from a scale and a shift. The reference's composed term is the same
  `mlp h' agg'` with `h'` normalised by centring (Proof/RefValueA.lean, RefValueB.lean).

  Three things join the two (`result_eq` below).
  (1) The kernel's table look-ups replace a row whose position is outside the table by a fixed filling value, the
      reference's clamp the position. Under the precondition every group id lies in [-8, 8) and every source node in
      [-59392, 59392) (Proof/PreFacts.lean), so no row is filled (Proof/Take.lean) and both read the same rows.
  (2) The two spellings of batch normalisation agree where every entry is a real number (Proof/BnLaw.lean): the encoder's
      output is real because the inputs are finite, the mean of the squared deviations is the mean of the squares less the
      squared mean, and the variance plus a positive offset has a real reciprocal square root.
  (3) The message's three summands are bracketed differently; addition of extended reals is associative.
  The gathers and the scatter-add are the same operations on both sides and are never opened.

  `preserves` has nothing to state: the idealization rewrote no operation.
-/
import proofs.«425756_j88742614270020_1_alg».proof.Defs
import proofs.«425756_j88742614270020_1_alg».proof.Proof.Gen.Kernel
import proofs.«425756_j88742614270020_1_alg».proof.Proof.Gen.Kernel.Frame
import proofs.«425756_j88742614270020_1_alg».proof.Proof.Gen.KernelIdeal
import proofs.«425756_j88742614270020_1_alg».proof.Proof.Gen.KernelIdeal.Frame
import proofs.«425756_j88742614270020_1_alg».proof.Proof.Gen.ReferenceIdeal
import proofs.«425756_j88742614270020_1_alg».proof.Proof.Gen.ReferenceIdeal.Run
import proofs.«425756_j88742614270020_1_alg».proof.Proof.Gen.ReferenceIdeal.Read
import proofs.«425756_j88742614270020_1_alg».proof.Proof.Gen.Pre_finite_inputs
import proofs.«425756_j88742614270020_1_alg».proof.Proof.Spec
import proofs.«425756_j88742614270020_1_alg».proof.Proof.BnLaw
import proofs.«425756_j88742614270020_1_alg».proof.Proof.PreFacts
import proofs.«425756_j88742614270020_1_alg».proof.Proof.Take
import proofs.«425756_j88742614270020_1_alg».proof.Proof.RefValueA
import proofs.«425756_j88742614270020_1_alg».proof.Proof.RefValueB
import proofs.«425756_j88742614270020_1_alg».proof.Proof.KernelRun
import proofs.«425756_j88742614270020_1_alg».proof.Proof.KernelChain
import Idealize.ShloMosaic.Adequacy
import Idealize.ShloMosaic.Init

set_option maxRecDepth 16384

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

open Cert.ReferenceIdeal.Read in
/-- The one equation between the two programs' results, on a device `c`, from memories that agree on the arguments. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hp : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = (fun _ => 1#1))
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))) :
    Cert.ReferenceIdeal.Value.res_main_v68 (F := Ideal) m' c
      = Cert.KernelIdeal.Gen.W10 (F := Ideal) m ρ c (Proc.devRef .tc Cert.KernelIdeal.main_v30) := by
  rw [val_main_v68_eq m' c, h0, h1, h2, h3, h4, h5, h6, h7, h8, h9, h10, h11, h12, h13, h14]
  obtain ⟨r0, r4, r5, r6, r7, r8, hid, hsrc⟩ := Cert.PreFacts.of_pre _ _ _ _ _ _ _ _ _ _ _ _ _ _ _ hp
  -- the group-embedding look-up fills nothing, and gathers real rows
  have hge : Cert.KernelIdeal.Take.geFill (m ((c.tc : Thread Cert.KernelIdeal.nD Cert.KernelIdeal.τ).loc Cert.KernelIdeal.main_arg4)) (m ((c.tc : Thread Cert.KernelIdeal.nD Cert.KernelIdeal.τ).loc Cert.KernelIdeal.main_arg3)) = val_main_v6 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) :=
    (Cert.KernelIdeal.Take.geFill_eq _ _ hid).trans rfl
  have geR : Cert.Spec.IsReal (val_main_v6 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) := fun j => r4 _
  -- the normalised features agree: the scaled spelling is the centred one on real entries
  have hH : Cert.KernelIdeal.Chain.hK m c = val_main_v37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
    unfold Cert.KernelIdeal.Chain.hK
    rw [hge, Cert.RefValue.bn_eq, Cert.RefValue.enc_eq]
    exact Cert.Spec.bnScaled_eq_bnCentred _ _ _ (Cert.Spec.enc_isReal _ _ _ _ r0 geR r5 r6) r7 r8
  -- the aggregated messages agree: no source row is filled, the message's three summands bracket either way
  have hA : Cert.KernelIdeal.Chain.aggK m c = val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
    unfold Cert.KernelIdeal.Chain.aggK
    rw [hH, Cert.KernelIdeal.Take.hsrcFill_eq _ (Cert.KernelIdeal.Chain.srcK (m ((c.tc : Thread Cert.KernelIdeal.nD Cert.KernelIdeal.τ).loc Cert.KernelIdeal.main_arg1))) (fun i => hsrc i), Cert.Spec.msgRight_eq_msgLeft]
    have e48 : Host.gather Cert.KernelIdeal.gather_S59392x256_S950272x1_S950272x256_1_0_n_n_0_1_1256
          (val_main_v37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
          (Cert.KernelIdeal.Take.wsrc (Cert.KernelIdeal.Chain.srcK (m ((c.tc : Thread Cert.KernelIdeal.nD Cert.KernelIdeal.τ).loc Cert.KernelIdeal.main_arg1))))
        = val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := rfl
    rw [e48, ← Cert.RefValue.msg_eq]
    rfl
  rw [Cert.RefValue.out_eq, Cert.KernelIdeal.Chain.out_eq m ρ c, hH, hA]

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v30),
    fun c => m ((c.tc : Thread Cert.KernelIdeal.nD Cert.KernelIdeal.τ).loc Cert.KernelIdeal.main_arg2),
    Cert.KernelIdeal.RunValue.run (F := Ideal) m ρ, ?_⟩
  refine (θ_run Cert.ReferenceIdeal.defs _ _).mono (fun r h c => ⟨(h c).1.trans ?_, (h c).2.1.trans (hagree c).2.2.1, (h c).2.2⟩)
    (Cert.ReferenceIdeal.Value.run (F := Ideal) m' ρ')
  obtain ⟨h0, h1, h2, h3, h4, h5, h6, h7, h8, h9, h10, h11, h12, h13, h14⟩ := hagree c
  exact result_eq m ρ m' c (hpre c) h0 h1 h2 h3 h4 h5 h6 h7 h8 h9 h10 h11 h12 h13 h14

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
